-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4096x128 .f32) (main_arg1 : IVec S4096x4096 32) (main_arg2 : FVec F S128x128 .f32) (main_arg3 : FVec F S128 .f32) (main_arg4 : FVec F S128x128 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S4096x1 : Shape := ⟨2, ![4096, 1]⟩
abbrev S1x128 : Shape := ⟨2, ![1, 128]⟩
abbrev S512x4096 : Shape := ⟨2, ![512, 4096]⟩
abbrev S512x1 : Shape := ⟨2, ![512, 1]⟩
abbrev S512x128 : Shape := ⟨2, ![512, 128]⟩

abbrev nBuf : Space → Nat
  | .hbm => 12
  | .vmem => 24
  | .smem => 0
  | _ => 0

abbrev bufTy : (tb : Table) → Fin (tcTables nBuf tb) → BufTy
  | .hbm, ⟨0, _⟩ => ⟨S4096x128, .f32⟩
  | .hbm, ⟨1, _⟩ => ⟨S4096x4096, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4096x4096, .bf16⟩
  | .hbm, ⟨7, _⟩ => ⟨S4096x1, .f32⟩
  | .hbm, ⟨8, _⟩ => ⟨S1x128, .f32⟩
  | .hbm, ⟨9, _⟩ => ⟨S4096x128, .f32⟩
  | .hbm, ⟨10, _⟩ => ⟨S1x128, .f32⟩
  | .hbm, ⟨11, _⟩ => ⟨S4096x128, .f32⟩
  | .local _ .vmem, ⟨0, _⟩ => ⟨S512x4096, .i32⟩
  | .local _ .vmem, ⟨1, _⟩ => ⟨S512x4096, .i32⟩
  | .local _ .vmem, ⟨2, _⟩ => ⟨S512x4096, .bf16⟩
  | .local _ .vmem, ⟨3, _⟩ => ⟨S512x4096, .bf16⟩
  | .local _ .vmem, ⟨4, _⟩ => ⟨S4096x1, .f32⟩
  | .local _ .vmem, ⟨5, _⟩ => ⟨S4096x1, .f32⟩
  | .local _ .vmem, ⟨6, _⟩ => ⟨S4096x128, .f32⟩
  | .local _ .vmem, ⟨7, _⟩ => ⟨S128x128, .f32⟩
  | .local _ .vmem, ⟨8, _⟩ => ⟨S1x128, .f32⟩
  | .local _ .vmem, ⟨9, _⟩ => ⟨S4096x1, .f32⟩
  | .local _ .vmem, ⟨10, _⟩ => ⟨S512x4096, .bf16⟩
  | .local _ .vmem, ⟨11, _⟩ => ⟨S512x4096, .bf16⟩
  | .local _ .vmem, ⟨12, _⟩ => ⟨S4096x128, .f32⟩
  | .local _ .vmem, ⟨13, _⟩ => ⟨S4096x128, .bf16⟩
  | .local _ .vmem, ⟨14, _⟩ => ⟨S4096x128, .f32⟩
  | .local _ .vmem, ⟨15, _⟩ => ⟨S4096x128, .f32⟩
  | .local _ .vmem, ⟨16, _⟩ => ⟨S128x128, .f32⟩
  | .local _ .vmem, ⟨17, _⟩ => ⟨S1x128, .f32⟩
  | .local _ .vmem, ⟨18, _⟩ => ⟨S4096x1, .f32⟩
  | .local _ .vmem, ⟨19, _⟩ => ⟨S512x4096, .bf16⟩
  | .local _ .vmem, ⟨20, _⟩ => ⟨S512x4096, .bf16⟩
  | .local _ .vmem, ⟨21, _⟩ => ⟨S4096x128, .f32⟩
  | .local _ .vmem, ⟨22, _⟩ => ⟨S4096x128, .bf16⟩
  | .local _ .vmem, ⟨23, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0_0 : Ref sig .tc := ⟨.hbm, 6, rfl⟩
abbrev main_call0_v0_1 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_7 : BitVec 32 := 0#32
  let v21 : BitVec 1 := Scalar.cmpi .ne v20 c0_i32_7
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k1_cond4 (i : grid1.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4096x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![8], ![false]⟩

def k2_off1 (i : grid2.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k2_cond4 (i : grid2.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_7 : BitVec 32 := 0#32
  let v17 : BitVec 1 := Scalar.cmpi .ne v16 c0_i32_7
  v17

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S4096x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  shapeCasts_S128_S1x128 : S128.ShapeCasts S1x128
  inb_S512x4096_S512x4096_0_0 : ∀ a, (![0, 0] : Fin 2 → Nat) a + S512x4096.size a ≤ S512x4096.size a
  h_S512x4096 : 0 < S512x4096.numel
  iota_S512x4096_d0_w32 : S512x4096.Iotas .tc 32 [0]
  iota_S512x4096_d1_w32 : S512x4096.Iotas .tc 32 [1]
  packedbf16_S512x4096_S512x4096_0_0 : (Rect.unit (s := S512x4096) ![0, 0] S512x4096.size inb_S512x4096_S512x4096_0_0).PackedRows (EltTy.packing .bf16)
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  broadcasts_S4096x1_S4096x128 : S4096x1.Broadcasts S4096x128
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  h_S512x128 : 0 < S512x128.numel
  shapeCasts_S512x4096_S512x4096 : S512x4096.ShapeCasts S512x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S512x4096_S512x1_S4096x1_0_0_1_1_n_n_wf : DotDims.WF S512x4096 S512x1 S4096x1 [0] [0] [1] [1] [] []
  dot_S4096x128_S128x128_S4096x128_1_0_0_1_n_n_wf : DotDims.WF S4096x128 S128x128 S4096x128 [1] [0] [0] [1] [] []
  dot_S512x4096_S512x128_S4096x128_0_0_1_1_n_n_wf : DotDims.WF S512x4096 S512x128 S4096x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .i32 = 32 ∨ (Rect.block (s := S4096x4096) S512x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4096x1.size a
  hwx0_2 : ∀ i : grid0.Coords, EltTy.bits .f32 = 32 ∨ (Rect.block (s := S4096x1) S4096x1.size (cc0_transform_2 i) (hinb0_2 i)).WholeWords (EltTy.packing .f32)
  hrank1 : 0 < grid1.rank
  k1_off1_inb : ∀ i : grid1.Coords, ∀ a, (k1_off1 i) a + S512x128.size a ≤ S4096x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S4096x1.size a
  hwx1_3 : ∀ i : grid1.Coords, EltTy.bits .f32 = 32 ∨ (Rect.block (s := S4096x1) S4096x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S4096x4096.size a
  hwx1_4 : ∀ i : grid1.Coords, EltTy.bits .bf16 = 32 ∨ (Rect.block (s := S4096x4096) S512x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S4096x128.size a
  hwx1_5 : ∀ i : grid1.Coords, EltTy.bits .f32 = 32 ∨ (Rect.block (s := S4096x128) S4096x128.size (cc1_transform_5 i) (hinb1_5 i)).WholeWords (EltTy.packing .f32)
  hrank2 : 0 < grid2.rank
  k2_off1_inb : ∀ i : grid2.Coords, ∀ a, (k2_off1 i) a + S512x128.size a ≤ S4096x128.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x1.size a ≤ S4096x1.size a
  hwx2_3 : ∀ i : grid2.Coords, EltTy.bits .f32 = 32 ∨ (Rect.block (s := S4096x1) S4096x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x4096.size a ≤ S4096x4096.size a
  hwx2_4 : ∀ i : grid2.Coords, EltTy.bits .bf16 = 32 ∨ (Rect.block (s := S4096x4096) S512x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S4096x128.size a
  hwx2_5 : ∀ i : grid2.Coords, EltTy.bits .f32 = 32 ∨ (Rect.block (s := S4096x128) S4096x128.size (cc2_transform_5 i) (hinb2_5 i)).WholeWords (EltTy.packing .f32)

variable [Facts₀]

def dot_S512x4096_S512x1_S4096x1_0_0_1_1_n_n : DotDims S512x4096 S512x1 S4096x1 where
  lhsContracting := [0]
  rhsContracting := [0]
  lhsNonContracting := [1]
  rhsNonContracting := [1]
  lhsBatch := []
  rhsBatch := []
  wf := dot_S512x4096_S512x1_S4096x1_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S512x128_S4096x128_0_0_1_1_n_n : DotDims S512x4096 S512x128 S4096x128 where
  lhsContracting := [0]
  rhsContracting := [0]
  lhsNonContracting := [1]
  rhsNonContracting := [1]
  lhsBatch := []
  rhsBatch := []
  wf := dot_S512x4096_S512x128_S4096x128_0_0_1_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_1) S4096x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg0) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v0_1) S4096x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v0_0) S512x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v2) S4096x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond4 i == 1#1) | ⟨_ + 6, h⟩ => absurd h (Nat.not_lt.2 (Nat.le_add_left _ _))

abbrev win2_0 : Pipeline.Window sig grid2 :=
  Pipeline.Window.ofSpec (Memref.whole main_call0_v2) S4096x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v0_1) S4096x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v0_0) S512x4096.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v0) S4096x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond4 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4096x4096, .f32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .i1⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x128, .f32⟩
  | .hbm, ⟨41, _⟩ => ⟨S4096x4096, .f32⟩
  | .hbm, ⟨42, _⟩ => ⟨S4096x128, .f32⟩
  | .hbm, ⟨43, _⟩ => ⟨S1x128, .f32⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4096x4096, .f32⟩
  | .hbm, ⟨51, _⟩ => ⟨S4096x128, .f32⟩
  | .hbm, ⟨52, _⟩ => ⟨S1x128, .f32⟩
  | .hbm, ⟨53, _⟩ => ⟨S4096x128, .f32⟩
  | .hbm, ⟨54, _⟩ => ⟨S4096x128, .f32⟩
  | .hbm, ⟨55, _⟩ => ⟨S_, .f32⟩
  | .hbm, ⟨56, _⟩ => ⟨S4096x128, .f32⟩
  | .hbm, ⟨57, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call2_cst : Ref sig .tc := ⟨.hbm, 46, rfl⟩
abbrev main_call2_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call3_cst : Ref sig .tc := ⟨.hbm, 55, rfl⟩
abbrev main_call3_v0 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d0 : S4096x4096.ReducesTo [0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Kernel.R0Data.lean ====
/-
  Region 0 (the preparation pass) as proof data for the pipeline library.

  At grid point t the body reads row block t of the integer adjacency matrix (512 rows, all 4096 columns), writes the
  block with its diagonal forced to one, converted to floats, into output window 1 (written back at every point), and
  adds the block's column sums — a product with a column of ones — into a scratch column: stored at the first point,
  added to at every later one. At the last point it stores, into output window 2 (written back there only), the
  scratch's entrywise inverse square root where it is positive and zero elsewhere. The scratch is carried from point
  to point, so the region's invariant names its contents after each point.
-/
import proofs.«137975_g29910152249793_cont_9to1_356_2_alg».proof.Proof.Gen.Kernel.Launch
import proofs.«137975_g29910152249793_cont_9to1_356_2_alg».proof.Proof.Gen.Kernel.Skeleton
import proofs.«137975_g29910152249793_cont_9to1_356_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Row block t of the adjacency matrix. -/
abbrev adjBlk0 (c : Dev nD) (t : Fin cfg0.N) : Vec F S512x4096 .i32 := iblk0 V c 0 t

/-! ## The carried column sums -/

/-- The scratch column after the body at position n: the first block's column sums, then each later block's added. -/
def degAcc0 (c : Dev nD) : (n : ℕ) → n < cfg0.N → Vec F S4096x1 .f32
  | 0, hn => k0_pay3 (grid0.coords ⟨0, hn⟩) (adjBlk0 V c ⟨0, hn⟩)
  | n + 1, hn => k0_pay4 (grid0.coords ⟨n + 1, hn⟩) (adjBlk0 V c ⟨n + 1, hn⟩) (degAcc0 c n (Nat.lt_of_succ_lt hn))

theorem degAccZero0 (c : Dev nD) (hn : 0 < cfg0.N) :
    degAcc0 V c 0 hn = k0_pay3 (grid0.coords ⟨0, hn⟩) (adjBlk0 V c ⟨0, hn⟩) := rfl
theorem degAccSucc0 (c : Dev nD) (n : ℕ) (hn : n + 1 < cfg0.N) :
    degAcc0 V c (n + 1) hn = k0_pay4 (grid0.coords ⟨n + 1, hn⟩) (adjBlk0 V c ⟨n + 1, hn⟩) (degAcc0 V c n (Nat.lt_of_succ_lt hn)) := rfl

/-! ## The invariant -/

/-- The scratch operand: a whole scoped buffer of the kernel's own. -/
abbrev scM0 : Memref sig .tc .vmem S4096x1 .f32 := Memref.whole cc0_scratch0

/-- The core's scoped buffers other than the scratch and this region's staging buffers, each whole at some contents:
    what the body never touches. -/
def other0 (c : Dev nD) : sProp 𝕄 :=
  iprop((∃ f : Buf (Elt F) ((c : Thread nD τ).loc cc1_stg0_0), ((c : Thread nD τ).loc cc1_stg0_0) ↦{fullShare} f) ∗
    (∃ f : Buf (Elt F) ((c : Thread nD τ).loc cc1_stg1_0), ((c : Thread nD τ).loc cc1_stg1_0) ↦{fullShare} f) ∗
    (∃ f : Buf (Elt F) ((c : Thread nD τ).loc cc1_stg2_0), ((c : Thread nD τ).loc cc1_stg2_0) ↦{fullShare} f) ∗
    (∃ f : Buf (Elt F) ((c : Thread nD τ).loc cc1_stg3_0), ((c : Thread nD τ).loc cc1_stg3_0) ↦{fullShare} f) ∗
    (∃ f : Buf (Elt F) ((c : Thread nD τ).loc cc1_stg4_0), ((c : Thread nD τ).loc cc1_stg4_0) ↦{fullShare} f) ∗
    (∃ f : Buf (Elt F) ((c : Thread nD τ).loc cc1_stg4_1), ((c : Thread nD τ).loc cc1_stg4_1) ↦{fullShare} f) ∗
    (∃ f : Buf (Elt F) ((c : Thread nD τ).loc cc1_stg5_0), ((c : Thread nD τ).loc cc1_stg5_0) ↦{fullShare} f) ∗
    (∃ f : Buf (Elt F) ((c : Thread nD τ).loc cc1_scratch0), ((c : Thread nD τ).loc cc1_scratch0) ↦{fullShare} f) ∗
    (∃ f : Buf (Elt F) ((c : Thread nD τ).loc cc1_scratch1), ((c : Thread nD τ).loc cc1_scratch1) ↦{fullShare} f) ∗
    (∃ f : Buf (Elt F) ((c : Thread nD τ).loc cc2_stg0_0), ((c : Thread nD τ).loc cc2_stg0_0) ↦{fullShare} f) ∗
    (∃ f : Buf (Elt F) ((c : Thread nD τ).loc cc2_stg1_0), ((c : Thread nD τ).loc cc2_stg1_0) ↦{fullShare} f) ∗
    (∃ f : Buf (Elt F) ((c : Thread nD τ).loc cc2_stg2_0), ((c : Thread nD τ).loc cc2_stg2_0) ↦{fullShare} f) ∗
    (∃ f : Buf (Elt F) ((c : Thread nD τ).loc cc2_stg3_0), ((c : Thread nD τ).loc cc2_stg3_0) ↦{fullShare} f) ∗
    (∃ f : Buf (Elt F) ((c : Thread nD τ).loc cc2_stg4_0), ((c : Thread nD τ).loc cc2_stg4_0) ↦{fullShare} f) ∗
    (∃ f : Buf (Elt F) ((c : Thread nD τ).loc cc2_stg4_1), ((c : Thread nD τ).loc cc2_stg4_1) ↦{fullShare} f) ∗
    (∃ f : Buf (Elt F) ((c : Thread nD τ).loc cc2_stg5_0), ((c : Thread nD τ).loc cc2_stg5_0) ↦{fullShare} f) ∗
    (∃ f : Buf (Elt F) ((c : Thread nD τ).loc cc2_scratch0), ((c : Thread nD τ).loc cc2_scratch0) ↦{fullShare} f) ∗
    (∃ f : Buf (Elt F) ((c : Thread nD τ).loc cc2_scratch1), ((c : Thread nD τ).loc cc2_scratch1) ↦{fullShare} f))

/-- The region's invariant before position n: before the first point every scratch buffer at anything (the class's
    invariant); afterwards the scratch column at the sums so far, the rest at anything, the generator register at some state. -/
def PhiS0 (c : Dev nD) : (n : ℕ) → n ≤ cfg0.N → sProp 𝕄
  | 0, _ => Pipeline.ΦA spec0 c
  | n + 1, hn => iprop(owns (c : Thread nD τ) scM0 fullShare (degAcc0 V c n hn) ∗ other0 c ∗ (∃ r, prngReg c r))

/-! ## The proof data -/

/-- Pipeline 0's proof data on core c: the arrays as the region finds them; after the body at point t the input's
    buffer at its block, output 1's at the block with its diagonal forced, output 2's at the inverse square roots of the
    sums so far (consulted at the last point only: elsewhere the window is idle and not written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (grid0.coords t) (adjBlk0 V c t)
    | ⟨2, _⟩ => k0_pay5 (degAcc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (grid0.coords t) (adjBlk0 V c t) := by dsimp only [dat0]
theorem after0_2 (c : Dev nD) (t : Fin cfg0.N) : (dat0 V c).after 2 t = k0_pay5 (degAcc0 V c t.val t.isLt) := by dsimp only [dat0]

end Cert.Kernel.Hand

end
-- ==== Proof.Kernel.R0Run.lean ====
/-
  Region 0: the kernel body run once per control case.
-/
import proofs.«137975_g29910152249793_cont_9to1_356_2_alg».proof.Proof.Gen.Kernel.Launch
import proofs.«137975_g29910152249793_cont_9to1_356_2_alg».proof.Proof.Gen.Kernel.Skeleton
import proofs.«137975_g29910152249793_cont_9to1_356_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Reading back a whole-buffer store, and a whole-buffer load -/

theorem zeroOff0_S512x4096 : (![0, 0] : Fin S512x4096.rank → ℕ) = fun _ => 0 := by funext a; fin_cases a <;> rfl
theorem zeroOff0_S4096x1 : (![0, 0] : Fin S4096x1.rank → ℕ) = fun _ => 0 := by funext a; fin_cases a <;> rfl

/-- One store through the whole-shape rectangle at zero offsets, read back through the view, is its payload,
    whatever the buffer held before. -/
theorem read_writes_unit_zero0 {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

/-- A load through that rectangle off a whole buffer held at the raw contents of X reads X. -/
theorem readAt_unread_unit_zero0 {κ : Kind} {sp : Space} {S : Shape} {e : EltTy}
    {m : Memref sig κ sp S e} (hm : m.IsWhole) (X : S.Idx → Elt F e) {off : Fin S.rank → Nat} (h : off = fun _ => 0)
    (inb : ∀ a, off a + S.size a ≤ S.size a) :
    m.view.readAt (Elt F) (Rect.unit off S.size inb).toLoadRect (hm.unread X) = X := by
  rw [View.readAt_eq_ld, hm.read_unread, View.ld_unit_zero h]

/-! ## The body's three conditions, in closed form over the grid -/

/-- The first conditional's test: the row-block coordinate is zero. -/
abbrev condFirst0 (i : grid0.Coords) : Prop :=
  (Scalar.cmpi .ne (Scalar.extui (Scalar.cmpi .eq (BitVec.ofNat 32 (i 0).val) 0#32)) 0#32) = 1#1
/-- It holds at the first point only. -/
theorem hcondFirst0 : ∀ t : Fin cfg0.N, condFirst0 (grid0.coords t) ↔ t.val = 0 :=
  (by decide +kernel : ∀ t : Fin grid0.N, condFirst0 (grid0.coords t) ↔ t.val = 0)

/-- The second conditional's test: the row-block coordinate is positive. -/
abbrev condLater0 (i : grid0.Coords) : Prop :=
  (Scalar.cmpi .ne (Scalar.extui (Scalar.cmpi .sgt (BitVec.ofNat 32 (i 0).val) 0#32)) 0#32) = 1#1
/-- It holds at every point but the first. -/
theorem hcondLater0 : ∀ t : Fin cfg0.N, condLater0 (grid0.coords t) ↔ 0 < t.val :=
  (by decide +kernel : ∀ t : Fin grid0.N, condLater0 (grid0.coords t) ↔ 0 < t.val)

/-- The third conditional's test: the row-block coordinate is the last one. -/
abbrev condLast0 (i : grid0.Coords) : Prop := k0_cond3 i = 1#1
/-- It holds at the last point only. -/
theorem hcondLast0 : ∀ t : Fin cfg0.N, condLast0 (grid0.coords t) ↔ t.val = 7 :=
  (by decide +kernel : ∀ t : Fin grid0.N, condLast0 (grid0.coords t) ↔ t.val = 7)

/-! ## Where the windows are idle, and where the last one is not written back -/

/-- The input window is never idle. -/
theorem liveAt0_0 : ∀ t : Fin cfg0.N, cfg0.idle 0 (grid0.coords t) = false := by decide +kernel
/-- Nor is the first output window. -/
theorem liveAt0_1 : ∀ t : Fin cfg0.N, cfg0.idle 1 (grid0.coords t) = false := by decide +kernel
/-- The second output window is idle wherever the last conditional's test fails, -/
theorem idleAt0_2 : ∀ t : Fin cfg0.N, ¬condLast0 (grid0.coords t) → cfg0.idle 2 (grid0.coords t) = true := by decide +kernel
/-- is not written back there, -/
theorem noFlush0_2 : ∀ t : Fin cfg0.N, ¬condLast0 (grid0.coords t) → (cfg0.win 2).flush t = false := by decide +kernel
/-- and is live where the test holds. -/
theorem liveAt0_2 : ∀ t : Fin cfg0.N, condLast0 (grid0.coords t) → cfg0.idle 2 (grid0.coords t) = false := by decide +kernel

/-! ## The staging memrefs the body is called with -/

abbrev sm0_0 (t : Fin cfg0.N) : Memref sig .tc .vmem S512x4096 .i32 := win0_0.stage (cfg0.slots t 0)
abbrev hsm0_0 (t : Fin cfg0.N) : (sm0_0 t).IsWhole := hstage0_0 ((cfg0.slots t 0).cast nbuf0_0)
abbrev sm0_1 (t : Fin cfg0.N) : Memref sig .tc .vmem S512x4096 .bf16 := win0_1.stage (cfg0.slots t 1)
abbrev hsm0_1 (t : Fin cfg0.N) : (sm0_1 t).IsWhole := hstage0_1 ((cfg0.slots t 1).cast nbuf0_1)
abbrev sm0_2 (t : Fin cfg0.N) : Memref sig .tc .vmem S4096x1 .f32 := win0_2.stage (cfg0.slots t 2)
abbrev hsm0_2 (t : Fin cfg0.N) : (sm0_2 t).IsWhole := hstage0_2 ((cfg0.slots t 2).cast nbuf0_2)

/-! ## The body, once per control case

On whole memrefs: the adjacency block's at x0, the first output's at anything, the scratch column's at anything
(first point) or at xs (later points). Each case names what it leaves by the skeleton's payloads. Where the last
conditional's test fails the body never touches the second output's memref, so those runs do not mention it. -/

set_option maxHeartbeats 1000000 in
/-- First point: the block with its diagonal forced goes to the first output, its column sums to the scratch. -/
theorem runFirst0 (c : Dev nD) (i : grid0.Coords)
    (arg1 : Memref sig .tc .vmem S512x4096 .i32) (harg1 : arg1.IsWhole)
    (arg2 : Memref sig .tc .vmem S512x4096 .bf16) (harg2 : arg2.IsWhole)
    (arg3 : Memref sig .tc .vmem S4096x1 .f32) (harg3 : arg3.IsWhole)
    (arg4 : Memref sig .tc .vmem S4096x1 .f32) (harg4 : arg4.IsWhole)
    (hc1 : condFirst0 i) (hc2 : ¬condLater0 i) (hc3 : ¬condLast0 i)
    (x0 : Vec F S512x4096 .i32) (E : Set ℕ) (K : PUnit → sProp 𝕄) :
    iprop(owns (c : Thread nD τ) arg1 fullShare x0 ∗ (∃ d, owns (c : Thread nD τ) arg2 fullShare d) ∗ (∃ d, owns (c : Thread nD τ) arg4 fullShare d)
        ∗ (iprop(owns (c : Thread nD τ) arg1 fullShare x0 ∗ owns (c : Thread nD τ) arg2 fullShare (k0_pay1 i x0) ∗ owns (c : Thread nD τ) arg4 fullShare (k0_pay3 i x0)) -∗ K ⟨⟩))
      ⊢ wp frame (wpE (defs₀ (F := F)) Variants.none c none) E (cc0__prep_body i arg1 harg1 arg2 harg2 arg3 harg3 arg4 harg4) K := by
  simp only [cc0__prep_body_eq_skeleton]; unfold cc0__prep_body_skel
  unfold owns
  iintro ⟨⟨%f1, %hf1, H1⟩, ⟨%d2, %f2, -, H2⟩, ⟨%d4, %f4, -, H4⟩, Hk⟩
  obtain rfl := harg1.eq_unread hf1
  sl_exec (disch := first | exact hc1 | exact hc2 | exact hc3)
  sl_step
  iapply Hk
  isplitl [H1]
  · iexists _; isplitr; · ipureintro; exact harg1.read_unread _
    iexact H1
  isplitl [H2]
  · iexists _; isplitr
    swap; · iexact H2
    ipureintro
    rw [read_writes_unit_zero0 _ _ zeroOff0_S512x4096, readAt_unread_unit_zero0 harg1 x0 zeroOff0_S512x4096]
  · iexists _; isplitr
    swap; · iexact H4
    ipureintro
    rw [read_writes_unit_zero0 _ _ zeroOff0_S4096x1, readAt_unread_unit_zero0 harg1 x0 zeroOff0_S512x4096]

set_option maxHeartbeats 1000000 in
/-- A middle point: the first output as before; the block's column sums are added to the scratch. -/
theorem runMid0 (c : Dev nD) (i : grid0.Coords)
    (arg1 : Memref sig .tc .vmem S512x4096 .i32) (harg1 : arg1.IsWhole)
    (arg2 : Memref sig .tc .vmem S512x4096 .bf16) (harg2 : arg2.IsWhole)
    (arg3 : Memref sig .tc .vmem S4096x1 .f32) (harg3 : arg3.IsWhole)
    (arg4 : Memref sig .tc .vmem S4096x1 .f32) (harg4 : arg4.IsWhole)
    (hc1 : ¬condFirst0 i) (hc2 : condLater0 i) (hc3 : ¬condLast0 i)
    (x0 : Vec F S512x4096 .i32) (xs : Vec F S4096x1 .f32) (E : Set ℕ) (K : PUnit → sProp 𝕄) :
    iprop(owns (c : Thread nD τ) arg1 fullShare x0 ∗ (∃ d, owns (c : Thread nD τ) arg2 fullShare d) ∗ owns (c : Thread nD τ) arg4 fullShare xs
        ∗ (iprop(owns (c : Thread nD τ) arg1 fullShare x0 ∗ owns (c : Thread nD τ) arg2 fullShare (k0_pay1 i x0) ∗ owns (c : Thread nD τ) arg4 fullShare (k0_pay4 i x0 xs)) -∗ K ⟨⟩))
      ⊢ wp frame (wpE (defs₀ (F := F)) Variants.none c none) E (cc0__prep_body i arg1 harg1 arg2 harg2 arg3 harg3 arg4 harg4) K := by
  simp only [cc0__prep_body_eq_skeleton]; unfold cc0__prep_body_skel
  unfold owns
  iintro ⟨⟨%f1, %hf1, H1⟩, ⟨%d2, %f2, -, H2⟩, ⟨%f4, %hf4, H4⟩, Hk⟩
  obtain rfl := harg1.eq_unread hf1; obtain rfl := harg4.eq_unread hf4
  sl_exec (disch := first | exact hc1 | exact hc2 | exact hc3)
  sl_step
  iapply Hk
  isplitl [H1]
  · iexists _; isplitr; · ipureintro; exact harg1.read_unread _
    iexact H1
  isplitl [H2]
  · iexists _; isplitr
    swap; · iexact H2
    ipureintro
    rw [read_writes_unit_zero0 _ _ zeroOff0_S512x4096, readAt_unread_unit_zero0 harg1 x0 zeroOff0_S512x4096]
  · iexists _; isplitr
    swap; · iexact H4
    ipureintro
    rw [read_writes_unit_zero0 _ _ zeroOff0_S4096x1, readAt_unread_unit_zero0 harg1 x0 zeroOff0_S512x4096,
      readAt_unread_unit_zero0 harg4 xs zeroOff0_S4096x1]

set_option maxHeartbeats 1000000 in
/-- The last point: as a middle point, and the second output gets the inverse square roots of the sums just stored. -/
theorem runLast0 (c : Dev nD) (i : grid0.Coords)
    (arg1 : Memref sig .tc .vmem S512x4096 .i32) (harg1 : arg1.IsWhole)
    (arg2 : Memref sig .tc .vmem S512x4096 .bf16) (harg2 : arg2.IsWhole)
    (arg3 : Memref sig .tc .vmem S4096x1 .f32) (harg3 : arg3.IsWhole)
    (arg4 : Memref sig .tc .vmem S4096x1 .f32) (harg4 : arg4.IsWhole)
    (hc1 : ¬condFirst0 i) (hc2 : condLater0 i) (hc3 : condLast0 i)
    (x0 : Vec F S512x4096 .i32) (xs : Vec F S4096x1 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs
        ∗ (iprop(owns (c : Thread nD τ) arg1 fullShare x0 ∗ owns (c : Thread nD τ) arg2 fullShare (k0_pay1 i x0) ∗ owns (c : Thread nD τ) arg3 fullShare (k0_pay5 (k0_pay4 i x0 xs)) ∗ owns (c : Thread nD τ) arg4 fullShare (k0_pay4 i x0 xs)) -∗ K ⟨⟩))
      ⊢ wp frame (wpE (defs₀ (F := F)) Variants.none c none) E (cc0__prep_body i arg1 harg1 arg2 harg2 arg3 harg3 arg4 harg4) K := by
  simp only [cc0__prep_body_eq_skeleton]; unfold cc0__prep_body_skel
  unfold owns
  iintro ⟨⟨%f1, %hf1, H1⟩, ⟨%d2, %f2, -, H2⟩, ⟨%d3, %f3, -, H3⟩, ⟨%f4, %hf4, H4⟩, Hk⟩
  obtain rfl := harg1.eq_unread hf1; obtain rfl := harg4.eq_unread hf4
  sl_exec (disch := first | exact hc1 | exact hc2 | exact hc3)
  sl_step
  iapply Hk
  isplitl [H1]
  · iexists _; isplitr; · ipureintro; exact harg1.read_unread _
    iexact H1
  isplitl [H2]
  · iexists _; isplitr
    swap; · iexact H2
    ipureintro
    sl_unfold_run_names
    rw [read_writes_unit_zero0 _ _ zeroOff0_S512x4096, readAt_unread_unit_zero0 harg1 x0 zeroOff0_S512x4096]
  isplitl [H3]
  · iexists _; isplitr
    swap; · iexact H3
    ipureintro
    sl_unfold_run_names
    rw [read_writes_unit_zero0 _ _ zeroOff0_S4096x1]
    rw [View.readCov_unit_zero (S := S4096x1) arg4.view zeroOff0_S4096x1,
      readAt_unread_unit_zero0 harg1 x0 zeroOff0_S512x4096, readAt_unread_unit_zero0 harg4 xs zeroOff0_S4096x1]
  · iexists _; isplitr
    swap; · iexact H4
    ipureintro
    sl_unfold_run_names
    rw [read_writes_unit_zero0 _ _ zeroOff0_S4096x1, readAt_unread_unit_zero0 harg1 x0 zeroOff0_S512x4096,
      readAt_unread_unit_zero0 harg4 xs zeroOff0_S4096x1]

end Cert.Kernel.Hand

end
-- ==== Proof.Kernel.R0Body.lean ====
/-
  Region 0: the body meets the proof data at every grid point, and the invariant's two ends.
-/
import proofs.«137975_g29910152249793_cont_9to1_356_2_alg».proof.Proof.Kernel.R0Data
import proofs.«137975_g29910152249793_cont_9to1_356_2_alg».proof.Proof.Kernel.R0Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

/-! ## The class's invariant, opened -/

/-- The class's invariant names every scoped buffer that is no staging buffer of this region at some contents, and
    the generator register at some state: the scratch column, owned as a memref at some contents, beside the others. -/
theorem PhiA0_open (c : Dev nD) :
    (Pipeline.ΦA spec0 c : sProp 𝕄)
      ⊢ iprop((∃ d, owns (c : Thread nD τ) scM0 fullShare d) ∗ other0 (F := F) c ∗ (∃ r, prngReg c r)) := by
  unfold Pipeline.ΦA other0; rw [scopedRest0_eq]; simp only [scM0, owns_whole]
  iintro ⟨⟨HS, Hoth⟩, Hg⟩
  isplitl [HS]; · iexact HS
  isplitl [Hoth]; · iexact Hoth
  iexact Hg

/-- And back. -/
theorem PhiA0_close (c : Dev nD) :
    iprop((∃ d, owns (c : Thread nD τ) scM0 fullShare d) ∗ other0 (F := F) c ∗ (∃ r, prngReg c r))
      ⊢ (Pipeline.ΦA spec0 c : sProp 𝕄) := by
  unfold Pipeline.ΦA other0; rw [scopedRest0_eq]; simp only [scM0, owns_whole]
  iintro ⟨HS, Hoth, Hg⟩
  isplitl [HS Hoth]
  · isplitl [HS]; · iexact HS
    iexact Hoth
  iexact Hg

/-- So the two are one proposition. -/
theorem PhiA0_eq (c : Dev nD) :
    (Pipeline.ΦA spec0 c : sProp 𝕄)
      = iprop((∃ d, owns (c : Thread nD τ) scM0 fullShare d) ∗ other0 (F := F) c ∗ (∃ r, prngReg c r)) :=
  BI.equiv_iff.mp ⟨PhiA0_open c, PhiA0_close c⟩

/-! ## The invariant and the carried sums, position by position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (degAcc0 V c n hn) ∗ other0 c ∗ (∃ r, prngReg c r)) := rfl

theorem PhiS0_pos (c : Dev nD) (n : ℕ) (h : n ≤ cfg0.N) (hz : n ≠ 0) :
    PhiS0 V c n h = iprop(owns (c : Thread nD τ) scM0 fullShare (degAcc0 V c (n - 1) (by omega)) ∗ other0 c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The sums after the first point: the first block's. -/
theorem degAcc0_first (c : Dev nD) (t : Fin cfg0.N) (hz : t.val = 0) :
    degAcc0 V c t.val t.isLt = k0_pay3 (grid0.coords t) (adjBlk0 V c t) := by
  obtain ⟨n, hn⟩ := t
  cases n with
  | zero => exact degAccZero0 V c hn
  | succ n => exact absurd hz (Nat.succ_ne_zero n)

/-- The sums after a later point: this block's added to those before. -/
theorem degAcc0_later (c : Dev nD) (t : Fin cfg0.N) (hz : t.val ≠ 0) :
    degAcc0 V c t.val t.isLt
      = k0_pay4 (grid0.coords t) (adjBlk0 V c t) (degAcc0 V c (t.val - 1) (Nat.lt_of_le_of_lt (Nat.sub_le _ _) t.isLt)) := by
  obtain ⟨n, hn⟩ := t
  cases n with
  | zero => exact absurd rfl hz
  | succ n => exact degAccSucc0 V c n hn

/-! ## What the body finds in the input's buffer -/

/-- The input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (sm0_0 t) fullShare ((dat0 V c).before 0 t d))
    ∗ (∃ d, owns (c : Thread nD τ) (sm0_1 t) fullShare ((dat0 V c).before 1 t d))
    ∗ (∃ d, owns (c : Thread nD τ) (sm0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input's memref holds its block; the closed forms of the three tests say which control
    case the point is in; the invariant hands the body the scratch column (at anything at the first point, at the sums
    so far afterwards) and keeps the other scoped buffers and the generator register; that case's run applies, and what
    it leaves is what the proof data names: the block with its diagonal forced in the first output, the new sums in the
    scratch, and at the last point their inverse square roots in the second output, which elsewhere goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (sm0_0 t) fullShare ((dat0 V c).after 0 t) from by
    unfold Dat.leavesExact; rw [liveAt0_0 t], after0_0]
  rw [show (dat0 V c).leavesExact 1 t = owns (c : Thread nD τ) (sm0_1 t) fullShare ((dat0 V c).after 1 t) from by
    unfold Dat.leavesExact; rw [liveAt0_1 t], after0_1]
  have hN : t.val < 8 := lt_of_lt_of_eq t.isLt (show cfg0.N = 8 from N_0)
  by_cases hz : t.val = 0
  · have hc1 : condFirst0 (grid0.coords t) := (hcondFirst0 t).mpr hz
    have hc2 : ¬condLater0 (grid0.coords t) := fun h => by have := (hcondLater0 t).mp h; omega
    have hc3 : ¬condLast0 (grid0.coords t) := fun h => by have := (hcondLast0 t).mp h; omega
    rw [Dat.leavesExact_idle (dat0 V c) 2 t (idleAt0_2 t hc3) (noFlush0_2 t hc3)]
    rw [degAcc0_first V c t hz]
    rw [PhiS0_castSucc V c t, PhiS0_zero V c _ _ hz, PhiA0_eq]
    iintro ⟨⟨⟨%ds, HS⟩, Hoth, Hg⟩, Ho, ⟨%d0, H0⟩, ⟨%d1, H1⟩, H2⟩
    iapply (runFirst0 c (grid0.coords t) (sm0_0 t) (hsm0_0 t) (sm0_1 t) (hsm0_1 t) (sm0_2 t) (hsm0_2 t) scM0 (Memref.isWhole_whole _) hc1 hc2 hc3 (iblk0 V c 0 t) Set.univ _)
    isplitl [H0]; · iexact H0
    isplitl [H1]; · iexists _; iexact H1
    isplitl [HS]; · iexists _; iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · have hc1 : ¬condFirst0 (grid0.coords t) := fun h => hz ((hcondFirst0 t).mp h)
    have hc2 : condLater0 (grid0.coords t) := (hcondLater0 t).mpr (Nat.pos_of_ne_zero hz)
    rw [degAcc0_later V c t hz]
    rw [PhiS0_castSucc V c t, PhiS0_pos V c _ _ hz]
    by_cases h7 : t.val = 7
    · have hc3 : condLast0 (grid0.coords t) := (hcondLast0 t).mpr h7
      rw [show (dat0 V c).leavesExact 2 t = owns (c : Thread nD τ) (sm0_2 t) fullShare ((dat0 V c).after 2 t) from by
        unfold Dat.leavesExact; rw [liveAt0_2 t hc3], after0_2]
      rw [degAcc0_later V c t hz]
      iintro ⟨⟨HS, Hoth, Hg⟩, Ho, ⟨%d0, H0⟩, ⟨%d1, H1⟩, ⟨%d2, H2⟩⟩
      iapply (runLast0 c (grid0.coords t) (sm0_0 t) (hsm0_0 t) (sm0_1 t) (hsm0_1 t) (sm0_2 t) (hsm0_2 t) scM0 (Memref.isWhole_whole _) hc1 hc2 hc3 (iblk0 V c 0 t) (degAcc0 V c (t.val - 1) (Nat.lt_of_le_of_lt (Nat.sub_le _ _) t.isLt)) Set.univ _)
      isplitl [H0]; · iexact H0
      isplitl [H1]; · iexists _; iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · have hc3 : ¬condLast0 (grid0.coords t) := fun h => h7 ((hcondLast0 t).mp h)
      rw [Dat.leavesExact_idle (dat0 V c) 2 t (idleAt0_2 t hc3) (noFlush0_2 t hc3)]
      iintro ⟨⟨HS, Hoth, Hg⟩, Ho, ⟨%d0, H0⟩, ⟨%d1, H1⟩, H2⟩
      iapply (runMid0 c (grid0.coords t) (sm0_0 t) (hsm0_0 t) (sm0_1 t) (hsm0_1 t) (sm0_2 t) (hsm0_2 t) scM0 (Memref.isWhole_whole _) hc1 hc2 hc3 (iblk0 V c 0 t) (degAcc0 V c (t.val - 1) (Nat.lt_of_le_of_lt (Nat.sub_le _ _) t.isLt)) Set.univ _)
      isplitl [H0]; · iexact H0
      isplitl [H1]; · iexists _; iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have hN : cfg0.N = 8 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨HS, Hoth, Hg⟩
  isplitl [HS]; · iexists _; iexact HS
  isplitl [Hoth]; · iexact Hoth
  iexact Hg

end Cert.Kernel.Hand

end
-- ==== Proof.Kernel.R1Data.lean ====
/-
  Region 1 (the first propagation pass) as proof data for the pipeline library.

  The pass holds the features h, the weights w, the bias row b and the column of inverse square-root degrees d whole
  in its input windows 0 to 3 (fetched once), and at grid point t row block t of the normalised adjacency's float copy
  in window 4. At the first point it stores g = d · (h w), row-scaled, into a scratch; at every point it takes the 512
  rows of g that block t names and adds (block t)ᵀ · (those rows) into a second scratch, stored at the first point and
  added to afterwards; at the last point it stores max(acc · d + b, 0) into output window 5, which is written back
  there only. Both scratch buffers are carried from point to point, so the invariant names their contents.
-/
import proofs.«137975_g29910152249793_cont_9to1_356_2_alg».proof.Proof.Gen.Kernel.Launch
import proofs.«137975_g29910152249793_cont_9to1_356_2_alg».proof.Proof.Gen.Kernel.Skeleton
import proofs.«137975_g29910152249793_cont_9to1_356_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features, the weights, the bias row and the degree column, as window blocks (each the whole array), and row
    block t of the adjacency's float copy. -/
abbrev hBlk1 (c : Dev nD) (t : Fin cfg1.N) : Vec F S4096x128 .f32 := iblk1 V c 0 t
abbrev wBlk1 (c : Dev nD) (t : Fin cfg1.N) : Vec F S128x128 .f32 := iblk1 V c 1 t
abbrev bBlk1 (c : Dev nD) (t : Fin cfg1.N) : Vec F S1x128 .f32 := iblk1 V c 2 t
abbrev dBlk1 (c : Dev nD) (t : Fin cfg1.N) : Vec F S4096x1 .f32 := iblk1 V c 3 t
abbrev aBlk1 (c : Dev nD) (t : Fin cfg1.N) : Vec F S512x4096 .bf16 := iblk1 V c 4 t

/-! ## The carried scratch buffers -/

/-- The first point of the grid. -/
abbrev first1 : Fin cfg1.N := ⟨0, by rw [show cfg1.N = 8 from N_1]; decide⟩

/-- The row-scaled product g = d · (h w) the first point stores. -/
def gVal1 (c : Dev nD) : Vec F S4096x128 .bf16 :=
  k1_pay1 (hBlk1 V c first1) (wBlk1 V c first1) (dBlk1 V c first1)

/-- The 512 rows of g that the point with coordinates i reads. -/
def gRows1 (i : grid1.Coords) (g : Vec F S4096x128 .bf16) : Vec F S512x128 .bf16 :=
  View.ld g (Rect.unit (s := S4096x128) (k1_off1 i) S512x128.size (k1_off1_inb i))

/-- The accumulator after the body at position n: the first block's product, then each later block's added. -/
def accAt1 (c : Dev nD) : (n : ℕ) → n < cfg1.N → Vec F S4096x128 .f32
  | 0, hn => k1_pay3 (gRows1 (grid1.coords ⟨0, hn⟩) (gVal1 V c)) (aBlk1 V c ⟨0, hn⟩)
  | n + 1, hn => k1_pay4 (gRows1 (grid1.coords ⟨n + 1, hn⟩) (gVal1 V c)) (aBlk1 V c ⟨n + 1, hn⟩) (accAt1 c n (Nat.lt_of_succ_lt hn))

theorem accAtZero1 (c : Dev nD) (hn : 0 < cfg1.N) :
    accAt1 V c 0 hn = k1_pay3 (gRows1 (grid1.coords ⟨0, hn⟩) (gVal1 V c)) (aBlk1 V c ⟨0, hn⟩) := rfl
theorem accAtSucc1 (c : Dev nD) (n : ℕ) (hn : n + 1 < cfg1.N) :
    accAt1 V c (n + 1) hn = k1_pay4 (gRows1 (grid1.coords ⟨n + 1, hn⟩) (gVal1 V c)) (aBlk1 V c ⟨n + 1, hn⟩) (accAt1 V c n (Nat.lt_of_succ_lt hn)) := rfl

/-- What the last point stores: max(acc · d + b, 0). -/
def outAt1 (c : Dev nD) (t : Fin cfg1.N) : Vec F S4096x128 .f32 :=
  k1_pay5 (accAt1 V c t.val t.isLt) (dBlk1 V c t) (bBlk1 V c t)

/-! ## The invariant -/

/-- The scratch operands: whole scoped buffers of the kernel's own. -/
abbrev scG1 : Memref sig .tc .vmem S4096x128 .bf16 := Memref.whole cc1_scratch0
abbrev scAcc1 : Memref sig .tc .vmem S4096x128 .f32 := Memref.whole cc1_scratch1

/-- The core's scoped buffers other than the two scratch buffers and this region's staging buffers, each whole at some
    contents: what the body never touches. -/
def other1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc2_scratch1), ((c : Thread nD τ).loc cc2_scratch1) ↦{fullShare} f))

/-- The region's invariant before position n: before the first point the class's (every scratch buffer at anything);
    afterwards g and the accumulator so far, the rest at anything, the generator register at some state. -/
def PhiS1 (c : Dev nD) : (n : ℕ) → n ≤ cfg1.N → sProp 𝕄
  | 0, _ => Pipeline.ΦA spec1 c
  | n + 1, hn => iprop(owns (c : Thread nD τ) scG1 fullShare (gVal1 V c) ∗ owns (c : Thread nD τ) scAcc1 fullShare (accAt1 V c n hn)
      ∗ other1 c ∗ (∃ r, prngReg c r))

/-! ## The proof data -/

/-- Pipeline 1's proof data on core c: the arrays as the region finds them; after the body at point t each input's
    buffer at its block, the output's at max(acc · d + b, 0) of the accumulator so far (consulted at the last point only:
    elsewhere the window is idle and not written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

end Cert.Kernel.Hand

end
-- ==== Proof.Kernel.R1Run.lean ====
/-
  Region 1: the kernel body run once per control case.

  The body branches on the grid coordinate only: at the first point it stores g and stores the accumulator, at every
  later point it adds to the accumulator, at the last point it also stores the output. Each case's run names what the
  case leaves in every buffer it touches by the skeleton's payloads of what the buffers held.
-/
import proofs.«137975_g29910152249793_cont_9to1_356_2_alg».proof.Proof.Gen.Kernel.Launch
import proofs.«137975_g29910152249793_cont_9to1_356_2_alg».proof.Proof.Gen.Kernel.Skeleton
import proofs.«137975_g29910152249793_cont_9to1_356_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- "This is the first point": the condition of the body's first two conditionals, from the grid coordinate. -/
abbrev condA1 (i : grid1.Coords) : Prop :=
  (Scalar.cmpi .ne (Scalar.extui (Scalar.cmpi .eq (BitVec.ofNat 32 (i 0).val) 0#32)) 0#32) = 1#1
/-- "This is a later point": the condition of the third. -/
abbrev condC1 (i : grid1.Coords) : Prop :=
  (Scalar.cmpi .ne (Scalar.extui (Scalar.cmpi .sgt (BitVec.ofNat 32 (i 0).val) 0#32)) 0#32) = 1#1
/-- "This is the last point": the condition of the fourth. -/
abbrev condD1 (i : grid1.Coords) : Prop := k1_cond4 i = 1#1

/-- The rows of g a point reads: the rectangle of 512 rows at the point's offset. -/
abbrev gRect1 (i : grid1.Coords) : Rect S4096x128 :=
  Rect.unit (s := S4096x128) (k1_off1 i) S512x128.size (k1_off1_inb i)

/-- The zero offsets of a whole-buffer access, however spelt. -/
theorem r1_zeroOff : (![0, 0] : Fin 2 → Nat) = fun _ => 0 := by
  funext a; fin_cases a <;> rfl

/-! ## Whole-buffer loads and stores read back -/

section Whole

variable {S : Shape} {e : EltTy}

/-- The one piece of a whole-buffer store covers the buffer. -/
theorem r1_cover_whole {off : Fin S.rank → Nat} (h : off = fun _ => 0) (inb : ∀ a, off a + S.size a ≤ S.size a)
    (w : S.Idx → Elt F e) :
    ∀ y : S.Idx, ∃ p ∈ [(⟨Rect.unit off S.size inb, w⟩ : View.Piece (Elt F) S e)], y ∈ p.1.set :=
  fun y => ⟨_, List.mem_singleton_self _, View.mem_set_unit_zero h inb y⟩

/-- A buffer stored whole reads as the payload, whatever it held. -/
theorem r1_read_store_whole {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (r1_cover_whole h inb w), View.canon_unit_zero h]

/-- A whole-buffer load of a whole memref reads its contents. -/
theorem r1_readAt_whole (m : Memref sig .tc .vmem S e) (hm : m.IsWhole) (X : S.Idx → Elt F e) {off : Fin S.rank → Nat}
    (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

end Whole

/-! ## The body run once per control case

Each run is stated over arbitrary whole memrefs: the buffers the case touches at named contents before, and at the
skeleton's payloads of those contents after; a buffer the case does not touch is not mentioned (it stays in the frame). -/

set_option maxHeartbeats 1000000 in
/-- The first point: g = d · (h w) is stored into the first scratch, its rows the point names are read back, and the
    accumulator is stored (not added to). -/
theorem runFirst1 (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : condA1 i) (hC : ¬condC1 i) (hD : ¬condD1 i)
    (x1 : Vec F S4096x128 .f32) (x2 : Vec F S128x128 .f32) (x4 : Vec F S4096x1 .f32) (x5 : Vec F S512x4096 .bf16)
    (E : Set ℕ) (K : PUnit → sProp 𝕄) :
    iprop(owns (c : Thread nD τ) arg1 fullShare x1 ∗ owns (c : Thread nD τ) arg2 fullShare x2 ∗ owns (c : Thread nD τ) arg4 fullShare x4
        ∗ owns (c : Thread nD τ) arg5 fullShare x5 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg4 fullShare x4
            ∗ owns (c : Thread nD τ) arg5 fullShare x5
            ∗ owns (c : Thread nD τ) arg7 fullShare (k1_pay1 x1 x2 x4)
            ∗ owns (c : Thread nD τ) arg8 fullShare (k1_pay3 (View.ld (k1_pay1 x1 x2 x4) (gRect1 i)) x5)) -∗ K ⟨⟩))
      ⊢ wp frame (wpE (defs₀ (F := F)) Variants.none c none) E (cc1__prop_body i arg1 harg1 arg2 harg2 arg3 harg3 arg4 harg4 arg5 harg5 arg6 harg6 arg7 harg7 arg8 harg8) K := by
  simp only [cc1__prop_body_eq_skeleton]; unfold cc1__prop_body_skel
  unfold owns
  iintro ⟨⟨%f1, %hf1, H1⟩, ⟨%f2, %hf2, H2⟩, ⟨%f4, %hf4, H4⟩, ⟨%f5, %hf5, H5⟩, ⟨%d7, %f7, -, H7⟩, ⟨%d8, %f8, -, H8⟩, Hk⟩
  obtain rfl := harg1.eq_unread hf1; obtain rfl := harg2.eq_unread hf2; obtain rfl := harg4.eq_unread hf4; obtain rfl := harg5.eq_unread hf5
  sl_exec (disch := first | exact hA | exact hC | exact hD)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H7]
  · iexists _; isplitr
    swap; · iexact H7
    ipureintro
    sl_unfold_run_names
    rw [r1_read_store_whole _ _ r1_zeroOff, r1_readAt_whole arg1 harg1 x1 r1_zeroOff, r1_readAt_whole arg2 harg2 x2 r1_zeroOff,
      r1_readAt_whole arg4 harg4 x4 r1_zeroOff]
  · iexists _; isplitr
    swap; · iexact H8
    ipureintro
    sl_unfold_run_names
    rw [r1_read_store_whole _ _ r1_zeroOff, View.readAt_eq_ld arg7.view, r1_read_store_whole _ _ r1_zeroOff,
      r1_readAt_whole arg1 harg1 x1 r1_zeroOff, r1_readAt_whole arg2 harg2 x2 r1_zeroOff, r1_readAt_whole arg4 harg4 x4 r1_zeroOff,
      r1_readAt_whole arg5 harg5 x5 r1_zeroOff]

set_option maxHeartbeats 1000000 in
/-- A middle point: the rows of g the point names are read, and their product with the adjacency block is added to the
    accumulator. -/
theorem runMid1 (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : ¬condA1 i) (hC : condC1 i) (hD : ¬condD1 i)
    (x5 : Vec F S512x4096 .bf16) (g : Vec F S4096x128 .bf16) (a : Vec F S4096x128 .f32)
    (E : Set ℕ) (K : PUnit → sProp 𝕄) :
    iprop(owns (c : Thread nD τ) arg5 fullShare x5 ∗ owns (c : Thread nD τ) arg7 fullShare g ∗ owns (c : Thread nD τ) arg8 fullShare a
        ∗ (iprop(owns (c : Thread nD τ) arg5 fullShare x5 ∗ owns (c : Thread nD τ) arg7 fullShare g
            ∗ owns (c : Thread nD τ) arg8 fullShare (k1_pay4 (View.ld g (gRect1 i)) x5 a)) -∗ K ⟨⟩))
      ⊢ wp frame (wpE (defs₀ (F := F)) Variants.none c none) E (cc1__prop_body i arg1 harg1 arg2 harg2 arg3 harg3 arg4 harg4 arg5 harg5 arg6 harg6 arg7 harg7 arg8 harg8) K := by
  simp only [cc1__prop_body_eq_skeleton]; unfold cc1__prop_body_skel
  unfold owns
  iintro ⟨⟨%f5, %hf5, H5⟩, ⟨%f7, %hf7, H7⟩, ⟨%f8, %hf8, H8⟩, Hk⟩
  obtain rfl := harg5.eq_unread hf5; obtain rfl := harg7.eq_unread hf7; obtain rfl := harg8.eq_unread hf8
  sl_exec (disch := first | exact hA | exact hC | exact hD)
  sl_step
  iapply Hk
  isplitl [H5]
  · iexists _; isplitr; · ipureintro; exact harg5.read_unread _
    iexact H5
  isplitl [H7]
  · iexists _; isplitr; · ipureintro; exact harg7.read_unread _
    iexact H7
  · iexists _; isplitr
    swap; · iexact H8
    ipureintro
    sl_unfold_run_names
    rw [r1_read_store_whole _ _ r1_zeroOff, View.readAt_eq_ld arg7.view, harg7.read_unread,
      r1_readAt_whole arg5 harg5 x5 r1_zeroOff, r1_readAt_whole arg8 harg8 a r1_zeroOff]

set_option maxHeartbeats 1000000 in
/-- The last point: as a middle point, and then max(acc · d + b, 0) of the accumulator just updated is stored into the
    output's buffer. -/
theorem runLast1 (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : ¬condA1 i) (hC : condC1 i) (hD : condD1 i)
    (x3 : Vec F S1x128 .f32) (x4 : Vec F S4096x1 .f32) (x5 : Vec F S512x4096 .bf16) (g : Vec F S4096x128 .bf16) (a : Vec F S4096x128 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d)
        ∗ owns (c : Thread nD τ) arg7 fullShare g ∗ owns (c : Thread nD τ) arg8 fullShare a
        ∗ (iprop(owns (c : Thread nD τ) arg3 fullShare x3 ∗ owns (c : Thread nD τ) arg4 fullShare x4 ∗ owns (c : Thread nD τ) arg5 fullShare x5
            ∗ owns (c : Thread nD τ) arg6 fullShare (k1_pay5 (k1_pay4 (View.ld g (gRect1 i)) x5 a) x4 x3)
            ∗ owns (c : Thread nD τ) arg7 fullShare g
            ∗ owns (c : Thread nD τ) arg8 fullShare (k1_pay4 (View.ld g (gRect1 i)) x5 a)) -∗ K ⟨⟩))
      ⊢ wp frame (wpE (defs₀ (F := F)) Variants.none c none) E (cc1__prop_body i arg1 harg1 arg2 harg2 arg3 harg3 arg4 harg4 arg5 harg5 arg6 harg6 arg7 harg7 arg8 harg8) K := by
  simp only [cc1__prop_body_eq_skeleton]; unfold cc1__prop_body_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf3; obtain rfl := harg4.eq_unread hf4; obtain rfl := harg5.eq_unread hf5
  obtain rfl := harg7.eq_unread hf7; obtain rfl := harg8.eq_unread hf8
  sl_exec (disch := first | exact hA | exact hC | exact hD)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [r1_read_store_whole _ _ r1_zeroOff, View.readCov_unit_zero _ r1_zeroOff, View.readAt_eq_ld arg7.view, harg7.read_unread,
      r1_readAt_whole arg5 harg5 x5 r1_zeroOff, r1_readAt_whole arg8 harg8 a r1_zeroOff,
      r1_readAt_whole arg4 harg4 x4 r1_zeroOff, r1_readAt_whole arg3 harg3 x3 r1_zeroOff]
  isplitl [H7]
  · iexists _; isplitr; · ipureintro; exact harg7.read_unread _
    iexact H7
  · iexists _; isplitr
    swap; · iexact H8
    ipureintro
    sl_unfold_run_names
    rw [r1_read_store_whole _ _ r1_zeroOff, View.readAt_eq_ld arg7.view, harg7.read_unread,
      r1_readAt_whole arg5 harg5 x5 r1_zeroOff, r1_readAt_whole arg8 harg8 a r1_zeroOff]

end Cert.Kernel.Hand

end
-- ==== Proof.Kernel.R1Phi.lean ====
/-
  Region 1: the class invariant opened into the region's two scratch buffers, the other scoped buffers and the
  generator register, and closed again. The core's scoped buffers are a printed list; the region's two scratch buffers
  are entries 7 and 8 of it, and the rest, in the list's order, is the data's `other1`.
-/
import proofs.«137975_g29910152249793_cont_9to1_356_2_alg».proof.Proof.Kernel.R1Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace R1B

/-! ## The class invariant opened -/

/-- The class's invariant gives the two scratch buffers, each owned whole at some contents, the other scoped buffers,
    and the generator register at some state: the printed list of the core's scoped buffers regrouped; -/
theorem PhiA1_open (c : Dev nD) :
    (Pipeline.ΦA spec1 c : sProp 𝕄) ⊢ iprop((∃ d, owns (c : Thread nD τ) scG1 fullShare d) ∗ (∃ d, owns (c : Thread nD τ) scAcc1 fullShare d)
          ∗ other1 (F := F) c ∗ (∃ r, prngReg c r)) := by
  unfold Pipeline.ΦA other1; rw [scopedRest1_eq]; simp only [owns_whole]
  iintro ⟨⟨O0, O1, O2, O3, O4, O5, HG, HA, O6, O7, O8, O9, O10, O11, O12, O13, O14⟩, Hg⟩
  isplitl [HG]; · iexact HG
  isplitl [HA]; · iexact HA
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  iexact O14

/-- and is given back by them. -/
theorem PhiA1_close (c : Dev nD) :
    iprop((∃ d, owns (c : Thread nD τ) scG1 fullShare d) ∗ (∃ d, owns (c : Thread nD τ) scAcc1 fullShare d)
          ∗ other1 (F := F) c ∗ (∃ r, prngReg c r)) ⊢ (Pipeline.ΦA spec1 c : sProp 𝕄) := by
  unfold Pipeline.ΦA other1; rw [scopedRest1_eq]; simp only [owns_whole]
  iintro ⟨HG, HA, ⟨O0, O1, O2, O3, O4, O5, O6, O7, O8, O9, O10, O11, O12, O13, O14⟩, Hg⟩
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [HG]; · iexact HG
  isplitl [HA]; · iexact HA
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  iexact O14

/-- So the two are one assertion. -/
theorem PhiA1_eq (c : Dev nD) :
    (Pipeline.ΦA spec1 c : sProp 𝕄) = iprop((∃ d, owns (c : Thread nD τ) scG1 fullShare d) ∗ (∃ d, owns (c : Thread nD τ) scAcc1 fullShare d)
          ∗ other1 (F := F) c ∗ (∃ r, prngReg c r)) :=
  Entails.antisymm (PhiA1_open c) (PhiA1_close c)

end R1B

end Cert.Kernel.Hand

end
-- ==== Proof.Kernel.R1Body.lean ====
/-
  Region 1: the body meets the proof data at every grid point, and the invariant's two ends.

  The body's conditions are given closed forms over the grid; every input's buffer holds its block at every point; and
  at each point the run of its control case turns what the invariant (the class's, opened into the two scratch buffers,
  the other scoped buffers and the generator register) and the windows hold before into what the data say they hold
  after.
-/
import proofs.«137975_g29910152249793_cont_9to1_356_2_alg».proof.Proof.Kernel.R1Data
import proofs.«137975_g29910152249793_cont_9to1_356_2_alg».proof.Proof.Kernel.R1Run
import proofs.«137975_g29910152249793_cont_9to1_356_2_alg».proof.Proof.Kernel.R1Phi

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

namespace R1B

/-! ## The conditions in closed form, decided over the grid -/

theorem hcondA1 : ∀ t : Fin cfg1.N, condA1 (grid1.coords t) ↔ t.val = 0 :=
  (by decide +kernel : ∀ t : Fin grid1.N, condA1 (grid1.coords t) ↔ t.val = 0)
theorem hcondC1 : ∀ t : Fin cfg1.N, condC1 (grid1.coords t) ↔ 0 < t.val :=
  (by decide +kernel : ∀ t : Fin grid1.N, condC1 (grid1.coords t) ↔ 0 < t.val)
theorem hcondD1 : ∀ t : Fin cfg1.N, condD1 (grid1.coords t) ↔ t.val = 7 :=
  (by decide +kernel : ∀ t : Fin grid1.N, condD1 (grid1.coords t) ↔ t.val = 7)

/-! ## Where the output window is idle -/

/-- Off the last point the output window is idle: the body stores nothing into it, -/
theorem idleAt1_5 : ∀ t : Fin cfg1.N, ¬condD1 (grid1.coords t) → cfg1.idle 5 (grid1.coords t) = true := by decide +kernel
/-- and the pipeline does not write its block back. -/
theorem noFlush1_5 : ∀ t : Fin cfg1.N, ¬condD1 (grid1.coords t) → (cfg1.win 5).flush t = false := by decide +kernel
/-- At the last point it is live. -/
theorem liveAt1_5 : ∀ t : Fin cfg1.N, condD1 (grid1.coords t) → cfg1.idle 5 (grid1.coords t) = false := by decide +kernel

/-! ## The staging memrefs at a point, as the pipeline passes them -/

abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x128 .f32 := win1_5.stage (cfg1.slots t 5)
abbrev hs1_5 (t : Fin cfg1.N) : (ms1_5 t).IsWhole := hstage1_5 ((cfg1.slots t 5).cast nbuf1_5)

/-! ## What the body finds and leaves in the inputs' buffers -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem leaves1_0 (c : Dev nD) (t : Fin cfg1.N) :
    (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (ms1_4 t) fullShare (iblk1 V c 4 t) := by
  unfold Dat.leavesExact; rw [show cfg1.idle 4 (cfg1.grid.coords t) = false from rfl, after1_4]

/-! ## The carried values at a point -/

/-- g in terms of the blocks at the first point, wherever that point is named. -/
theorem gVal1_at (c : Dev nD) (t : Fin cfg1.N) (h0 : t.val = 0) :
    gVal1 V c = k1_pay1 (hBlk1 V c t) (wBlk1 V c t) (dBlk1 V c t) := by
  obtain ⟨n, hn⟩ := t; obtain rfl : n = 0 := h0; rfl

/-- The accumulator after the first point. -/
theorem accAt1_first (c : Dev nD) (t : Fin cfg1.N) (h0 : t.val = 0) :
    accAt1 V c t.val t.isLt = k1_pay3 (View.ld (gVal1 V c) (gRect1 (grid1.coords t))) (aBlk1 V c t) := by
  obtain ⟨n, hn⟩ := t; obtain rfl : n = 0 := h0; rfl

/-- The accumulator after a later point: the block's product added to what the point before left. -/
theorem accAt1_pos (c : Dev nD) (t : Fin cfg1.N) (h0 : t.val ≠ 0) :
    accAt1 V c t.val t.isLt = k1_pay4 (View.ld (gVal1 V c) (gRect1 (grid1.coords t))) (aBlk1 V c t)
      (accAt1 V c (t.val - 1) (Nat.lt_of_le_of_lt (Nat.sub_le _ _) t.isLt)) := by
  obtain ⟨n, hn⟩ := t
  cases n with
  | zero => exact absurd rfl h0
  | succ n => rfl

/-! ## The invariant at a point -/

theorem PhiS1_castSucc (c : Dev nD) (t : Fin cfg1.N) :
    (dat1 V c).Φ t.castSucc = PhiS1 V c t.val (Nat.le_of_lt t.isLt) := by
  dsimp only [dat1]; simp only [Fin.coe_castSucc]

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scG1 fullShare (gVal1 V c) ∗ owns (c : Thread nD τ) scAcc1 fullShare (accAt1 V c n hn)
      ∗ other1 c ∗ (∃ r, prngReg c r)) := rfl

theorem PhiS1_pos (c : Dev nD) (n : ℕ) (h : n ≤ cfg1.N) (hz : n ≠ 0) :
    PhiS1 V c n h = iprop(owns (c : Thread nD τ) scG1 fullShare (gVal1 V c)
      ∗ owns (c : Thread nD τ) scAcc1 fullShare (accAt1 V c (n - 1) (by omega))
      ∗ other1 c ∗ (∃ r, prngReg c r)) := by
  cases n with
  | zero => exact absurd rfl hz
  | succ n => rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the closed forms say which control case the point is
    in, and that case's run applies: at the first point the invariant hands the two scratch buffers at anything and
    takes them back at g and the first product; later it hands them at g and the accumulator so far and takes the
    accumulator back with the point's product added; the output's buffer is handed back untouched except at the last
    point, where it is left at max(acc · d + b, 0). The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 8 := lt_of_lt_of_eq t.isLt (show cfg1.N = 8 from N_1)
  by_cases h0 : t.val = 0
  · have hA : condA1 (grid1.coords t) := (hcondA1 t).mpr h0
    have hC : ¬condC1 (grid1.coords t) := fun h => by have := (hcondC1 t).mp h; omega
    have hD : ¬condD1 (grid1.coords t) := fun h => by have := (hcondD1 t).mp h; omega
    rw [Dat.leavesExact_idle (dat1 V c) 5 t (idleAt1_5 t hD) (noFlush1_5 t hD)]
    rw [PhiS1_castSucc, PhiS1_zero V c _ _ h0, PhiA1_eq]
    rw [accAt1_first V c t h0, gVal1_at V c t h0]
    iintro ⟨⟨⟨%dG, HG⟩, ⟨%dA, HA⟩, Hoth, Hg⟩, Ho, ⟨%d0, H0⟩, ⟨%d1, H1⟩, ⟨%d2, H2⟩, ⟨%d3, H3⟩, ⟨%d4, H4⟩, H5⟩
    iapply (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) scG1 (Memref.isWhole_whole _) scAcc1 (Memref.isWhole_whole _) hA hC hD (hBlk1 V c t) (wBlk1 V c t) (dBlk1 V c t) (aBlk1 V c t) Set.univ _)
    isplitl [H0]; · iexact H0
    isplitl [H1]; · iexact H1
    isplitl [H3]; · iexact H3
    isplitl [H4]; · iexact H4
    isplitl [HG]; · iexists _; iexact HG
    isplitl [HA]; · iexists _; iexact HA
    iintro ⟨H0, H1, H3, H4, HG, HA⟩
    isplitl [HG HA Hoth Hg]
    · isplitl [HG]; · iexact HG
      isplitl [HA]; · iexact HA
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hA : ¬condA1 (grid1.coords t) := fun h => h0 ((hcondA1 t).mp h)
    have hC : condC1 (grid1.coords t) := (hcondC1 t).mpr (Nat.pos_of_ne_zero h0)
    by_cases h7 : t.val = 7
    · have hD : condD1 (grid1.coords t) := (hcondD1 t).mpr h7
      rw [show (dat1 V c).leavesExact 5 t = owns (c : Thread nD τ) (ms1_5 t) fullShare (outAt1 V c t) from by
        unfold Dat.leavesExact; rw [liveAt1_5 t hD, after1_5]]
      unfold outAt1
      rw [PhiS1_castSucc, PhiS1_pos V c _ _ h0, accAt1_pos V c t h0]
      iintro ⟨⟨HG, HA, Hoth, Hg⟩, Ho, ⟨%d0, H0⟩, ⟨%d1, H1⟩, ⟨%d2, H2⟩, ⟨%d3, H3⟩, ⟨%d4, H4⟩, ⟨%d5, H5⟩⟩
      iapply (runLast1 c (grid1.coords t) (ms1_0 t) (hs1_0 t) (ms1_1 t) (hs1_1 t) (ms1_2 t) (hs1_2 t) (ms1_3 t) (hs1_3 t) (ms1_4 t) (hs1_4 t) (ms1_5 t) (hs1_5 t) scG1 (Memref.isWhole_whole _) scAcc1 (Memref.isWhole_whole _) hA hC hD (bBlk1 V c t) (dBlk1 V c t) (aBlk1 V c t) (gVal1 V c) (accAt1 V c (t.val - 1) (Nat.lt_of_le_of_lt (Nat.sub_le _ _) t.isLt)) Set.univ _)
      isplitl [H2]; · iexact H2
      isplitl [H3]; · iexact H3
      isplitl [H4]; · iexact H4
      isplitl [H5]; · iexists _; iexact H5
      isplitl [HG]; · iexact HG
      isplitl [HA]; · iexact HA
      iintro ⟨H2, H3, H4, H5, HG, HA⟩
      isplitl [HG HA Hoth Hg]
      · isplitl [HG]; · iexact HG
        isplitl [HA]; · iexact HA
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · have hD : ¬condD1 (grid1.coords t) := fun h => h7 ((hcondD1 t).mp h)
      rw [Dat.leavesExact_idle (dat1 V c) 5 t (idleAt1_5 t hD) (noFlush1_5 t hD)]
      rw [PhiS1_castSucc, PhiS1_pos V c _ _ h0, accAt1_pos V c t h0]
      iintro ⟨⟨HG, HA, Hoth, Hg⟩, Ho, ⟨%d0, H0⟩, ⟨%d1, H1⟩, ⟨%d2, H2⟩, ⟨%d3, H3⟩, ⟨%d4, H4⟩, H5⟩
      iapply (runMid1 c (grid1.coords t) (ms1_0 t) (hs1_0 t) (ms1_1 t) (hs1_1 t) (ms1_2 t) (hs1_2 t) (ms1_3 t) (hs1_3 t) (ms1_4 t) (hs1_4 t) (ms1_5 t) (hs1_5 t) scG1 (Memref.isWhole_whole _) scAcc1 (Memref.isWhole_whole _) hA hC hD (aBlk1 V c t) (gVal1 V c) (accAt1 V c (t.val - 1) (Nat.lt_of_le_of_lt (Nat.sub_le _ _) t.isLt)) Set.univ _)
      isplitl [H4]; · iexact H4
      isplitl [HG]; · iexact HG
      isplitl [HA]; · iexact HA
      iintro ⟨H4, HG, HA⟩
      isplitl [HG HA Hoth Hg]
      · isplitl [HG]; · iexact HG
        isplitl [HA]; · iexact HA
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

end R1B

open R1B

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨HG, HA, Hoth, Hg⟩
  isplitl [HG]; · iexists _; iexact HG
  isplitl [HA]; · iexists _; iexact HA
  isplitl [Hoth]; · iexact Hoth
  iexact Hg

end Cert.Kernel.Hand

end
-- ==== Proof.Kernel.R2Data.lean ====
/-
  Region 2 (the second propagation pass) as proof data for the pipeline library.

  The pass holds the features h, the weights w, the bias row b and the column of inverse square-root degrees d whole
  in its input windows 0 to 3 (fetched once), and at grid point t row block t of the normalised adjacency's float copy
  in window 4. At the first point it stores g = d · (h w), row-scaled, into a scratch; at every point it takes the 512
  rows of g that block t names and adds (block t)ᵀ · (those rows) into a second scratch, stored at the first point and
  added to afterwards; at the last point it stores max(acc · d + b, 0) into output window 5, which is written back
  there only. Both scratch buffers are carried from point to point, so the invariant names their contents.
-/
import proofs.«137975_g29910152249793_cont_9to1_356_2_alg».proof.Proof.Gen.Kernel.Launch
import proofs.«137975_g29910152249793_cont_9to1_356_2_alg».proof.Proof.Gen.Kernel.Skeleton
import proofs.«137975_g29910152249793_cont_9to1_356_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The features, the weights, the bias row and the degree column, as window blocks (each the whole array), and row
    block t of the adjacency's float copy. -/
abbrev hBlk2 (c : Dev nD) (t : Fin cfg2.N) : Vec F S4096x128 .f32 := iblk2 V c 0 t
abbrev wBlk2 (c : Dev nD) (t : Fin cfg2.N) : Vec F S128x128 .f32 := iblk2 V c 1 t
abbrev bBlk2 (c : Dev nD) (t : Fin cfg2.N) : Vec F S1x128 .f32 := iblk2 V c 2 t
abbrev dBlk2 (c : Dev nD) (t : Fin cfg2.N) : Vec F S4096x1 .f32 := iblk2 V c 3 t
abbrev aBlk2 (c : Dev nD) (t : Fin cfg2.N) : Vec F S512x4096 .bf16 := iblk2 V c 4 t

/-! ## The carried scratch buffers -/

/-- The first point of the grid. -/
abbrev first2 : Fin cfg2.N := ⟨0, by rw [show cfg2.N = 8 from N_2]; decide⟩

/-- The row-scaled product g = d · (h w) the first point stores. -/
def gVal2 (c : Dev nD) : Vec F S4096x128 .bf16 :=
  k2_pay1 (hBlk2 V c first2) (wBlk2 V c first2) (dBlk2 V c first2)

/-- The 512 rows of g that the point with coordinates i reads. -/
def gRows2 (i : grid2.Coords) (g : Vec F S4096x128 .bf16) : Vec F S512x128 .bf16 :=
  View.ld g (Rect.unit (s := S4096x128) (k2_off1 i) S512x128.size (k2_off1_inb i))

/-- The accumulator after the body at position n: the first block's product, then each later block's added. -/
def accAt2 (c : Dev nD) : (n : ℕ) → n < cfg2.N → Vec F S4096x128 .f32
  | 0, hn => k2_pay3 (gRows2 (grid2.coords ⟨0, hn⟩) (gVal2 V c)) (aBlk2 V c ⟨0, hn⟩)
  | n + 1, hn => k2_pay4 (gRows2 (grid2.coords ⟨n + 1, hn⟩) (gVal2 V c)) (aBlk2 V c ⟨n + 1, hn⟩) (accAt2 c n (Nat.lt_of_succ_lt hn))

theorem accAtZero2 (c : Dev nD) (hn : 0 < cfg2.N) :
    accAt2 V c 0 hn = k2_pay3 (gRows2 (grid2.coords ⟨0, hn⟩) (gVal2 V c)) (aBlk2 V c ⟨0, hn⟩) := rfl
theorem accAtSucc2 (c : Dev nD) (n : ℕ) (hn : n + 1 < cfg2.N) :
    accAt2 V c (n + 1) hn = k2_pay4 (gRows2 (grid2.coords ⟨n + 1, hn⟩) (gVal2 V c)) (aBlk2 V c ⟨n + 1, hn⟩) (accAt2 V c n (Nat.lt_of_succ_lt hn)) := rfl

/-- What the last point stores: max(acc · d + b, 0). -/
def outAt2 (c : Dev nD) (t : Fin cfg2.N) : Vec F S4096x128 .f32 :=
  k2_pay5 (accAt2 V c t.val t.isLt) (dBlk2 V c t) (bBlk2 V c t)

/-! ## The invariant -/

/-- The scratch operands: whole scoped buffers of the kernel's own. -/
abbrev scG2 : Memref sig .tc .vmem S4096x128 .bf16 := Memref.whole cc2_scratch0
abbrev scAcc2 : Memref sig .tc .vmem S4096x128 .f32 := Memref.whole cc2_scratch1

/-- The core's scoped buffers other than the two scratch buffers and this region's staging buffers, each whole at some
    contents: what the body never touches. -/
def other2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The region's invariant before position n: before the first point the class's (every scratch buffer at anything);
    afterwards g and the accumulator so far, the rest at anything, the generator register at some state. -/
def PhiS2 (c : Dev nD) : (n : ℕ) → n ≤ cfg2.N → sProp 𝕄
  | 0, _ => Pipeline.ΦA spec2 c
  | n + 1, hn => iprop(owns (c : Thread nD τ) scG2 fullShare (gVal2 V c) ∗ owns (c : Thread nD τ) scAcc2 fullShare (accAt2 V c n hn)
      ∗ other2 c ∗ (∃ r, prngReg c r))

/-! ## The proof data -/

/-- Pipeline 2's proof data on core c: the arrays as the region finds them; after the body at point t each input's
    buffer at its block, the output's at max(acc · d + b, 0) of the accumulator so far (consulted at the last point only:
    elsewhere the window is idle and not written back). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2 V c t := by dsimp only [dat2]

end Cert.Kernel.Hand

end
-- ==== Proof.Kernel.R2Run.lean ====
/-
  Region 2: the kernel body run once per control case.

  The body branches on the grid coordinate only: at the first point it stores g and stores the accumulator, at every
  later point it adds to the accumulator, at the last point it also stores the output. Each case's run names what the
  case leaves in every buffer it touches by the skeleton's payloads of what the buffers held.
-/
import proofs.«137975_g29910152249793_cont_9to1_356_2_alg».proof.Proof.Gen.Kernel.Launch
import proofs.«137975_g29910152249793_cont_9to1_356_2_alg».proof.Proof.Gen.Kernel.Skeleton
import proofs.«137975_g29910152249793_cont_9to1_356_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- "This is the first point": the condition of the body's first two conditionals, from the grid coordinate. -/
abbrev condA2 (i : grid2.Coords) : Prop :=
  (Scalar.cmpi .ne (Scalar.extui (Scalar.cmpi .eq (BitVec.ofNat 32 (i 0).val) 0#32)) 0#32) = 1#1
/-- "This is a later point": the condition of the third. -/
abbrev condC2 (i : grid2.Coords) : Prop :=
  (Scalar.cmpi .ne (Scalar.extui (Scalar.cmpi .sgt (BitVec.ofNat 32 (i 0).val) 0#32)) 0#32) = 1#1
/-- "This is the last point": the condition of the fourth. -/
abbrev condD2 (i : grid2.Coords) : Prop := k2_cond4 i = 1#1

/-- The rows of g a point reads: the rectangle of 512 rows at the point's offset. -/
abbrev gRect2 (i : grid2.Coords) : Rect S4096x128 :=
  Rect.unit (s := S4096x128) (k2_off1 i) S512x128.size (k2_off1_inb i)

/-- The zero offsets of a whole-buffer access, however spelt. -/
theorem r2_zeroOff : (![0, 0] : Fin 2 → Nat) = fun _ => 0 := by
  funext a; fin_cases a <;> rfl

/-! ## Whole-buffer loads and stores read back -/

section Whole

variable {S : Shape} {e : EltTy}

/-- The one piece of a whole-buffer store covers the buffer. -/
theorem r2_cover_whole {off : Fin S.rank → Nat} (h : off = fun _ => 0) (inb : ∀ a, off a + S.size a ≤ S.size a)
    (w : S.Idx → Elt F e) :
    ∀ y : S.Idx, ∃ p ∈ [(⟨Rect.unit off S.size inb, w⟩ : View.Piece (Elt F) S e)], y ∈ p.1.set :=
  fun y => ⟨_, List.mem_singleton_self _, View.mem_set_unit_zero h inb y⟩

/-- A buffer stored whole reads as the payload, whatever it held. -/
theorem r2_read_store_whole {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (r2_cover_whole h inb w), View.canon_unit_zero h]

/-- A whole-buffer load of a whole memref reads its contents. -/
theorem r2_readAt_whole (m : Memref sig .tc .vmem S e) (hm : m.IsWhole) (X : S.Idx → Elt F e) {off : Fin S.rank → Nat}
    (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

end Whole

/-! ## The body run once per control case

Each run is stated over arbitrary whole memrefs: the buffers the case touches at named contents before, and at the
skeleton's payloads of those contents after; a buffer the case does not touch is not mentioned (it stays in the frame). -/

set_option maxHeartbeats 1000000 in
/-- The first point: g = d · (h w) is stored into the first scratch, its rows the point names are read back, and the
    accumulator is stored (not added to). -/
theorem runFirst2 (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : condA2 i) (hC : ¬condC2 i) (hD : ¬condD2 i)
    (x1 : Vec F S4096x128 .f32) (x2 : Vec F S128x128 .f32) (x4 : Vec F S4096x1 .f32) (x5 : Vec F S512x4096 .bf16)
    (E : Set ℕ) (K : PUnit → sProp 𝕄) :
    iprop(owns (c : Thread nD τ) arg1 fullShare x1 ∗ owns (c : Thread nD τ) arg2 fullShare x2 ∗ owns (c : Thread nD τ) arg4 fullShare x4
        ∗ owns (c : Thread nD τ) arg5 fullShare x5 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg4 fullShare x4
            ∗ owns (c : Thread nD τ) arg5 fullShare x5
            ∗ owns (c : Thread nD τ) arg7 fullShare (k2_pay1 x1 x2 x4)
            ∗ owns (c : Thread nD τ) arg8 fullShare (k2_pay3 (View.ld (k2_pay1 x1 x2 x4) (gRect2 i)) x5)) -∗ K ⟨⟩))
      ⊢ wp frame (wpE (defs₀ (F := F)) Variants.none c none) E (cc2__prop_body i arg1 harg1 arg2 harg2 arg3 harg3 arg4 harg4 arg5 harg5 arg6 harg6 arg7 harg7 arg8 harg8) K := by
  simp only [cc2__prop_body_eq_skeleton]; unfold cc2__prop_body_skel
  unfold owns
  iintro ⟨⟨%f1, %hf1, H1⟩, ⟨%f2, %hf2, H2⟩, ⟨%f4, %hf4, H4⟩, ⟨%f5, %hf5, H5⟩, ⟨%d7, %f7, -, H7⟩, ⟨%d8, %f8, -, H8⟩, Hk⟩
  obtain rfl := harg1.eq_unread hf1; obtain rfl := harg2.eq_unread hf2; obtain rfl := harg4.eq_unread hf4; obtain rfl := harg5.eq_unread hf5
  sl_exec (disch := first | exact hA | exact hC | exact hD)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H7]
  · iexists _; isplitr
    swap; · iexact H7
    ipureintro
    sl_unfold_run_names
    rw [r2_read_store_whole _ _ r2_zeroOff, r2_readAt_whole arg1 harg1 x1 r2_zeroOff, r2_readAt_whole arg2 harg2 x2 r2_zeroOff,
      r2_readAt_whole arg4 harg4 x4 r2_zeroOff]
  · iexists _; isplitr
    swap; · iexact H8
    ipureintro
    sl_unfold_run_names
    rw [r2_read_store_whole _ _ r2_zeroOff, View.readAt_eq_ld arg7.view, r2_read_store_whole _ _ r2_zeroOff,
      r2_readAt_whole arg1 harg1 x1 r2_zeroOff, r2_readAt_whole arg2 harg2 x2 r2_zeroOff, r2_readAt_whole arg4 harg4 x4 r2_zeroOff,
      r2_readAt_whole arg5 harg5 x5 r2_zeroOff]

set_option maxHeartbeats 1000000 in
/-- A middle point: the rows of g the point names are read, and their product with the adjacency block is added to the
    accumulator. -/
theorem runMid2 (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : ¬condA2 i) (hC : condC2 i) (hD : ¬condD2 i)
    (x5 : Vec F S512x4096 .bf16) (g : Vec F S4096x128 .bf16) (a : Vec F S4096x128 .f32)
    (E : Set ℕ) (K : PUnit → sProp 𝕄) :
    iprop(owns (c : Thread nD τ) arg5 fullShare x5 ∗ owns (c : Thread nD τ) arg7 fullShare g ∗ owns (c : Thread nD τ) arg8 fullShare a
        ∗ (iprop(owns (c : Thread nD τ) arg5 fullShare x5 ∗ owns (c : Thread nD τ) arg7 fullShare g
            ∗ owns (c : Thread nD τ) arg8 fullShare (k2_pay4 (View.ld g (gRect2 i)) x5 a)) -∗ K ⟨⟩))
      ⊢ wp frame (wpE (defs₀ (F := F)) Variants.none c none) E (cc2__prop_body i arg1 harg1 arg2 harg2 arg3 harg3 arg4 harg4 arg5 harg5 arg6 harg6 arg7 harg7 arg8 harg8) K := by
  simp only [cc2__prop_body_eq_skeleton]; unfold cc2__prop_body_skel
  unfold owns
  iintro ⟨⟨%f5, %hf5, H5⟩, ⟨%f7, %hf7, H7⟩, ⟨%f8, %hf8, H8⟩, Hk⟩
  obtain rfl := harg5.eq_unread hf5; obtain rfl := harg7.eq_unread hf7; obtain rfl := harg8.eq_unread hf8
  sl_exec (disch := first | exact hA | exact hC | exact hD)
  sl_step
  iapply Hk
  isplitl [H5]
  · iexists _; isplitr; · ipureintro; exact harg5.read_unread _
    iexact H5
  isplitl [H7]
  · iexists _; isplitr; · ipureintro; exact harg7.read_unread _
    iexact H7
  · iexists _; isplitr
    swap; · iexact H8
    ipureintro
    sl_unfold_run_names
    rw [r2_read_store_whole _ _ r2_zeroOff, View.readAt_eq_ld arg7.view, harg7.read_unread,
      r2_readAt_whole arg5 harg5 x5 r2_zeroOff, r2_readAt_whole arg8 harg8 a r2_zeroOff]

set_option maxHeartbeats 1000000 in
/-- The last point: as a middle point, and then max(acc · d + b, 0) of the accumulator just updated is stored into the
    output's buffer. -/
theorem runLast2 (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : ¬condA2 i) (hC : condC2 i) (hD : condD2 i)
    (x3 : Vec F S1x128 .f32) (x4 : Vec F S4096x1 .f32) (x5 : Vec F S512x4096 .bf16) (g : Vec F S4096x128 .bf16) (a : Vec F S4096x128 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d)
        ∗ owns (c : Thread nD τ) arg7 fullShare g ∗ owns (c : Thread nD τ) arg8 fullShare a
        ∗ (iprop(owns (c : Thread nD τ) arg3 fullShare x3 ∗ owns (c : Thread nD τ) arg4 fullShare x4 ∗ owns (c : Thread nD τ) arg5 fullShare x5
            ∗ owns (c : Thread nD τ) arg6 fullShare (k2_pay5 (k2_pay4 (View.ld g (gRect2 i)) x5 a) x4 x3)
            ∗ owns (c : Thread nD τ) arg7 fullShare g
            ∗ owns (c : Thread nD τ) arg8 fullShare (k2_pay4 (View.ld g (gRect2 i)) x5 a)) -∗ K ⟨⟩))
      ⊢ wp frame (wpE (defs₀ (F := F)) Variants.none c none) E (cc2__prop_body i arg1 harg1 arg2 harg2 arg3 harg3 arg4 harg4 arg5 harg5 arg6 harg6 arg7 harg7 arg8 harg8) K := by
  simp only [cc2__prop_body_eq_skeleton]; unfold cc2__prop_body_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf3; obtain rfl := harg4.eq_unread hf4; obtain rfl := harg5.eq_unread hf5
  obtain rfl := harg7.eq_unread hf7; obtain rfl := harg8.eq_unread hf8
  sl_exec (disch := first | exact hA | exact hC | exact hD)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [r2_read_store_whole _ _ r2_zeroOff, View.readCov_unit_zero _ r2_zeroOff, View.readAt_eq_ld arg7.view, harg7.read_unread,
      r2_readAt_whole arg5 harg5 x5 r2_zeroOff, r2_readAt_whole arg8 harg8 a r2_zeroOff,
      r2_readAt_whole arg4 harg4 x4 r2_zeroOff, r2_readAt_whole arg3 harg3 x3 r2_zeroOff]
  isplitl [H7]
  · iexists _; isplitr; · ipureintro; exact harg7.read_unread _
    iexact H7
  · iexists _; isplitr
    swap; · iexact H8
    ipureintro
    sl_unfold_run_names
    rw [r2_read_store_whole _ _ r2_zeroOff, View.readAt_eq_ld arg7.view, harg7.read_unread,
      r2_readAt_whole arg5 harg5 x5 r2_zeroOff, r2_readAt_whole arg8 harg8 a r2_zeroOff]

end Cert.Kernel.Hand

end
-- ==== Proof.Kernel.R2Phi.lean ====
/-
  Region 2: the class invariant opened into the region's two scratch buffers, the other scoped buffers and the
  generator register, and closed again. The core's scoped buffers are a printed list; the region's two scratch buffers
  are the last two entries of it, and the rest, in the list's order, is the data's `other2`.
-/
import proofs.«137975_g29910152249793_cont_9to1_356_2_alg».proof.Proof.Kernel.R2Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace R2B

/-! ## The class invariant opened -/

/-- The class's invariant gives the two scratch buffers, each owned whole at some contents, the other scoped buffers,
    and the generator register at some state: the printed list of the core's scoped buffers regrouped; -/
theorem PhiA2_open (c : Dev nD) :
    (Pipeline.ΦA spec2 c : sProp 𝕄) ⊢ iprop((∃ d, owns (c : Thread nD τ) scG2 fullShare d) ∗ (∃ d, owns (c : Thread nD τ) scAcc2 fullShare d)
          ∗ other2 (F := F) c ∗ (∃ r, prngReg c r)) := by
  unfold Pipeline.ΦA other2; rw [scopedRest2_eq]; simp only [owns_whole]
  iintro ⟨⟨O0, O1, O2, O3, O4, O5, O6, O7, O8, O9, O10, O11, O12, O13, O14, HG, HA⟩, Hg⟩
  isplitl [HG]; · iexact HG
  isplitl [HA]; · iexact HA
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  iexact O14

/-- and is given back by them. -/
theorem PhiA2_close (c : Dev nD) :
    iprop((∃ d, owns (c : Thread nD τ) scG2 fullShare d) ∗ (∃ d, owns (c : Thread nD τ) scAcc2 fullShare d)
          ∗ other2 (F := F) c ∗ (∃ r, prngReg c r)) ⊢ (Pipeline.ΦA spec2 c : sProp 𝕄) := by
  unfold Pipeline.ΦA other2; rw [scopedRest2_eq]; simp only [owns_whole]
  iintro ⟨HG, HA, ⟨O0, O1, O2, O3, O4, O5, O6, O7, O8, O9, O10, O11, O12, O13, O14⟩, Hg⟩
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [HG]; · iexact HG
  iexact HA

/-- So the two are one assertion. -/
theorem PhiA2_eq (c : Dev nD) :
    (Pipeline.ΦA spec2 c : sProp 𝕄) = iprop((∃ d, owns (c : Thread nD τ) scG2 fullShare d) ∗ (∃ d, owns (c : Thread nD τ) scAcc2 fullShare d)
          ∗ other2 (F := F) c ∗ (∃ r, prngReg c r)) :=
  Entails.antisymm (PhiA2_open c) (PhiA2_close c)

end R2B

end Cert.Kernel.Hand

end
-- ==== Proof.Kernel.R2Body.lean ====
/-
  Region 2: the body meets the proof data at every grid point, and the invariant's two ends.

  The body's conditions are given closed forms over the grid; every input's buffer holds its block at every point; and
  at each point the run of its control case turns what the invariant (the class's, opened into the two scratch buffers,
  the other scoped buffers and the generator register) and the windows hold before into what the data say they hold
  after.
-/
import proofs.«137975_g29910152249793_cont_9to1_356_2_alg».proof.Proof.Kernel.R2Data
import proofs.«137975_g29910152249793_cont_9to1_356_2_alg».proof.Proof.Kernel.R2Run
import proofs.«137975_g29910152249793_cont_9to1_356_2_alg».proof.Proof.Kernel.R2Phi

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

namespace R2B

/-! ## The conditions in closed form, decided over the grid -/

theorem hcondA2 : ∀ t : Fin cfg2.N, condA2 (grid2.coords t) ↔ t.val = 0 :=
  (by decide +kernel : ∀ t : Fin grid2.N, condA2 (grid2.coords t) ↔ t.val = 0)
theorem hcondC2 : ∀ t : Fin cfg2.N, condC2 (grid2.coords t) ↔ 0 < t.val :=
  (by decide +kernel : ∀ t : Fin grid2.N, condC2 (grid2.coords t) ↔ 0 < t.val)
theorem hcondD2 : ∀ t : Fin cfg2.N, condD2 (grid2.coords t) ↔ t.val = 7 :=
  (by decide +kernel : ∀ t : Fin grid2.N, condD2 (grid2.coords t) ↔ t.val = 7)

/-! ## Where the output window is idle -/

/-- Off the last point the output window is idle: the body stores nothing into it, -/
theorem idleAt2_5 : ∀ t : Fin cfg2.N, ¬condD2 (grid2.coords t) → cfg2.idle 5 (grid2.coords t) = true := by decide +kernel
/-- and the pipeline does not write its block back. -/
theorem noFlush2_5 : ∀ t : Fin cfg2.N, ¬condD2 (grid2.coords t) → (cfg2.win 5).flush t = false := by decide +kernel
/-- At the last point it is live. -/
theorem liveAt2_5 : ∀ t : Fin cfg2.N, condD2 (grid2.coords t) → cfg2.idle 5 (grid2.coords t) = false := by decide +kernel

/-! ## The staging memrefs at a point, as the pipeline passes them -/

abbrev ms2_0 (t : Fin cfg2.N) : Memref sig .tc .vmem S4096x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x4096 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x128 .f32 := win2_5.stage (cfg2.slots t 5)
abbrev hs2_5 (t : Fin cfg2.N) : (ms2_5 t).IsWhole := hstage2_5 ((cfg2.slots t 5).cast nbuf2_5)

/-! ## What the body finds and leaves in the inputs' buffers -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem leaves2_0 (c : Dev nD) (t : Fin cfg2.N) :
    (dat2 V c).leavesExact 0 t = owns (c : Thread nD τ) (ms2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (ms2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (ms2_2 t) fullShare (iblk2 V c 2 t) := by
  unfold Dat.leavesExact; rw [show cfg2.idle 2 (cfg2.grid.coords t) = false from rfl, after2_2]
theorem leaves2_3 (c : Dev nD) (t : Fin cfg2.N) :
    (dat2 V c).leavesExact 3 t = owns (c : Thread nD τ) (ms2_3 t) fullShare (iblk2 V c 3 t) := by
  unfold Dat.leavesExact; rw [show cfg2.idle 3 (cfg2.grid.coords t) = false from rfl, after2_3]
theorem leaves2_4 (c : Dev nD) (t : Fin cfg2.N) :
    (dat2 V c).leavesExact 4 t = owns (c : Thread nD τ) (ms2_4 t) fullShare (iblk2 V c 4 t) := by
  unfold Dat.leavesExact; rw [show cfg2.idle 4 (cfg2.grid.coords t) = false from rfl, after2_4]

/-! ## The carried values at a point -/

/-- g in terms of the blocks at the first point, wherever that point is named. -/
theorem gVal2_at (c : Dev nD) (t : Fin cfg2.N) (h0 : t.val = 0) :
    gVal2 V c = k2_pay1 (hBlk2 V c t) (wBlk2 V c t) (dBlk2 V c t) := by
  obtain ⟨n, hn⟩ := t; obtain rfl : n = 0 := h0; rfl

/-- The accumulator after the first point. -/
theorem accAt2_first (c : Dev nD) (t : Fin cfg2.N) (h0 : t.val = 0) :
    accAt2 V c t.val t.isLt = k2_pay3 (View.ld (gVal2 V c) (gRect2 (grid2.coords t))) (aBlk2 V c t) := by
  obtain ⟨n, hn⟩ := t; obtain rfl : n = 0 := h0; rfl

/-- The accumulator after a later point: the block's product added to what the point before left. -/
theorem accAt2_pos (c : Dev nD) (t : Fin cfg2.N) (h0 : t.val ≠ 0) :
    accAt2 V c t.val t.isLt = k2_pay4 (View.ld (gVal2 V c) (gRect2 (grid2.coords t))) (aBlk2 V c t)
      (accAt2 V c (t.val - 1) (Nat.lt_of_le_of_lt (Nat.sub_le _ _) t.isLt)) := by
  obtain ⟨n, hn⟩ := t
  cases n with
  | zero => exact absurd rfl h0
  | succ n => rfl

/-! ## The invariant at a point -/

theorem PhiS2_castSucc (c : Dev nD) (t : Fin cfg2.N) :
    (dat2 V c).Φ t.castSucc = PhiS2 V c t.val (Nat.le_of_lt t.isLt) := by
  dsimp only [dat2]; simp only [Fin.coe_castSucc]

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scG2 fullShare (gVal2 V c) ∗ owns (c : Thread nD τ) scAcc2 fullShare (accAt2 V c n hn)
      ∗ other2 c ∗ (∃ r, prngReg c r)) := rfl

theorem PhiS2_pos (c : Dev nD) (n : ℕ) (h : n ≤ cfg2.N) (hz : n ≠ 0) :
    PhiS2 V c n h = iprop(owns (c : Thread nD τ) scG2 fullShare (gVal2 V c)
      ∗ owns (c : Thread nD τ) scAcc2 fullShare (accAt2 V c (n - 1) (by omega))
      ∗ other2 c ∗ (∃ r, prngReg c r)) := by
  cases n with
  | zero => exact absurd rfl hz
  | succ n => rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' buffers hold their blocks; the closed forms say which control case the point is
    in, and that case's run applies: at the first point the invariant hands the two scratch buffers at anything and
    takes them back at g and the first product; later it hands them at g and the accumulator so far and takes the
    accumulator back with the point's product added; the output's buffer is handed back untouched except at the last
    point, where it is left at max(acc · d + b, 0). The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 8 := lt_of_lt_of_eq t.isLt (show cfg2.N = 8 from N_2)
  by_cases h0 : t.val = 0
  · have hA : condA2 (grid2.coords t) := (hcondA2 t).mpr h0
    have hC : ¬condC2 (grid2.coords t) := fun h => by have := (hcondC2 t).mp h; omega
    have hD : ¬condD2 (grid2.coords t) := fun h => by have := (hcondD2 t).mp h; omega
    rw [Dat.leavesExact_idle (dat2 V c) 5 t (idleAt2_5 t hD) (noFlush2_5 t hD)]
    rw [PhiS2_castSucc, PhiS2_zero V c _ _ h0, PhiA2_eq]
    rw [accAt2_first V c t h0, gVal2_at V c t h0]
    iintro ⟨⟨⟨%dG, HG⟩, ⟨%dA, HA⟩, Hoth, Hg⟩, Ho, ⟨%d0, H0⟩, ⟨%d1, H1⟩, ⟨%d2, H2⟩, ⟨%d3, H3⟩, ⟨%d4, H4⟩, H5⟩
    iapply (runFirst2 c (grid2.coords t) (ms2_0 t) (hs2_0 t) (ms2_1 t) (hs2_1 t) (ms2_2 t) (hs2_2 t) (ms2_3 t) (hs2_3 t) (ms2_4 t) (hs2_4 t) (ms2_5 t) (hs2_5 t) scG2 (Memref.isWhole_whole _) scAcc2 (Memref.isWhole_whole _) hA hC hD (hBlk2 V c t) (wBlk2 V c t) (dBlk2 V c t) (aBlk2 V c t) Set.univ _)
    isplitl [H0]; · iexact H0
    isplitl [H1]; · iexact H1
    isplitl [H3]; · iexact H3
    isplitl [H4]; · iexact H4
    isplitl [HG]; · iexists _; iexact HG
    isplitl [HA]; · iexists _; iexact HA
    iintro ⟨H0, H1, H3, H4, HG, HA⟩
    isplitl [HG HA Hoth Hg]
    · isplitl [HG]; · iexact HG
      isplitl [HA]; · iexact HA
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hA : ¬condA2 (grid2.coords t) := fun h => h0 ((hcondA2 t).mp h)
    have hC : condC2 (grid2.coords t) := (hcondC2 t).mpr (Nat.pos_of_ne_zero h0)
    by_cases h7 : t.val = 7
    · have hD : condD2 (grid2.coords t) := (hcondD2 t).mpr h7
      rw [show (dat2 V c).leavesExact 5 t = owns (c : Thread nD τ) (ms2_5 t) fullShare (outAt2 V c t) from by
        unfold Dat.leavesExact; rw [liveAt2_5 t hD, after2_5]]
      unfold outAt2
      rw [PhiS2_castSucc, PhiS2_pos V c _ _ h0, accAt2_pos V c t h0]
      iintro ⟨⟨HG, HA, Hoth, Hg⟩, Ho, ⟨%d0, H0⟩, ⟨%d1, H1⟩, ⟨%d2, H2⟩, ⟨%d3, H3⟩, ⟨%d4, H4⟩, ⟨%d5, H5⟩⟩
      iapply (runLast2 c (grid2.coords t) (ms2_0 t) (hs2_0 t) (ms2_1 t) (hs2_1 t) (ms2_2 t) (hs2_2 t) (ms2_3 t) (hs2_3 t) (ms2_4 t) (hs2_4 t) (ms2_5 t) (hs2_5 t) scG2 (Memref.isWhole_whole _) scAcc2 (Memref.isWhole_whole _) hA hC hD (bBlk2 V c t) (dBlk2 V c t) (aBlk2 V c t) (gVal2 V c) (accAt2 V c (t.val - 1) (Nat.lt_of_le_of_lt (Nat.sub_le _ _) t.isLt)) Set.univ _)
      isplitl [H2]; · iexact H2
      isplitl [H3]; · iexact H3
      isplitl [H4]; · iexact H4
      isplitl [H5]; · iexists _; iexact H5
      isplitl [HG]; · iexact HG
      isplitl [HA]; · iexact HA
      iintro ⟨H2, H3, H4, H5, HG, HA⟩
      isplitl [HG HA Hoth Hg]
      · isplitl [HG]; · iexact HG
        isplitl [HA]; · iexact HA
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · have hD : ¬condD2 (grid2.coords t) := fun h => h7 ((hcondD2 t).mp h)
      rw [Dat.leavesExact_idle (dat2 V c) 5 t (idleAt2_5 t hD) (noFlush2_5 t hD)]
      rw [PhiS2_castSucc, PhiS2_pos V c _ _ h0, accAt2_pos V c t h0]
      iintro ⟨⟨HG, HA, Hoth, Hg⟩, Ho, ⟨%d0, H0⟩, ⟨%d1, H1⟩, ⟨%d2, H2⟩, ⟨%d3, H3⟩, ⟨%d4, H4⟩, H5⟩
      iapply (runMid2 c (grid2.coords t) (ms2_0 t) (hs2_0 t) (ms2_1 t) (hs2_1 t) (ms2_2 t) (hs2_2 t) (ms2_3 t) (hs2_3 t) (ms2_4 t) (hs2_4 t) (ms2_5 t) (hs2_5 t) scG2 (Memref.isWhole_whole _) scAcc2 (Memref.isWhole_whole _) hA hC hD (aBlk2 V c t) (gVal2 V c) (accAt2 V c (t.val - 1) (Nat.lt_of_le_of_lt (Nat.sub_le _ _) t.isLt)) Set.univ _)
      isplitl [H4]; · iexact H4
      isplitl [HG]; · iexact HG
      isplitl [HA]; · iexact HA
      iintro ⟨H4, HG, HA⟩
      isplitl [HG HA Hoth Hg]
      · isplitl [HG]; · iexact HG
        isplitl [HA]; · iexact HA
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

end R2B

open R2B

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  iintro ⟨HG, HA, Hoth, Hg⟩
  isplitl [HG]; · iexists _; iexact HG
  isplitl [HA]; · iexists _; iexact HA
  isplitl [Hoth]; · iexact Hoth
  iexact Hg

end Cert.Kernel.Hand

end
-- ==== Proof.Kernel.Launch.lean ====
/-
  The whole run: the three regions and the two reshapes between them, from the launch memory to the return.

  Between two items every unscoped buffer of a core holds a named value: the launch memory; then, after a region, its
  arrays at what the pipeline's write-backs leave and every other buffer as before; after a reshape, its result
  written. Each region is entered at the contents the item before it left, and the run ends with every unscoped buffer
  at the last of these valuations — from which both the frame (the arguments are never written) and the result's value
  are read.
-/
import proofs.«137975_g29910152249793_cont_9to1_356_2_alg».proof.Proof.Kernel.R0Body
import proofs.«137975_g29910152249793_cont_9to1_356_2_alg».proof.Proof.Kernel.R1Body
import proofs.«137975_g29910152249793_cont_9to1_356_2_alg».proof.Proof.Kernel.R2Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 : Dev nD → Valuation τ sig (Elt F) := fun c b => m (c, b)
/-- The same read at the TensorCore's references: what region 0 is entered at. -/
abbrev E0 : (c : Dev nD) → (b : Ref sig .tc) → Buf (Elt F) ((c : Thread nD τ).loc b) := fun c b => W0 m c b
/-- After region 0: its arrays at what its write-backs leave, every other buffer as launched. -/
def W1 (c : Dev nD) : Valuation τ sig (Elt F) :=
  Pipeline.withArrays spec0 c (W0 m c) fun w => (dat0 (E0 m) c).arrAt w cfg0.N
/-- After the first bias's reshape. -/
abbrev W2 : Dev nD → Valuation τ sig (Elt F) := fun c => StableHlo.after hostOps1 (W1 m c)
/-- What region 1 is entered at. -/
abbrev E1 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (E1 m) c).arrAt w cfg1.N
/-- After the second bias's reshape. -/
abbrev W4 : Dev nD → Valuation τ sig (Elt F) := fun c => StableHlo.after hostOps2 (W3 m c)
/-- What region 2 is entered at. -/
abbrev E2 : (c : Dev nD) → (b : Ref sig .tc) → Buf (Elt F) ((c : Thread nD τ).loc b) := fun c b => W4 m c b
/-- After region 2: the contents the program returns with. -/
def W5 (c : Dev nD) : Valuation τ sig (Elt F) :=
  Pipeline.withArrays spec2 c (W4 m c) fun w => (dat2 (E2 m) c).arrAt w cfg2.N

/-! ## What each region leaves in the buffers -/

/-- Region 0 leaves each of its arrays at what its write-backs fold to, -/
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
/-- and every buffer that is none of its arrays as it found it. -/
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What region 0 leaves, read at the TensorCore's references. -/
abbrev X0 : (c : Dev nD) → (b : Ref sig .tc) → Buf (Elt F) ((c : Thread nD τ).loc b) := fun c b => W1 m c b
theorem hF0 (c : Dev nD) (w : Fin cfg0.W) : (dat0 (E0 m) c).arrAt w cfg0.N = X0 m c (Pipeline.arrRef spec0 w) :=
  (W1_arr m c w).symm
theorem hrest0 (c : Dev nD) : ∀ b, b ∉ Finset.univ.image (Pipeline.arrRef spec0) → X0 m c b = E0 m c b :=
  fun b hb => W1_of_ne m c b fun w e => hb (Finset.mem_image.mpr ⟨w, Finset.mem_univ _, e⟩)

/-- Region 1 leaves each of its arrays at what its write-backs fold to, -/
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
/-- and every buffer that is none of its arrays as it found it. -/
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- What region 1 leaves, read at the TensorCore's references. -/
abbrev X1 : (c : Dev nD) → (b : Ref sig .tc) → Buf (Elt F) ((c : Thread nD τ).loc b) := fun c b => W3 m c b
theorem hF1 (c : Dev nD) (w : Fin cfg1.W) : (dat1 (E1 m) c).arrAt w cfg1.N = X1 m c (Pipeline.arrRef spec1 w) :=
  (W3_arr m c w).symm
theorem hrest1 (c : Dev nD) : ∀ b, b ∉ Finset.univ.image (Pipeline.arrRef spec1) → X1 m c b = E1 m c b :=
  fun b hb => W3_of_ne m c b fun w e => hb (Finset.mem_image.mpr ⟨w, Finset.mem_univ _, e⟩)

/-- Region 2 leaves each of its arrays at what its write-backs fold to, -/
theorem W5_arr (c : Dev nD) (w : Fin cfg2.W) :
    W5 m c (Proc.devRef .tc (Pipeline.arrRef spec2 w)) = (dat2 (E2 m) c).arrAt w cfg2.N := by
  unfold W5; exact Pipeline.withArrays_arr spec2 launch2.win.arr_inj c _ _ w
/-- and every buffer that is none of its arrays as it found it. -/
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- What region 2 leaves, read at the TensorCore's references. -/
abbrev X2 : (c : Dev nD) → (b : Ref sig .tc) → Buf (Elt F) ((c : Thread nD τ).loc b) := fun c b => W5 m c b
theorem hF2 (c : Dev nD) (w : Fin cfg2.W) : (dat2 (E2 m) c).arrAt w cfg2.N = X2 m c (Pipeline.arrRef spec2 w) :=
  (W5_arr m c w).symm
theorem hrest2 (c : Dev nD) : ∀ b, b ∉ Finset.univ.image (Pipeline.arrRef spec2) → X2 m c b = E2 m c b :=
  fun b hb => W5_of_ne m c b fun w e => hb (Finset.mem_image.mpr ⟨w, Finset.mem_univ _, e⟩)

/-! ## The proof data family and the thread state -/

/-- The prefetched tables' admissible contents: no pipeline has a table. -/
abbrev tabs : (p : Fin 3) → (pcfgs (F := F) p).Adm := fun p => (cfgs p).toPCfg_adm
/-- Every pipeline's proof data, each at the contents its region is entered at. -/
def pdats : (p : Fin 3) → (c : Dev nD) → Dat τ (Elt F) Unit ℕ (UR sig nD τ) ℕ (Pipeline.pin (pcfgs (F := F)) tabs p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment: the unscoped buffers from the contents W to those after the operations,
    R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem reshape1_fresh : (hostOps1 : List (HloOp τ sig (Elt F))).Forall fun op => op.fresh = ∅ := by
  simp only [List.Forall]; repeat' constructor
theorem reshape2_fresh : (hostOps2 : List (HloOp τ sig (Elt F))).Forall fun op => op.fresh = ∅ := by
  simp only [List.Forall]; repeat' constructor
/-- The last thread state without the dues: every unscoped buffer at the last valuation, the generator register at some
    state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at W0, left with them at W1. Its arrays
    are split out of the unscoped buffers on entry and put back at their final contents on exit; the generator register
    goes into the invariant with the scoped buffers no window stages, through the class's invariant at the first point,
    and comes back out of the class's invariant after the last; nothing is owed; the kernel has no semaphore of its own. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    refine BIBase.Entails.trans (hout0 (E0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W2, left with them at W3. Its arrays
    are split out of the unscoped buffers on entry and put back at their final contents on exit; the generator register
    goes into the invariant with the scoped buffers no window stages, through the class's invariant at the first point,
    and comes back out of the class's invariant after the last; nothing is owed; the kernel has no semaphore of its own. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine BIBase.Entails.trans (hout1 (E1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W4, left with them at W5. Its arrays
    are split out of the unscoped buffers on entry and put back at their final contents on exit; the generator register
    goes into the invariant with the scoped buffers no window stages, through the class's invariant at the first point,
    and comes back out of the class's invariant after the last; nothing is owed; the kernel has no semaphore of its own. -/
def reg2 : Pipeline.RegionSeg (pcfgs (F := F)) tabs (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) tabs (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E2 m) c)
    unfold Pipeline.ΦA
    iintro ⟨Hp, -, Hr⟩
    isplitl [Hr]; · iexact Hr
    iexact Hp
  hout c := by
    refine BIBase.Entails.trans (hout2 (E2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tabs (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments -/

/-- The five items in order: region 0, the first reshape from what region 0 left, region 1, the second reshape from what
    region 1 left, region 2. -/
abbrev segs : List (Pipeline.Seg (pcfgs (F := F)) tabs (pdats m) () defs₀ 𝒱₀ L lv) :=
  [ .region (reg0 m),
    .host (hseg hostOps1 hostOps1_sub reshape1_fresh (W1 m)),
    .region (reg1 m),
    .host (hseg hostOps2 hostOps2_sub reshape2_fresh (W3 m)),
    .region (reg2 m) ]
/-- The program is the run of these segments. -/
theorem main_run (c : Dev nD) : main (F := F) c = Pipeline.Seg.run (segs m) := (main_chain c).trans (by chain_rfl)

/-! ## The run -/

set_option backward.isDefEq.respectTransparency.types false in
/-- From any memory with zero counters every weakly fair execution of the program terminates, faulting nowhere, and
    every final memory holds each unscoped buffer at the last valuation. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W5 m c b) :=
  Pipeline.θ_run_regions_kit (pcfgs (F := F)) tabs (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.Kernel.Hand

end
-- ==== Proof.Kernel.Frame.lean ====
/-
  The frame, read off the run: no item writes an argument.

  The run ends with every unscoped buffer at the last valuation. An argument is either an input window's array of some
  region — which the region leaves as it found it — or no window's array at all, and no reshape writes one; so reading
  each argument's buffer back through the items reaches the launch memory.
-/
import proofs.«137975_g29910152249793_cont_9to1_356_2_alg».proof.Proof.Kernel.Launch
import proofs.«137975_g29910152249793_cont_9to1_356_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading a buffer back through one item -/

/-- The first reshape writes its own result only. -/
theorem W2_of (c : Dev nD) (r : Ref sig .tc) (h : r ∉ hostOps1_W) : W2 m c (Proc.devRef .tc r) = W1 m c (Proc.devRef .tc r) :=
  StableHlo.after_of_writes_sub hostOps1 _ hostOps1_writes h
/-- The second reshape writes its own result only. -/
theorem W4_of (c : Dev nD) (r : Ref sig .tc) (h : r ∉ hostOps2_W) : W4 m c (Proc.devRef .tc r) = W3 m c (Proc.devRef .tc r) :=
  StableHlo.after_of_writes_sub hostOps2 _ hostOps2_writes h

/-- An input window's array is unchanged by its region. -/
theorem in0 (c : Dev nD) (w : Fin cfg0.W) (hin : (cfg0.win w).isOut = false) :
    (dat0 (E0 m) c).arrAt w cfg0.N = E0 m c (Pipeline.arrRef spec0 w) :=
  ((dat0 (E0 m) c).arrAt_in w hin _).trans (A_eq0 (E0 m) c w)
theorem in1 (c : Dev nD) (w : Fin cfg1.W) (hin : (cfg1.win w).isOut = false) :
    (dat1 (E1 m) c).arrAt w cfg1.N = E1 m c (Pipeline.arrRef spec1 w) :=
  ((dat1 (E1 m) c).arrAt_in w hin _).trans (A_eq1 (E1 m) c w)
theorem in2 (c : Dev nD) (w : Fin cfg2.W) (hin : (cfg2.win w).isOut = false) :
    (dat2 (E2 m) c).arrAt w cfg2.N = E2 m c (Pipeline.arrRef spec2 w) :=
  ((dat2 (E2 m) c).arrAt_in w hin _).trans (A_eq2 (E2 m) c w)

/-- A buffer that region 0 does not stage and the first reshape does not write reaches region 1 as launched. -/
theorem arg_E1 (c : Dev nD) (r : Ref sig .tc) (h1 : r ∉ hostOps1_W) (h0 : ∀ w, Pipeline.arrRef spec0 w ≠ r) :
    E1 m c r = m ((c : Thread nD τ).loc r) :=
  (W2_of m c r h1).trans (W1_of_ne m c r h0)
/-- And one that region 1 does not stage and the second reshape does not write either reaches region 2 as launched. -/
theorem arg_E2 (c : Dev nD) (r : Ref sig .tc) (h2 : r ∉ hostOps2_W) (h1' : ∀ w, Pipeline.arrRef spec1 w ≠ r) (h1 : r ∉ hostOps1_W)
    (h0 : ∀ w, Pipeline.arrRef spec0 w ≠ r) : E2 m c r = m ((c : Thread nD τ).loc r) :=
  (W4_of m c r h2).trans ((W3_of_ne m c r h1').trans (arg_E1 m c r h1 h0))

/-! ## Each argument at the end -/

/-- The features: region 1's input window 0. -/
theorem W5_main_arg0 (c : Dev nD) : W5 m c (Proc.devRef .tc main_arg0) = m ((c : Thread nD τ).loc main_arg0) :=
  (W5_of_ne m c main_arg0 (by decide)).trans <| (W4_of m c main_arg0 (by decide)).trans <|
    (W3_arr m c 0).trans <| (in1 m c 0 rfl).trans (arg_E1 m c main_arg0 (by decide) (by decide))
/-- The adjacency: region 0's input window 0. -/
theorem W5_main_arg1 (c : Dev nD) : W5 m c (Proc.devRef .tc main_arg1) = m ((c : Thread nD τ).loc main_arg1) :=
  (W5_of_ne m c main_arg1 (by decide)).trans <| (W4_of m c main_arg1 (by decide)).trans <|
    (W3_of_ne m c main_arg1 (by decide)).trans <| (W2_of m c main_arg1 (by decide)).trans <|
    (W1_arr m c 0).trans (in0 m c 0 rfl)
/-- The first weights: region 1's input window 1. -/
theorem W5_main_arg2 (c : Dev nD) : W5 m c (Proc.devRef .tc main_arg2) = m ((c : Thread nD τ).loc main_arg2) :=
  (W5_of_ne m c main_arg2 (by decide)).trans <| (W4_of m c main_arg2 (by decide)).trans <|
    (W3_arr m c 1).trans <| (in1 m c 1 rfl).trans (arg_E1 m c main_arg2 (by decide) (by decide))
/-- The first bias: no window's array. -/
theorem W5_main_arg3 (c : Dev nD) : W5 m c (Proc.devRef .tc main_arg3) = m ((c : Thread nD τ).loc main_arg3) :=
  (W5_of_ne m c main_arg3 (by decide)).trans (arg_E2 m c main_arg3 (by decide) (by decide) (by decide) (by decide))
/-- The second weights: region 2's input window 1. -/
theorem W5_main_arg4 (c : Dev nD) : W5 m c (Proc.devRef .tc main_arg4) = m ((c : Thread nD τ).loc main_arg4) :=
  (W5_arr m c 1).trans <| (in2 m c 1 rfl).trans (arg_E2 m c main_arg4 (by decide) (by decide) (by decide) (by decide))
/-- The second bias: no window's array. -/
theorem W5_main_arg5 (c : Dev nD) : W5 m c (Proc.devRef .tc main_arg5) = m ((c : Thread nD τ).loc main_arg5) :=
  (W5_of_ne m c main_arg5 (by decide)).trans (arg_E2 m c main_arg5 (by decide) (by decide) (by decide) (by decide))

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The frame -/

/-- From any memory with zero counters every weakly fair execution terminates, faulting nowhere, with every argument
    array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_main m ρ)

end Cert.Kernel.Hand

end
-- ==== Proof.KernelIdeal.R0Data.lean ====
/-
  Region 0 (the preparation pass) as proof data for the pipeline library.

  At grid point t the body reads row block t of the integer adjacency matrix (512 rows, all 4096 columns), writes the
  block with its diagonal forced to one, converted to floats, into output window 1 (written back at every point), and
  adds the block's column sums — a product with a column of ones — into a scratch column: stored at the first point,
  added to at every later one. At the last point it stores, into output window 2 (written back there only), the
  scratch's entrywise inverse square root where it is positive and zero elsewhere. The scratch is carried from point
  to point, so the region's invariant names its contents after each point.
-/
import proofs.«137975_g29910152249793_cont_9to1_356_2_alg».proof.Proof.Gen.KernelIdeal.Launch
import proofs.«137975_g29910152249793_cont_9to1_356_2_alg».proof.Proof.Gen.KernelIdeal.Skeleton
import proofs.«137975_g29910152249793_cont_9to1_356_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Row block t of the adjacency matrix. -/
abbrev adjBlk0 (c : Dev nD) (t : Fin cfg0.N) : Vec F S512x4096 .i32 := iblk0 V c 0 t

/-! ## The carried column sums -/

/-- The scratch column after the body at position n: the first block's column sums, then each later block's added. -/
def degAcc0 (c : Dev nD) : (n : ℕ) → n < cfg0.N → Vec F S4096x1 .f32
  | 0, hn => k0_pay3 (grid0.coords ⟨0, hn⟩) (adjBlk0 V c ⟨0, hn⟩)
  | n + 1, hn => k0_pay4 (grid0.coords ⟨n + 1, hn⟩) (adjBlk0 V c ⟨n + 1, hn⟩) (degAcc0 c n (Nat.lt_of_succ_lt hn))

theorem degAccZero0 (c : Dev nD) (hn : 0 < cfg0.N) :
    degAcc0 V c 0 hn = k0_pay3 (grid0.coords ⟨0, hn⟩) (adjBlk0 V c ⟨0, hn⟩) := rfl
theorem degAccSucc0 (c : Dev nD) (n : ℕ) (hn : n + 1 < cfg0.N) :
    degAcc0 V c (n + 1) hn = k0_pay4 (grid0.coords ⟨n + 1, hn⟩) (adjBlk0 V c ⟨n + 1, hn⟩) (degAcc0 V c n (Nat.lt_of_succ_lt hn)) := rfl

/-! ## The invariant -/

/-- The scratch operand: a whole scoped buffer of the kernel's own. -/
abbrev scM0 : Memref sig .tc .vmem S4096x1 .f32 := Memref.whole cc0_scratch0

/-- The core's scoped buffers other than the scratch and this region's staging buffers, each whole at some contents:
    what the body never touches. -/
def other0 (c : Dev nD) : sProp 𝕄 :=
  iprop((∃ f : Buf (Elt F) ((c : Thread nD τ).loc cc1_stg0_0), ((c : Thread nD τ).loc cc1_stg0_0) ↦{fullShare} f) ∗
    (∃ f : Buf (Elt F) ((c : Thread nD τ).loc cc1_stg1_0), ((c : Thread nD τ).loc cc1_stg1_0) ↦{fullShare} f) ∗
    (∃ f : Buf (Elt F) ((c : Thread nD τ).loc cc1_stg2_0), ((c : Thread nD τ).loc cc1_stg2_0) ↦{fullShare} f) ∗
    (∃ f : Buf (Elt F) ((c : Thread nD τ).loc cc1_stg3_0), ((c : Thread nD τ).loc cc1_stg3_0) ↦{fullShare} f) ∗
    (∃ f : Buf (Elt F) ((c : Thread nD τ).loc cc1_stg4_0), ((c : Thread nD τ).loc cc1_stg4_0) ↦{fullShare} f) ∗
    (∃ f : Buf (Elt F) ((c : Thread nD τ).loc cc1_stg4_1), ((c : Thread nD τ).loc cc1_stg4_1) ↦{fullShare} f) ∗
    (∃ f : Buf (Elt F) ((c : Thread nD τ).loc cc1_stg5_0), ((c : Thread nD τ).loc cc1_stg5_0) ↦{fullShare} f) ∗
    (∃ f : Buf (Elt F) ((c : Thread nD τ).loc cc1_scratch0), ((c : Thread nD τ).loc cc1_scratch0) ↦{fullShare} f) ∗
    (∃ f : Buf (Elt F) ((c : Thread nD τ).loc cc1_scratch1), ((c : Thread nD τ).loc cc1_scratch1) ↦{fullShare} f) ∗
    (∃ f : Buf (Elt F) ((c : Thread nD τ).loc cc2_stg0_0), ((c : Thread nD τ).loc cc2_stg0_0) ↦{fullShare} f) ∗
    (∃ f : Buf (Elt F) ((c : Thread nD τ).loc cc2_stg1_0), ((c : Thread nD τ).loc cc2_stg1_0) ↦{fullShare} f) ∗
    (∃ f : Buf (Elt F) ((c : Thread nD τ).loc cc2_stg2_0), ((c : Thread nD τ).loc cc2_stg2_0) ↦{fullShare} f) ∗
    (∃ f : Buf (Elt F) ((c : Thread nD τ).loc cc2_stg3_0), ((c : Thread nD τ).loc cc2_stg3_0) ↦{fullShare} f) ∗
    (∃ f : Buf (Elt F) ((c : Thread nD τ).loc cc2_stg4_0), ((c : Thread nD τ).loc cc2_stg4_0) ↦{fullShare} f) ∗
    (∃ f : Buf (Elt F) ((c : Thread nD τ).loc cc2_stg4_1), ((c : Thread nD τ).loc cc2_stg4_1) ↦{fullShare} f) ∗
    (∃ f : Buf (Elt F) ((c : Thread nD τ).loc cc2_stg5_0), ((c : Thread nD τ).loc cc2_stg5_0) ↦{fullShare} f) ∗
    (∃ f : Buf (Elt F) ((c : Thread nD τ).loc cc2_scratch0), ((c : Thread nD τ).loc cc2_scratch0) ↦{fullShare} f) ∗
    (∃ f : Buf (Elt F) ((c : Thread nD τ).loc cc2_scratch1), ((c : Thread nD τ).loc cc2_scratch1) ↦{fullShare} f))

/-- The region's invariant before position n: before the first point every scratch buffer at anything (the class's
    invariant); afterwards the scratch column at the sums so far, the rest at anything, the generator register at some state. -/
def PhiS0 (c : Dev nD) : (n : ℕ) → n ≤ cfg0.N → sProp 𝕄
  | 0, _ => Pipeline.ΦA spec0 c
  | n + 1, hn => iprop(owns (c : Thread nD τ) scM0 fullShare (degAcc0 V c n hn) ∗ other0 c ∗ (∃ r, prngReg c r))

/-! ## The proof data -/

/-- Pipeline 0's proof data on core c: the arrays as the region finds them; after the body at point t the input's
    buffer at its block, output 1's at the block with its diagonal forced, output 2's at the inverse square roots of the
    sums so far (consulted at the last point only: elsewhere the window is idle and not written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (grid0.coords t) (adjBlk0 V c t)
    | ⟨2, _⟩ => k0_pay5 (degAcc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (grid0.coords t) (adjBlk0 V c t) := by dsimp only [dat0]
theorem after0_2 (c : Dev nD) (t : Fin cfg0.N) : (dat0 V c).after 2 t = k0_pay5 (degAcc0 V c t.val t.isLt) := by dsimp only [dat0]

end Cert.KernelIdeal.Hand

end
-- ==== Proof.KernelIdeal.R0Run.lean ====
/-
  Region 0: the kernel body run once per control case.
-/
import proofs.«137975_g29910152249793_cont_9to1_356_2_alg».proof.Proof.Gen.KernelIdeal.Launch
import proofs.«137975_g29910152249793_cont_9to1_356_2_alg».proof.Proof.Gen.KernelIdeal.Skeleton
import proofs.«137975_g29910152249793_cont_9to1_356_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Reading back a whole-buffer store, and a whole-buffer load -/

theorem zeroOff0_S512x4096 : (![0, 0] : Fin S512x4096.rank → ℕ) = fun _ => 0 := by funext a; fin_cases a <;> rfl
theorem zeroOff0_S4096x1 : (![0, 0] : Fin S4096x1.rank → ℕ) = fun _ => 0 := by funext a; fin_cases a <;> rfl

/-- One store through the whole-shape rectangle at zero offsets, read back through the view, is its payload,
    whatever the buffer held before. -/
theorem read_writes_unit_zero0 {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

/-- A load through that rectangle off a whole buffer held at the raw contents of X reads X. -/
theorem readAt_unread_unit_zero0 {κ : Kind} {sp : Space} {S : Shape} {e : EltTy}
    {m : Memref sig κ sp S e} (hm : m.IsWhole) (X : S.Idx → Elt F e) {off : Fin S.rank → Nat} (h : off = fun _ => 0)
    (inb : ∀ a, off a + S.size a ≤ S.size a) :
    m.view.readAt (Elt F) (Rect.unit off S.size inb).toLoadRect (hm.unread X) = X := by
  rw [View.readAt_eq_ld, hm.read_unread, View.ld_unit_zero h]

/-! ## The body's three conditions, in closed form over the grid -/

/-- The first conditional's test: the row-block coordinate is zero. -/
abbrev condFirst0 (i : grid0.Coords) : Prop :=
  (Scalar.cmpi .ne (Scalar.extui (Scalar.cmpi .eq (BitVec.ofNat 32 (i 0).val) 0#32)) 0#32) = 1#1
/-- It holds at the first point only. -/
theorem hcondFirst0 : ∀ t : Fin cfg0.N, condFirst0 (grid0.coords t) ↔ t.val = 0 :=
  (by decide +kernel : ∀ t : Fin grid0.N, condFirst0 (grid0.coords t) ↔ t.val = 0)

/-- The second conditional's test: the row-block coordinate is positive. -/
abbrev condLater0 (i : grid0.Coords) : Prop :=
  (Scalar.cmpi .ne (Scalar.extui (Scalar.cmpi .sgt (BitVec.ofNat 32 (i 0).val) 0#32)) 0#32) = 1#1
/-- It holds at every point but the first. -/
theorem hcondLater0 : ∀ t : Fin cfg0.N, condLater0 (grid0.coords t) ↔ 0 < t.val :=
  (by decide +kernel : ∀ t : Fin grid0.N, condLater0 (grid0.coords t) ↔ 0 < t.val)

/-- The third conditional's test: the row-block coordinate is the last one. -/
abbrev condLast0 (i : grid0.Coords) : Prop := k0_cond3 i = 1#1
/-- It holds at the last point only. -/
theorem hcondLast0 : ∀ t : Fin cfg0.N, condLast0 (grid0.coords t) ↔ t.val = 7 :=
  (by decide +kernel : ∀ t : Fin grid0.N, condLast0 (grid0.coords t) ↔ t.val = 7)

/-! ## Where the windows are idle, and where the last one is not written back -/

/-- The input window is never idle. -/
theorem liveAt0_0 : ∀ t : Fin cfg0.N, cfg0.idle 0 (grid0.coords t) = false := by decide +kernel
/-- Nor is the first output window. -/
theorem liveAt0_1 : ∀ t : Fin cfg0.N, cfg0.idle 1 (grid0.coords t) = false := by decide +kernel
/-- The second output window is idle wherever the last conditional's test fails, -/
theorem idleAt0_2 : ∀ t : Fin cfg0.N, ¬condLast0 (grid0.coords t) → cfg0.idle 2 (grid0.coords t) = true := by decide +kernel
/-- is not written back there, -/
theorem noFlush0_2 : ∀ t : Fin cfg0.N, ¬condLast0 (grid0.coords t) → (cfg0.win 2).flush t = false := by decide +kernel
/-- and is live where the test holds. -/
theorem liveAt0_2 : ∀ t : Fin cfg0.N, condLast0 (grid0.coords t) → cfg0.idle 2 (grid0.coords t) = false := by decide +kernel

/-! ## The staging memrefs the body is called with -/

abbrev sm0_0 (t : Fin cfg0.N) : Memref sig .tc .vmem S512x4096 .i32 := win0_0.stage (cfg0.slots t 0)
abbrev hsm0_0 (t : Fin cfg0.N) : (sm0_0 t).IsWhole := hstage0_0 ((cfg0.slots t 0).cast nbuf0_0)
abbrev sm0_1 (t : Fin cfg0.N) : Memref sig .tc .vmem S512x4096 .bf16 := win0_1.stage (cfg0.slots t 1)
abbrev hsm0_1 (t : Fin cfg0.N) : (sm0_1 t).IsWhole := hstage0_1 ((cfg0.slots t 1).cast nbuf0_1)
abbrev sm0_2 (t : Fin cfg0.N) : Memref sig .tc .vmem S4096x1 .f32 := win0_2.stage (cfg0.slots t 2)
abbrev hsm0_2 (t : Fin cfg0.N) : (sm0_2 t).IsWhole := hstage0_2 ((cfg0.slots t 2).cast nbuf0_2)

/-! ## The body, once per control case

On whole memrefs: the adjacency block's at x0, the first output's at anything, the scratch column's at anything
(first point) or at xs (later points). Each case names what it leaves by the skeleton's payloads. Where the last
conditional's test fails the body never touches the second output's memref, so those runs do not mention it. -/

set_option maxHeartbeats 1000000 in
/-- First point: the block with its diagonal forced goes to the first output, its column sums to the scratch. -/
theorem runFirst0 (c : Dev nD) (i : grid0.Coords)
    (arg1 : Memref sig .tc .vmem S512x4096 .i32) (harg1 : arg1.IsWhole)
    (arg2 : Memref sig .tc .vmem S512x4096 .bf16) (harg2 : arg2.IsWhole)
    (arg3 : Memref sig .tc .vmem S4096x1 .f32) (harg3 : arg3.IsWhole)
    (arg4 : Memref sig .tc .vmem S4096x1 .f32) (harg4 : arg4.IsWhole)
    (hc1 : condFirst0 i) (hc2 : ¬condLater0 i) (hc3 : ¬condLast0 i)
    (x0 : Vec F S512x4096 .i32) (E : Set ℕ) (K : PUnit → sProp 𝕄) :
    iprop(owns (c : Thread nD τ) arg1 fullShare x0 ∗ (∃ d, owns (c : Thread nD τ) arg2 fullShare d) ∗ (∃ d, owns (c : Thread nD τ) arg4 fullShare d)
        ∗ (iprop(owns (c : Thread nD τ) arg1 fullShare x0 ∗ owns (c : Thread nD τ) arg2 fullShare (k0_pay1 i x0) ∗ owns (c : Thread nD τ) arg4 fullShare (k0_pay3 i x0)) -∗ K ⟨⟩))
      ⊢ wp frame (wpE (defs₀ (F := F)) Variants.none c none) E (cc0__prep_body i arg1 harg1 arg2 harg2 arg3 harg3 arg4 harg4) K := by
  simp only [cc0__prep_body_eq_skeleton]; unfold cc0__prep_body_skel
  unfold owns
  iintro ⟨⟨%f1, %hf1, H1⟩, ⟨%d2, %f2, -, H2⟩, ⟨%d4, %f4, -, H4⟩, Hk⟩
  obtain rfl := harg1.eq_unread hf1
  sl_exec (disch := first | exact hc1 | exact hc2 | exact hc3)
  sl_step
  iapply Hk
  isplitl [H1]
  · iexists _; isplitr; · ipureintro; exact harg1.read_unread _
    iexact H1
  isplitl [H2]
  · iexists _; isplitr
    swap; · iexact H2
    ipureintro
    rw [read_writes_unit_zero0 _ _ zeroOff0_S512x4096, readAt_unread_unit_zero0 harg1 x0 zeroOff0_S512x4096]
  · iexists _; isplitr
    swap; · iexact H4
    ipureintro
    rw [read_writes_unit_zero0 _ _ zeroOff0_S4096x1, readAt_unread_unit_zero0 harg1 x0 zeroOff0_S512x4096]

set_option maxHeartbeats 1000000 in
/-- A middle point: the first output as before; the block's column sums are added to the scratch. -/
theorem runMid0 (c : Dev nD) (i : grid0.Coords)
    (arg1 : Memref sig .tc .vmem S512x4096 .i32) (harg1 : arg1.IsWhole)
    (arg2 : Memref sig .tc .vmem S512x4096 .bf16) (harg2 : arg2.IsWhole)
    (arg3 : Memref sig .tc .vmem S4096x1 .f32) (harg3 : arg3.IsWhole)
    (arg4 : Memref sig .tc .vmem S4096x1 .f32) (harg4 : arg4.IsWhole)
    (hc1 : ¬condFirst0 i) (hc2 : condLater0 i) (hc3 : ¬condLast0 i)
    (x0 : Vec F S512x4096 .i32) (xs : Vec F S4096x1 .f32) (E : Set ℕ) (K : PUnit → sProp 𝕄) :
    iprop(owns (c : Thread nD τ) arg1 fullShare x0 ∗ (∃ d, owns (c : Thread nD τ) arg2 fullShare d) ∗ owns (c : Thread nD τ) arg4 fullShare xs
        ∗ (iprop(owns (c : Thread nD τ) arg1 fullShare x0 ∗ owns (c : Thread nD τ) arg2 fullShare (k0_pay1 i x0) ∗ owns (c : Thread nD τ) arg4 fullShare (k0_pay4 i x0 xs)) -∗ K ⟨⟩))
      ⊢ wp frame (wpE (defs₀ (F := F)) Variants.none c none) E (cc0__prep_body i arg1 harg1 arg2 harg2 arg3 harg3 arg4 harg4) K := by
  simp only [cc0__prep_body_eq_skeleton]; unfold cc0__prep_body_skel
  unfold owns
  iintro ⟨⟨%f1, %hf1, H1⟩, ⟨%d2, %f2, -, H2⟩, ⟨%f4, %hf4, H4⟩, Hk⟩
  obtain rfl := harg1.eq_unread hf1; obtain rfl := harg4.eq_unread hf4
  sl_exec (disch := first | exact hc1 | exact hc2 | exact hc3)
  sl_step
  iapply Hk
  isplitl [H1]
  · iexists _; isplitr; · ipureintro; exact harg1.read_unread _
    iexact H1
  isplitl [H2]
  · iexists _; isplitr
    swap; · iexact H2
    ipureintro
    rw [read_writes_unit_zero0 _ _ zeroOff0_S512x4096, readAt_unread_unit_zero0 harg1 x0 zeroOff0_S512x4096]
  · iexists _; isplitr
    swap; · iexact H4
    ipureintro
    rw [read_writes_unit_zero0 _ _ zeroOff0_S4096x1, readAt_unread_unit_zero0 harg1 x0 zeroOff0_S512x4096,
      readAt_unread_unit_zero0 harg4 xs zeroOff0_S4096x1]

set_option maxHeartbeats 1000000 in
/-- The last point: as a middle point, and the second output gets the inverse square roots of the sums just stored. -/
theorem runLast0 (c : Dev nD) (i : grid0.Coords)
    (arg1 : Memref sig .tc .vmem S512x4096 .i32) (harg1 : arg1.IsWhole)
    (arg2 : Memref sig .tc .vmem S512x4096 .bf16) (harg2 : arg2.IsWhole)
    (arg3 : Memref sig .tc .vmem S4096x1 .f32) (harg3 : arg3.IsWhole)
    (arg4 : Memref sig .tc .vmem S4096x1 .f32) (harg4 : arg4.IsWhole)
    (hc1 : ¬condFirst0 i) (hc2 : condLater0 i) (hc3 : condLast0 i)
    (x0 : Vec F S512x4096 .i32) (xs : Vec F S4096x1 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs
        ∗ (iprop(owns (c : Thread nD τ) arg1 fullShare x0 ∗ owns (c : Thread nD τ) arg2 fullShare (k0_pay1 i x0) ∗ owns (c : Thread nD τ) arg3 fullShare (k0_pay5 (k0_pay4 i x0 xs)) ∗ owns (c : Thread nD τ) arg4 fullShare (k0_pay4 i x0 xs)) -∗ K ⟨⟩))
      ⊢ wp frame (wpE (defs₀ (F := F)) Variants.none c none) E (cc0__prep_body i arg1 harg1 arg2 harg2 arg3 harg3 arg4 harg4) K := by
  simp only [cc0__prep_body_eq_skeleton]; unfold cc0__prep_body_skel
  unfold owns
  iintro ⟨⟨%f1, %hf1, H1⟩, ⟨%d2, %f2, -, H2⟩, ⟨%d3, %f3, -, H3⟩, ⟨%f4, %hf4, H4⟩, Hk⟩
  obtain rfl := harg1.eq_unread hf1; obtain rfl := harg4.eq_unread hf4
  sl_exec (disch := first | exact hc1 | exact hc2 | exact hc3)
  sl_step
  iapply Hk
  isplitl [H1]
  · iexists _; isplitr; · ipureintro; exact harg1.read_unread _
    iexact H1
  isplitl [H2]
  · iexists _; isplitr
    swap; · iexact H2
    ipureintro
    sl_unfold_run_names
    rw [read_writes_unit_zero0 _ _ zeroOff0_S512x4096, readAt_unread_unit_zero0 harg1 x0 zeroOff0_S512x4096]
  isplitl [H3]
  · iexists _; isplitr
    swap; · iexact H3
    ipureintro
    sl_unfold_run_names
    rw [read_writes_unit_zero0 _ _ zeroOff0_S4096x1]
    rw [View.readCov_unit_zero (S := S4096x1) arg4.view zeroOff0_S4096x1,
      readAt_unread_unit_zero0 harg1 x0 zeroOff0_S512x4096, readAt_unread_unit_zero0 harg4 xs zeroOff0_S4096x1]
  · iexists _; isplitr
    swap; · iexact H4
    ipureintro
    sl_unfold_run_names
    rw [read_writes_unit_zero0 _ _ zeroOff0_S4096x1, readAt_unread_unit_zero0 harg1 x0 zeroOff0_S512x4096,
      readAt_unread_unit_zero0 harg4 xs zeroOff0_S4096x1]

end Cert.KernelIdeal.Hand

end
-- ==== Proof.KernelIdeal.R0Body.lean ====
/-
  Region 0: the body meets the proof data at every grid point, and the invariant's two ends.
-/
import proofs.«137975_g29910152249793_cont_9to1_356_2_alg».proof.Proof.KernelIdeal.R0Data
import proofs.«137975_g29910152249793_cont_9to1_356_2_alg».proof.Proof.KernelIdeal.R0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

/-! ## The class's invariant, opened -/

/-- The class's invariant names every scoped buffer that is no staging buffer of this region at some contents, and
    the generator register at some state: the scratch column, owned as a memref at some contents, beside the others. -/
theorem PhiA0_open (c : Dev nD) :
    (Pipeline.ΦA spec0 c : sProp 𝕄)
      ⊢ iprop((∃ d, owns (c : Thread nD τ) scM0 fullShare d) ∗ other0 (F := F) c ∗ (∃ r, prngReg c r)) := by
  unfold Pipeline.ΦA other0; rw [scopedRest0_eq]; simp only [scM0, owns_whole]
  iintro ⟨⟨HS, Hoth⟩, Hg⟩
  isplitl [HS]; · iexact HS
  isplitl [Hoth]; · iexact Hoth
  iexact Hg

/-- And back. -/
theorem PhiA0_close (c : Dev nD) :
    iprop((∃ d, owns (c : Thread nD τ) scM0 fullShare d) ∗ other0 (F := F) c ∗ (∃ r, prngReg c r))
      ⊢ (Pipeline.ΦA spec0 c : sProp 𝕄) := by
  unfold Pipeline.ΦA other0; rw [scopedRest0_eq]; simp only [scM0, owns_whole]
  iintro ⟨HS, Hoth, Hg⟩
  isplitl [HS Hoth]
  · isplitl [HS]; · iexact HS
    iexact Hoth
  iexact Hg

/-- So the two are one proposition. -/
theorem PhiA0_eq (c : Dev nD) :
    (Pipeline.ΦA spec0 c : sProp 𝕄)
      = iprop((∃ d, owns (c : Thread nD τ) scM0 fullShare d) ∗ other0 (F := F) c ∗ (∃ r, prngReg c r)) :=
  BI.equiv_iff.mp ⟨PhiA0_open c, PhiA0_close c⟩

/-! ## The invariant and the carried sums, position by position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (degAcc0 V c n hn) ∗ other0 c ∗ (∃ r, prngReg c r)) := rfl

theorem PhiS0_pos (c : Dev nD) (n : ℕ) (h : n ≤ cfg0.N) (hz : n ≠ 0) :
    PhiS0 V c n h = iprop(owns (c : Thread nD τ) scM0 fullShare (degAcc0 V c (n - 1) (by omega)) ∗ other0 c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The sums after the first point: the first block's. -/
theorem degAcc0_first (c : Dev nD) (t : Fin cfg0.N) (hz : t.val = 0) :
    degAcc0 V c t.val t.isLt = k0_pay3 (grid0.coords t) (adjBlk0 V c t) := by
  obtain ⟨n, hn⟩ := t
  cases n with
  | zero => exact degAccZero0 V c hn
  | succ n => exact absurd hz (Nat.succ_ne_zero n)

/-- The sums after a later point: this block's added to those before. -/
theorem degAcc0_later (c : Dev nD) (t : Fin cfg0.N) (hz : t.val ≠ 0) :
    degAcc0 V c t.val t.isLt
      = k0_pay4 (grid0.coords t) (adjBlk0 V c t) (degAcc0 V c (t.val - 1) (Nat.lt_of_le_of_lt (Nat.sub_le _ _) t.isLt)) := by
  obtain ⟨n, hn⟩ := t
  cases n with
  | zero => exact absurd rfl hz
  | succ n => exact degAccSucc0 V c n hn

/-! ## What the body finds in the input's buffer -/

/-- The input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (sm0_0 t) fullShare ((dat0 V c).before 0 t d))
    ∗ (∃ d, owns (c : Thread nD τ) (sm0_1 t) fullShare ((dat0 V c).before 1 t d))
    ∗ (∃ d, owns (c : Thread nD τ) (sm0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input's memref holds its block; the closed forms of the three tests say which control
    case the point is in; the invariant hands the body the scratch column (at anything at the first point, at the sums
    so far afterwards) and keeps the other scoped buffers and the generator register; that case's run applies, and what
    it leaves is what the proof data names: the block with its diagonal forced in the first output, the new sums in the
    scratch, and at the last point their inverse square roots in the second output, which elsewhere goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (sm0_0 t) fullShare ((dat0 V c).after 0 t) from by
    unfold Dat.leavesExact; rw [liveAt0_0 t], after0_0]
  rw [show (dat0 V c).leavesExact 1 t = owns (c : Thread nD τ) (sm0_1 t) fullShare ((dat0 V c).after 1 t) from by
    unfold Dat.leavesExact; rw [liveAt0_1 t], after0_1]
  have hN : t.val < 8 := lt_of_lt_of_eq t.isLt (show cfg0.N = 8 from N_0)
  by_cases hz : t.val = 0
  · have hc1 : condFirst0 (grid0.coords t) := (hcondFirst0 t).mpr hz
    have hc2 : ¬condLater0 (grid0.coords t) := fun h => by have := (hcondLater0 t).mp h; omega
    have hc3 : ¬condLast0 (grid0.coords t) := fun h => by have := (hcondLast0 t).mp h; omega
    rw [Dat.leavesExact_idle (dat0 V c) 2 t (idleAt0_2 t hc3) (noFlush0_2 t hc3)]
    rw [degAcc0_first V c t hz]
    rw [PhiS0_castSucc V c t, PhiS0_zero V c _ _ hz, PhiA0_eq]
    iintro ⟨⟨⟨%ds, HS⟩, Hoth, Hg⟩, Ho, ⟨%d0, H0⟩, ⟨%d1, H1⟩, H2⟩
    iapply (runFirst0 c (grid0.coords t) (sm0_0 t) (hsm0_0 t) (sm0_1 t) (hsm0_1 t) (sm0_2 t) (hsm0_2 t) scM0 (Memref.isWhole_whole _) hc1 hc2 hc3 (iblk0 V c 0 t) Set.univ _)
    isplitl [H0]; · iexact H0
    isplitl [H1]; · iexists _; iexact H1
    isplitl [HS]; · iexists _; iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · have hc1 : ¬condFirst0 (grid0.coords t) := fun h => hz ((hcondFirst0 t).mp h)
    have hc2 : condLater0 (grid0.coords t) := (hcondLater0 t).mpr (Nat.pos_of_ne_zero hz)
    rw [degAcc0_later V c t hz]
    rw [PhiS0_castSucc V c t, PhiS0_pos V c _ _ hz]
    by_cases h7 : t.val = 7
    · have hc3 : condLast0 (grid0.coords t) := (hcondLast0 t).mpr h7
      rw [show (dat0 V c).leavesExact 2 t = owns (c : Thread nD τ) (sm0_2 t) fullShare ((dat0 V c).after 2 t) from by
        unfold Dat.leavesExact; rw [liveAt0_2 t hc3], after0_2]
      rw [degAcc0_later V c t hz]
      iintro ⟨⟨HS, Hoth, Hg⟩, Ho, ⟨%d0, H0⟩, ⟨%d1, H1⟩, ⟨%d2, H2⟩⟩
      iapply (runLast0 c (grid0.coords t) (sm0_0 t) (hsm0_0 t) (sm0_1 t) (hsm0_1 t) (sm0_2 t) (hsm0_2 t) scM0 (Memref.isWhole_whole _) hc1 hc2 hc3 (iblk0 V c 0 t) (degAcc0 V c (t.val - 1) (Nat.lt_of_le_of_lt (Nat.sub_le _ _) t.isLt)) Set.univ _)
      isplitl [H0]; · iexact H0
      isplitl [H1]; · iexists _; iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · have hc3 : ¬condLast0 (grid0.coords t) := fun h => h7 ((hcondLast0 t).mp h)
      rw [Dat.leavesExact_idle (dat0 V c) 2 t (idleAt0_2 t hc3) (noFlush0_2 t hc3)]
      iintro ⟨⟨HS, Hoth, Hg⟩, Ho, ⟨%d0, H0⟩, ⟨%d1, H1⟩, H2⟩
      iapply (runMid0 c (grid0.coords t) (sm0_0 t) (hsm0_0 t) (sm0_1 t) (hsm0_1 t) (sm0_2 t) (hsm0_2 t) scM0 (Memref.isWhole_whole _) hc1 hc2 hc3 (iblk0 V c 0 t) (degAcc0 V c (t.val - 1) (Nat.lt_of_le_of_lt (Nat.sub_le _ _) t.isLt)) Set.univ _)
      isplitl [H0]; · iexact H0
      isplitl [H1]; · iexists _; iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have hN : cfg0.N = 8 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨HS, Hoth, Hg⟩
  isplitl [HS]; · iexists _; iexact HS
  isplitl [Hoth]; · iexact Hoth
  iexact Hg

end Cert.KernelIdeal.Hand

end
-- ==== Proof.KernelIdeal.R1Data.lean ====
/-
  Region 1 (the first propagation pass) as proof data for the pipeline library.

  The pass holds the features h, the weights w, the bias row b and the column of inverse square-root degrees d whole
  in its input windows 0 to 3 (fetched once), and at grid point t row block t of the normalised adjacency's float copy
  in window 4. At the first point it stores g = d · (h w), row-scaled, into a scratch; at every point it takes the 512
  rows of g that block t names and adds (block t)ᵀ · (those rows) into a second scratch, stored at the first point and
  added to afterwards; at the last point it stores max(acc · d + b, 0) into output window 5, which is written back
  there only. Both scratch buffers are carried from point to point, so the invariant names their contents.
-/
import proofs.«137975_g29910152249793_cont_9to1_356_2_alg».proof.Proof.Gen.KernelIdeal.Launch
import proofs.«137975_g29910152249793_cont_9to1_356_2_alg».proof.Proof.Gen.KernelIdeal.Skeleton
import proofs.«137975_g29910152249793_cont_9to1_356_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features, the weights, the bias row and the degree column, as window blocks (each the whole array), and row
    block t of the adjacency's float copy. -/
abbrev hBlk1 (c : Dev nD) (t : Fin cfg1.N) : Vec F S4096x128 .f32 := iblk1 V c 0 t
abbrev wBlk1 (c : Dev nD) (t : Fin cfg1.N) : Vec F S128x128 .f32 := iblk1 V c 1 t
abbrev bBlk1 (c : Dev nD) (t : Fin cfg1.N) : Vec F S1x128 .f32 := iblk1 V c 2 t
abbrev dBlk1 (c : Dev nD) (t : Fin cfg1.N) : Vec F S4096x1 .f32 := iblk1 V c 3 t
abbrev aBlk1 (c : Dev nD) (t : Fin cfg1.N) : Vec F S512x4096 .bf16 := iblk1 V c 4 t

/-! ## The carried scratch buffers -/

/-- The first point of the grid. -/
abbrev first1 : Fin cfg1.N := ⟨0, by rw [show cfg1.N = 8 from N_1]; decide⟩

/-- The row-scaled product g = d · (h w) the first point stores. -/
def gVal1 (c : Dev nD) : Vec F S4096x128 .bf16 :=
  k1_pay1 (hBlk1 V c first1) (wBlk1 V c first1) (dBlk1 V c first1)

/-- The 512 rows of g that the point with coordinates i reads. -/
def gRows1 (i : grid1.Coords) (g : Vec F S4096x128 .bf16) : Vec F S512x128 .bf16 :=
  View.ld g (Rect.unit (s := S4096x128) (k1_off1 i) S512x128.size (k1_off1_inb i))

/-- The accumulator after the body at position n: the first block's product, then each later block's added. -/
def accAt1 (c : Dev nD) : (n : ℕ) → n < cfg1.N → Vec F S4096x128 .f32
  | 0, hn => k1_pay3 (gRows1 (grid1.coords ⟨0, hn⟩) (gVal1 V c)) (aBlk1 V c ⟨0, hn⟩)
  | n + 1, hn => k1_pay4 (gRows1 (grid1.coords ⟨n + 1, hn⟩) (gVal1 V c)) (aBlk1 V c ⟨n + 1, hn⟩) (accAt1 c n (Nat.lt_of_succ_lt hn))

theorem accAtZero1 (c : Dev nD) (hn : 0 < cfg1.N) :
    accAt1 V c 0 hn = k1_pay3 (gRows1 (grid1.coords ⟨0, hn⟩) (gVal1 V c)) (aBlk1 V c ⟨0, hn⟩) := rfl
theorem accAtSucc1 (c : Dev nD) (n : ℕ) (hn : n + 1 < cfg1.N) :
    accAt1 V c (n + 1) hn = k1_pay4 (gRows1 (grid1.coords ⟨n + 1, hn⟩) (gVal1 V c)) (aBlk1 V c ⟨n + 1, hn⟩) (accAt1 V c n (Nat.lt_of_succ_lt hn)) := rfl

/-- What the last point stores: max(acc · d + b, 0). -/
def outAt1 (c : Dev nD) (t : Fin cfg1.N) : Vec F S4096x128 .f32 :=
  k1_pay5 (accAt1 V c t.val t.isLt) (dBlk1 V c t) (bBlk1 V c t)

/-! ## The invariant -/

/-- The scratch operands: whole scoped buffers of the kernel's own. -/
abbrev scG1 : Memref sig .tc .vmem S4096x128 .bf16 := Memref.whole cc1_scratch0
abbrev scAcc1 : Memref sig .tc .vmem S4096x128 .f32 := Memref.whole cc1_scratch1

/-- The core's scoped buffers other than the two scratch buffers and this region's staging buffers, each whole at some
    contents: what the body never touches. -/
def other1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc2_scratch1), ((c : Thread nD τ).loc cc2_scratch1) ↦{fullShare} f))

/-- The region's invariant before position n: before the first point the class's (every scratch buffer at anything);
    afterwards g and the accumulator so far, the rest at anything, the generator register at some state. -/
def PhiS1 (c : Dev nD) : (n : ℕ) → n ≤ cfg1.N → sProp 𝕄
  | 0, _ => Pipeline.ΦA spec1 c
  | n + 1, hn => iprop(owns (c : Thread nD τ) scG1 fullShare (gVal1 V c) ∗ owns (c : Thread nD τ) scAcc1 fullShare (accAt1 V c n hn)
      ∗ other1 c ∗ (∃ r, prngReg c r))

/-! ## The proof data -/

/-- Pipeline 1's proof data on core c: the arrays as the region finds them; after the body at point t each input's
    buffer at its block, the output's at max(acc · d + b, 0) of the accumulator so far (consulted at the last point only:
    elsewhere the window is idle and not written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

end Cert.KernelIdeal.Hand

end
-- ==== Proof.KernelIdeal.R1Run.lean ====
/-
  Region 1: the kernel body run once per control case.

  The body branches on the grid coordinate only: at the first point it stores g and stores the accumulator, at every
  later point it adds to the accumulator, at the last point it also stores the output. Each case's run names what the
  case leaves in every buffer it touches by the skeleton's payloads of what the buffers held.
-/
import proofs.«137975_g29910152249793_cont_9to1_356_2_alg».proof.Proof.Gen.KernelIdeal.Launch
import proofs.«137975_g29910152249793_cont_9to1_356_2_alg».proof.Proof.Gen.KernelIdeal.Skeleton
import proofs.«137975_g29910152249793_cont_9to1_356_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- "This is the first point": the condition of the body's first two conditionals, from the grid coordinate. -/
abbrev condA1 (i : grid1.Coords) : Prop :=
  (Scalar.cmpi .ne (Scalar.extui (Scalar.cmpi .eq (BitVec.ofNat 32 (i 0).val) 0#32)) 0#32) = 1#1
/-- "This is a later point": the condition of the third. -/
abbrev condC1 (i : grid1.Coords) : Prop :=
  (Scalar.cmpi .ne (Scalar.extui (Scalar.cmpi .sgt (BitVec.ofNat 32 (i 0).val) 0#32)) 0#32) = 1#1
/-- "This is the last point": the condition of the fourth. -/
abbrev condD1 (i : grid1.Coords) : Prop := k1_cond4 i = 1#1

/-- The rows of g a point reads: the rectangle of 512 rows at the point's offset. -/
abbrev gRect1 (i : grid1.Coords) : Rect S4096x128 :=
  Rect.unit (s := S4096x128) (k1_off1 i) S512x128.size (k1_off1_inb i)

/-- The zero offsets of a whole-buffer access, however spelt. -/
theorem r1_zeroOff : (![0, 0] : Fin 2 → Nat) = fun _ => 0 := by
  funext a; fin_cases a <;> rfl

/-! ## Whole-buffer loads and stores read back -/

section Whole

variable {S : Shape} {e : EltTy}

/-- The one piece of a whole-buffer store covers the buffer. -/
theorem r1_cover_whole {off : Fin S.rank → Nat} (h : off = fun _ => 0) (inb : ∀ a, off a + S.size a ≤ S.size a)
    (w : S.Idx → Elt F e) :
    ∀ y : S.Idx, ∃ p ∈ [(⟨Rect.unit off S.size inb, w⟩ : View.Piece (Elt F) S e)], y ∈ p.1.set :=
  fun y => ⟨_, List.mem_singleton_self _, View.mem_set_unit_zero h inb y⟩

/-- A buffer stored whole reads as the payload, whatever it held. -/
theorem r1_read_store_whole {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (r1_cover_whole h inb w), View.canon_unit_zero h]

/-- A whole-buffer load of a whole memref reads its contents. -/
theorem r1_readAt_whole (m : Memref sig .tc .vmem S e) (hm : m.IsWhole) (X : S.Idx → Elt F e) {off : Fin S.rank → Nat}
    (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

end Whole

/-! ## The body run once per control case

Each run is stated over arbitrary whole memrefs: the buffers the case touches at named contents before, and at the
skeleton's payloads of those contents after; a buffer the case does not touch is not mentioned (it stays in the frame). -/

set_option maxHeartbeats 1000000 in
/-- The first point: g = d · (h w) is stored into the first scratch, its rows the point names are read back, and the
    accumulator is stored (not added to). -/
theorem runFirst1 (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : condA1 i) (hC : ¬condC1 i) (hD : ¬condD1 i)
    (x1 : Vec F S4096x128 .f32) (x2 : Vec F S128x128 .f32) (x4 : Vec F S4096x1 .f32) (x5 : Vec F S512x4096 .bf16)
    (E : Set ℕ) (K : PUnit → sProp 𝕄) :
    iprop(owns (c : Thread nD τ) arg1 fullShare x1 ∗ owns (c : Thread nD τ) arg2 fullShare x2 ∗ owns (c : Thread nD τ) arg4 fullShare x4
        ∗ owns (c : Thread nD τ) arg5 fullShare x5 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg4 fullShare x4
            ∗ owns (c : Thread nD τ) arg5 fullShare x5
            ∗ owns (c : Thread nD τ) arg7 fullShare (k1_pay1 x1 x2 x4)
            ∗ owns (c : Thread nD τ) arg8 fullShare (k1_pay3 (View.ld (k1_pay1 x1 x2 x4) (gRect1 i)) x5)) -∗ K ⟨⟩))
      ⊢ wp frame (wpE (defs₀ (F := F)) Variants.none c none) E (cc1__prop_body i arg1 harg1 arg2 harg2 arg3 harg3 arg4 harg4 arg5 harg5 arg6 harg6 arg7 harg7 arg8 harg8) K := by
  simp only [cc1__prop_body_eq_skeleton]; unfold cc1__prop_body_skel
  unfold owns
  iintro ⟨⟨%f1, %hf1, H1⟩, ⟨%f2, %hf2, H2⟩, ⟨%f4, %hf4, H4⟩, ⟨%f5, %hf5, H5⟩, ⟨%d7, %f7, -, H7⟩, ⟨%d8, %f8, -, H8⟩, Hk⟩
  obtain rfl := harg1.eq_unread hf1; obtain rfl := harg2.eq_unread hf2; obtain rfl := harg4.eq_unread hf4; obtain rfl := harg5.eq_unread hf5
  sl_exec (disch := first | exact hA | exact hC | exact hD)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H7]
  · iexists _; isplitr
    swap; · iexact H7
    ipureintro
    sl_unfold_run_names
    rw [r1_read_store_whole _ _ r1_zeroOff, r1_readAt_whole arg1 harg1 x1 r1_zeroOff, r1_readAt_whole arg2 harg2 x2 r1_zeroOff,
      r1_readAt_whole arg4 harg4 x4 r1_zeroOff]
  · iexists _; isplitr
    swap; · iexact H8
    ipureintro
    sl_unfold_run_names
    rw [r1_read_store_whole _ _ r1_zeroOff, View.readAt_eq_ld arg7.view, r1_read_store_whole _ _ r1_zeroOff,
      r1_readAt_whole arg1 harg1 x1 r1_zeroOff, r1_readAt_whole arg2 harg2 x2 r1_zeroOff, r1_readAt_whole arg4 harg4 x4 r1_zeroOff,
      r1_readAt_whole arg5 harg5 x5 r1_zeroOff]

set_option maxHeartbeats 1000000 in
/-- A middle point: the rows of g the point names are read, and their product with the adjacency block is added to the
    accumulator. -/
theorem runMid1 (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : ¬condA1 i) (hC : condC1 i) (hD : ¬condD1 i)
    (x5 : Vec F S512x4096 .bf16) (g : Vec F S4096x128 .bf16) (a : Vec F S4096x128 .f32)
    (E : Set ℕ) (K : PUnit → sProp 𝕄) :
    iprop(owns (c : Thread nD τ) arg5 fullShare x5 ∗ owns (c : Thread nD τ) arg7 fullShare g ∗ owns (c : Thread nD τ) arg8 fullShare a
        ∗ (iprop(owns (c : Thread nD τ) arg5 fullShare x5 ∗ owns (c : Thread nD τ) arg7 fullShare g
            ∗ owns (c : Thread nD τ) arg8 fullShare (k1_pay4 (View.ld g (gRect1 i)) x5 a)) -∗ K ⟨⟩))
      ⊢ wp frame (wpE (defs₀ (F := F)) Variants.none c none) E (cc1__prop_body i arg1 harg1 arg2 harg2 arg3 harg3 arg4 harg4 arg5 harg5 arg6 harg6 arg7 harg7 arg8 harg8) K := by
  simp only [cc1__prop_body_eq_skeleton]; unfold cc1__prop_body_skel
  unfold owns
  iintro ⟨⟨%f5, %hf5, H5⟩, ⟨%f7, %hf7, H7⟩, ⟨%f8, %hf8, H8⟩, Hk⟩
  obtain rfl := harg5.eq_unread hf5; obtain rfl := harg7.eq_unread hf7; obtain rfl := harg8.eq_unread hf8
  sl_exec (disch := first | exact hA | exact hC | exact hD)
  sl_step
  iapply Hk
  isplitl [H5]
  · iexists _; isplitr; · ipureintro; exact harg5.read_unread _
    iexact H5
  isplitl [H7]
  · iexists _; isplitr; · ipureintro; exact harg7.read_unread _
    iexact H7
  · iexists _; isplitr
    swap; · iexact H8
    ipureintro
    sl_unfold_run_names
    rw [r1_read_store_whole _ _ r1_zeroOff, View.readAt_eq_ld arg7.view, harg7.read_unread,
      r1_readAt_whole arg5 harg5 x5 r1_zeroOff, r1_readAt_whole arg8 harg8 a r1_zeroOff]

set_option maxHeartbeats 1000000 in
/-- The last point: as a middle point, and then max(acc · d + b, 0) of the accumulator just updated is stored into the
    output's buffer. -/
theorem runLast1 (c : Dev nD) (i : grid1.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : ¬condA1 i) (hC : condC1 i) (hD : condD1 i)
    (x3 : Vec F S1x128 .f32) (x4 : Vec F S4096x1 .f32) (x5 : Vec F S512x4096 .bf16) (g : Vec F S4096x128 .bf16) (a : Vec F S4096x128 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d)
        ∗ owns (c : Thread nD τ) arg7 fullShare g ∗ owns (c : Thread nD τ) arg8 fullShare a
        ∗ (iprop(owns (c : Thread nD τ) arg3 fullShare x3 ∗ owns (c : Thread nD τ) arg4 fullShare x4 ∗ owns (c : Thread nD τ) arg5 fullShare x5
            ∗ owns (c : Thread nD τ) arg6 fullShare (k1_pay5 (k1_pay4 (View.ld g (gRect1 i)) x5 a) x4 x3)
            ∗ owns (c : Thread nD τ) arg7 fullShare g
            ∗ owns (c : Thread nD τ) arg8 fullShare (k1_pay4 (View.ld g (gRect1 i)) x5 a)) -∗ K ⟨⟩))
      ⊢ wp frame (wpE (defs₀ (F := F)) Variants.none c none) E (cc1__prop_body i arg1 harg1 arg2 harg2 arg3 harg3 arg4 harg4 arg5 harg5 arg6 harg6 arg7 harg7 arg8 harg8) K := by
  simp only [cc1__prop_body_eq_skeleton]; unfold cc1__prop_body_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf3; obtain rfl := harg4.eq_unread hf4; obtain rfl := harg5.eq_unread hf5
  obtain rfl := harg7.eq_unread hf7; obtain rfl := harg8.eq_unread hf8
  sl_exec (disch := first | exact hA | exact hC | exact hD)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [r1_read_store_whole _ _ r1_zeroOff, View.readCov_unit_zero _ r1_zeroOff, View.readAt_eq_ld arg7.view, harg7.read_unread,
      r1_readAt_whole arg5 harg5 x5 r1_zeroOff, r1_readAt_whole arg8 harg8 a r1_zeroOff,
      r1_readAt_whole arg4 harg4 x4 r1_zeroOff, r1_readAt_whole arg3 harg3 x3 r1_zeroOff]
  isplitl [H7]
  · iexists _; isplitr; · ipureintro; exact harg7.read_unread _
    iexact H7
  · iexists _; isplitr
    swap; · iexact H8
    ipureintro
    sl_unfold_run_names
    rw [r1_read_store_whole _ _ r1_zeroOff, View.readAt_eq_ld arg7.view, harg7.read_unread,
      r1_readAt_whole arg5 harg5 x5 r1_zeroOff, r1_readAt_whole arg8 harg8 a r1_zeroOff]

end Cert.KernelIdeal.Hand

end
-- ==== Proof.KernelIdeal.R1Phi.lean ====
/-
  Region 1: the class invariant opened into the region's two scratch buffers, the other scoped buffers and the
  generator register, and closed again. The core's scoped buffers are a printed list; the region's two scratch buffers
  are entries 7 and 8 of it, and the rest, in the list's order, is the data's `other1`.
-/
import proofs.«137975_g29910152249793_cont_9to1_356_2_alg».proof.Proof.KernelIdeal.R1Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace R1B

/-! ## The class invariant opened -/

/-- The class's invariant gives the two scratch buffers, each owned whole at some contents, the other scoped buffers,
    and the generator register at some state: the printed list of the core's scoped buffers regrouped; -/
theorem PhiA1_open (c : Dev nD) :
    (Pipeline.ΦA spec1 c : sProp 𝕄) ⊢ iprop((∃ d, owns (c : Thread nD τ) scG1 fullShare d) ∗ (∃ d, owns (c : Thread nD τ) scAcc1 fullShare d)
          ∗ other1 (F := F) c ∗ (∃ r, prngReg c r)) := by
  unfold Pipeline.ΦA other1; rw [scopedRest1_eq]; simp only [owns_whole]
  iintro ⟨⟨O0, O1, O2, O3, O4, O5, HG, HA, O6, O7, O8, O9, O10, O11, O12, O13, O14⟩, Hg⟩
  isplitl [HG]; · iexact HG
  isplitl [HA]; · iexact HA
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  iexact O14

/-- and is given back by them. -/
theorem PhiA1_close (c : Dev nD) :
    iprop((∃ d, owns (c : Thread nD τ) scG1 fullShare d) ∗ (∃ d, owns (c : Thread nD τ) scAcc1 fullShare d)
          ∗ other1 (F := F) c ∗ (∃ r, prngReg c r)) ⊢ (Pipeline.ΦA spec1 c : sProp 𝕄) := by
  unfold Pipeline.ΦA other1; rw [scopedRest1_eq]; simp only [owns_whole]
  iintro ⟨HG, HA, ⟨O0, O1, O2, O3, O4, O5, O6, O7, O8, O9, O10, O11, O12, O13, O14⟩, Hg⟩
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [HG]; · iexact HG
  isplitl [HA]; · iexact HA
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  iexact O14

/-- So the two are one assertion. -/
theorem PhiA1_eq (c : Dev nD) :
    (Pipeline.ΦA spec1 c : sProp 𝕄) = iprop((∃ d, owns (c : Thread nD τ) scG1 fullShare d) ∗ (∃ d, owns (c : Thread nD τ) scAcc1 fullShare d)
          ∗ other1 (F := F) c ∗ (∃ r, prngReg c r)) :=
  Entails.antisymm (PhiA1_open c) (PhiA1_close c)

end R1B

end Cert.KernelIdeal.Hand

end
-- ==== Proof.KernelIdeal.R1Body.lean ====
/-
  Region 1: the body meets the proof data at every grid point, and the invariant's two ends.

  The body's conditions are given closed forms over the grid; every input's buffer holds its block at every point; and
  at each point the run of its control case turns what the invariant (the class's, opened into the two scratch buffers,
  the other scoped buffers and the generator register) and the windows hold before into what the data say they hold
  after.
-/
import proofs.«137975_g29910152249793_cont_9to1_356_2_alg».proof.Proof.KernelIdeal.R1Data
import proofs.«137975_g29910152249793_cont_9to1_356_2_alg».proof.Proof.KernelIdeal.R1Run
import proofs.«137975_g29910152249793_cont_9to1_356_2_alg».proof.Proof.KernelIdeal.R1Phi

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

namespace R1B

/-! ## The conditions in closed form, decided over the grid -/

theorem hcondA1 : ∀ t : Fin cfg1.N, condA1 (grid1.coords t) ↔ t.val = 0 :=
  (by decide +kernel : ∀ t : Fin grid1.N, condA1 (grid1.coords t) ↔ t.val = 0)
theorem hcondC1 : ∀ t : Fin cfg1.N, condC1 (grid1.coords t) ↔ 0 < t.val :=
  (by decide +kernel : ∀ t : Fin grid1.N, condC1 (grid1.coords t) ↔ 0 < t.val)
theorem hcondD1 : ∀ t : Fin cfg1.N, condD1 (grid1.coords t) ↔ t.val = 7 :=
  (by decide +kernel : ∀ t : Fin grid1.N, condD1 (grid1.coords t) ↔ t.val = 7)

/-! ## Where the output window is idle -/

/-- Off the last point the output window is idle: the body stores nothing into it, -/
theorem idleAt1_5 : ∀ t : Fin cfg1.N, ¬condD1 (grid1.coords t) → cfg1.idle 5 (grid1.coords t) = true := by decide +kernel
/-- and the pipeline does not write its block back. -/
theorem noFlush1_5 : ∀ t : Fin cfg1.N, ¬condD1 (grid1.coords t) → (cfg1.win 5).flush t = false := by decide +kernel
/-- At the last point it is live. -/
theorem liveAt1_5 : ∀ t : Fin cfg1.N, condD1 (grid1.coords t) → cfg1.idle 5 (grid1.coords t) = false := by decide +kernel

/-! ## The staging memrefs at a point, as the pipeline passes them -/

abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x128 .f32 := win1_5.stage (cfg1.slots t 5)
abbrev hs1_5 (t : Fin cfg1.N) : (ms1_5 t).IsWhole := hstage1_5 ((cfg1.slots t 5).cast nbuf1_5)

/-! ## What the body finds and leaves in the inputs' buffers -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem leaves1_0 (c : Dev nD) (t : Fin cfg1.N) :
    (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (ms1_4 t) fullShare (iblk1 V c 4 t) := by
  unfold Dat.leavesExact; rw [show cfg1.idle 4 (cfg1.grid.coords t) = false from rfl, after1_4]

/-! ## The carried values at a point -/

/-- g in terms of the blocks at the first point, wherever that point is named. -/
theorem gVal1_at (c : Dev nD) (t : Fin cfg1.N) (h0 : t.val = 0) :
    gVal1 V c = k1_pay1 (hBlk1 V c t) (wBlk1 V c t) (dBlk1 V c t) := by
  obtain ⟨n, hn⟩ := t; obtain rfl : n = 0 := h0; rfl

/-- The accumulator after the first point. -/
theorem accAt1_first (c : Dev nD) (t : Fin cfg1.N) (h0 : t.val = 0) :
    accAt1 V c t.val t.isLt = k1_pay3 (View.ld (gVal1 V c) (gRect1 (grid1.coords t))) (aBlk1 V c t) := by
  obtain ⟨n, hn⟩ := t; obtain rfl : n = 0 := h0; rfl

/-- The accumulator after a later point: the block's product added to what the point before left. -/
theorem accAt1_pos (c : Dev nD) (t : Fin cfg1.N) (h0 : t.val ≠ 0) :
    accAt1 V c t.val t.isLt = k1_pay4 (View.ld (gVal1 V c) (gRect1 (grid1.coords t))) (aBlk1 V c t)
      (accAt1 V c (t.val - 1) (Nat.lt_of_le_of_lt (Nat.sub_le _ _) t.isLt)) := by
  obtain ⟨n, hn⟩ := t
  cases n with
  | zero => exact absurd rfl h0
  | succ n => rfl

/-! ## The invariant at a point -/

theorem PhiS1_castSucc (c : Dev nD) (t : Fin cfg1.N) :
    (dat1 V c).Φ t.castSucc = PhiS1 V c t.val (Nat.le_of_lt t.isLt) := by
  dsimp only [dat1]; simp only [Fin.coe_castSucc]

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scG1 fullShare (gVal1 V c) ∗ owns (c : Thread nD τ) scAcc1 fullShare (accAt1 V c n hn)
      ∗ other1 c ∗ (∃ r, prngReg c r)) := rfl

theorem PhiS1_pos (c : Dev nD) (n : ℕ) (h : n ≤ cfg1.N) (hz : n ≠ 0) :
    PhiS1 V c n h = iprop(owns (c : Thread nD τ) scG1 fullShare (gVal1 V c)
      ∗ owns (c : Thread nD τ) scAcc1 fullShare (accAt1 V c (n - 1) (by omega))
      ∗ other1 c ∗ (∃ r, prngReg c r)) := by
  cases n with
  | zero => exact absurd rfl hz
  | succ n => rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the closed forms say which control case the point is
    in, and that case's run applies: at the first point the invariant hands the two scratch buffers at anything and
    takes them back at g and the first product; later it hands them at g and the accumulator so far and takes the
    accumulator back with the point's product added; the output's buffer is handed back untouched except at the last
    point, where it is left at max(acc · d + b, 0). The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 8 := lt_of_lt_of_eq t.isLt (show cfg1.N = 8 from N_1)
  by_cases h0 : t.val = 0
  · have hA : condA1 (grid1.coords t) := (hcondA1 t).mpr h0
    have hC : ¬condC1 (grid1.coords t) := fun h => by have := (hcondC1 t).mp h; omega
    have hD : ¬condD1 (grid1.coords t) := fun h => by have := (hcondD1 t).mp h; omega
    rw [Dat.leavesExact_idle (dat1 V c) 5 t (idleAt1_5 t hD) (noFlush1_5 t hD)]
    rw [PhiS1_castSucc, PhiS1_zero V c _ _ h0, PhiA1_eq]
    rw [accAt1_first V c t h0, gVal1_at V c t h0]
    iintro ⟨⟨⟨%dG, HG⟩, ⟨%dA, HA⟩, Hoth, Hg⟩, Ho, ⟨%d0, H0⟩, ⟨%d1, H1⟩, ⟨%d2, H2⟩, ⟨%d3, H3⟩, ⟨%d4, H4⟩, H5⟩
    iapply (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) scG1 (Memref.isWhole_whole _) scAcc1 (Memref.isWhole_whole _) hA hC hD (hBlk1 V c t) (wBlk1 V c t) (dBlk1 V c t) (aBlk1 V c t) Set.univ _)
    isplitl [H0]; · iexact H0
    isplitl [H1]; · iexact H1
    isplitl [H3]; · iexact H3
    isplitl [H4]; · iexact H4
    isplitl [HG]; · iexists _; iexact HG
    isplitl [HA]; · iexists _; iexact HA
    iintro ⟨H0, H1, H3, H4, HG, HA⟩
    isplitl [HG HA Hoth Hg]
    · isplitl [HG]; · iexact HG
      isplitl [HA]; · iexact HA
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hA : ¬condA1 (grid1.coords t) := fun h => h0 ((hcondA1 t).mp h)
    have hC : condC1 (grid1.coords t) := (hcondC1 t).mpr (Nat.pos_of_ne_zero h0)
    by_cases h7 : t.val = 7
    · have hD : condD1 (grid1.coords t) := (hcondD1 t).mpr h7
      rw [show (dat1 V c).leavesExact 5 t = owns (c : Thread nD τ) (ms1_5 t) fullShare (outAt1 V c t) from by
        unfold Dat.leavesExact; rw [liveAt1_5 t hD, after1_5]]
      unfold outAt1
      rw [PhiS1_castSucc, PhiS1_pos V c _ _ h0, accAt1_pos V c t h0]
      iintro ⟨⟨HG, HA, Hoth, Hg⟩, Ho, ⟨%d0, H0⟩, ⟨%d1, H1⟩, ⟨%d2, H2⟩, ⟨%d3, H3⟩, ⟨%d4, H4⟩, ⟨%d5, H5⟩⟩
      iapply (runLast1 c (grid1.coords t) (ms1_0 t) (hs1_0 t) (ms1_1 t) (hs1_1 t) (ms1_2 t) (hs1_2 t) (ms1_3 t) (hs1_3 t) (ms1_4 t) (hs1_4 t) (ms1_5 t) (hs1_5 t) scG1 (Memref.isWhole_whole _) scAcc1 (Memref.isWhole_whole _) hA hC hD (bBlk1 V c t) (dBlk1 V c t) (aBlk1 V c t) (gVal1 V c) (accAt1 V c (t.val - 1) (Nat.lt_of_le_of_lt (Nat.sub_le _ _) t.isLt)) Set.univ _)
      isplitl [H2]; · iexact H2
      isplitl [H3]; · iexact H3
      isplitl [H4]; · iexact H4
      isplitl [H5]; · iexists _; iexact H5
      isplitl [HG]; · iexact HG
      isplitl [HA]; · iexact HA
      iintro ⟨H2, H3, H4, H5, HG, HA⟩
      isplitl [HG HA Hoth Hg]
      · isplitl [HG]; · iexact HG
        isplitl [HA]; · iexact HA
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · have hD : ¬condD1 (grid1.coords t) := fun h => h7 ((hcondD1 t).mp h)
      rw [Dat.leavesExact_idle (dat1 V c) 5 t (idleAt1_5 t hD) (noFlush1_5 t hD)]
      rw [PhiS1_castSucc, PhiS1_pos V c _ _ h0, accAt1_pos V c t h0]
      iintro ⟨⟨HG, HA, Hoth, Hg⟩, Ho, ⟨%d0, H0⟩, ⟨%d1, H1⟩, ⟨%d2, H2⟩, ⟨%d3, H3⟩, ⟨%d4, H4⟩, H5⟩
      iapply (runMid1 c (grid1.coords t) (ms1_0 t) (hs1_0 t) (ms1_1 t) (hs1_1 t) (ms1_2 t) (hs1_2 t) (ms1_3 t) (hs1_3 t) (ms1_4 t) (hs1_4 t) (ms1_5 t) (hs1_5 t) scG1 (Memref.isWhole_whole _) scAcc1 (Memref.isWhole_whole _) hA hC hD (aBlk1 V c t) (gVal1 V c) (accAt1 V c (t.val - 1) (Nat.lt_of_le_of_lt (Nat.sub_le _ _) t.isLt)) Set.univ _)
      isplitl [H4]; · iexact H4
      isplitl [HG]; · iexact HG
      isplitl [HA]; · iexact HA
      iintro ⟨H4, HG, HA⟩
      isplitl [HG HA Hoth Hg]
      · isplitl [HG]; · iexact HG
        isplitl [HA]; · iexact HA
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

end R1B

open R1B

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨HG, HA, Hoth, Hg⟩
  isplitl [HG]; · iexists _; iexact HG
  isplitl [HA]; · iexists _; iexact HA
  isplitl [Hoth]; · iexact Hoth
  iexact Hg

end Cert.KernelIdeal.Hand

end
-- ==== Proof.KernelIdeal.R2Data.lean ====
/-
  Region 2 (the second propagation pass) as proof data for the pipeline library.

  The pass holds the features h, the weights w, the bias row b and the column of inverse square-root degrees d whole
  in its input windows 0 to 3 (fetched once), and at grid point t row block t of the normalised adjacency's float copy
  in window 4. At the first point it stores g = d · (h w), row-scaled, into a scratch; at every point it takes the 512
  rows of g that block t names and adds (block t)ᵀ · (those rows) into a second scratch, stored at the first point and
  added to afterwards; at the last point it stores max(acc · d + b, 0) into output window 5, which is written back
  there only. Both scratch buffers are carried from point to point, so the invariant names their contents.
-/
import proofs.«137975_g29910152249793_cont_9to1_356_2_alg».proof.Proof.Gen.KernelIdeal.Launch
import proofs.«137975_g29910152249793_cont_9to1_356_2_alg».proof.Proof.Gen.KernelIdeal.Skeleton
import proofs.«137975_g29910152249793_cont_9to1_356_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The features, the weights, the bias row and the degree column, as window blocks (each the whole array), and row
    block t of the adjacency's float copy. -/
abbrev hBlk2 (c : Dev nD) (t : Fin cfg2.N) : Vec F S4096x128 .f32 := iblk2 V c 0 t
abbrev wBlk2 (c : Dev nD) (t : Fin cfg2.N) : Vec F S128x128 .f32 := iblk2 V c 1 t
abbrev bBlk2 (c : Dev nD) (t : Fin cfg2.N) : Vec F S1x128 .f32 := iblk2 V c 2 t
abbrev dBlk2 (c : Dev nD) (t : Fin cfg2.N) : Vec F S4096x1 .f32 := iblk2 V c 3 t
abbrev aBlk2 (c : Dev nD) (t : Fin cfg2.N) : Vec F S512x4096 .bf16 := iblk2 V c 4 t

/-! ## The carried scratch buffers -/

/-- The first point of the grid. -/
abbrev first2 : Fin cfg2.N := ⟨0, by rw [show cfg2.N = 8 from N_2]; decide⟩

/-- The row-scaled product g = d · (h w) the first point stores. -/
def gVal2 (c : Dev nD) : Vec F S4096x128 .bf16 :=
  k2_pay1 (hBlk2 V c first2) (wBlk2 V c first2) (dBlk2 V c first2)

/-- The 512 rows of g that the point with coordinates i reads. -/
def gRows2 (i : grid2.Coords) (g : Vec F S4096x128 .bf16) : Vec F S512x128 .bf16 :=
  View.ld g (Rect.unit (s := S4096x128) (k2_off1 i) S512x128.size (k2_off1_inb i))

/-- The accumulator after the body at position n: the first block's product, then each later block's added. -/
def accAt2 (c : Dev nD) : (n : ℕ) → n < cfg2.N → Vec F S4096x128 .f32
  | 0, hn => k2_pay3 (gRows2 (grid2.coords ⟨0, hn⟩) (gVal2 V c)) (aBlk2 V c ⟨0, hn⟩)
  | n + 1, hn => k2_pay4 (gRows2 (grid2.coords ⟨n + 1, hn⟩) (gVal2 V c)) (aBlk2 V c ⟨n + 1, hn⟩) (accAt2 c n (Nat.lt_of_succ_lt hn))

theorem accAtZero2 (c : Dev nD) (hn : 0 < cfg2.N) :
    accAt2 V c 0 hn = k2_pay3 (gRows2 (grid2.coords ⟨0, hn⟩) (gVal2 V c)) (aBlk2 V c ⟨0, hn⟩) := rfl
theorem accAtSucc2 (c : Dev nD) (n : ℕ) (hn : n + 1 < cfg2.N) :
    accAt2 V c (n + 1) hn = k2_pay4 (gRows2 (grid2.coords ⟨n + 1, hn⟩) (gVal2 V c)) (aBlk2 V c ⟨n + 1, hn⟩) (accAt2 V c n (Nat.lt_of_succ_lt hn)) := rfl

/-- What the last point stores: max(acc · d + b, 0). -/
def outAt2 (c : Dev nD) (t : Fin cfg2.N) : Vec F S4096x128 .f32 :=
  k2_pay5 (accAt2 V c t.val t.isLt) (dBlk2 V c t) (bBlk2 V c t)

/-! ## The invariant -/

/-- The scratch operands: whole scoped buffers of the kernel's own. -/
abbrev scG2 : Memref sig .tc .vmem S4096x128 .bf16 := Memref.whole cc2_scratch0
abbrev scAcc2 : Memref sig .tc .vmem S4096x128 .f32 := Memref.whole cc2_scratch1

/-- The core's scoped buffers other than the two scratch buffers and this region's staging buffers, each whole at some
    contents: what the body never touches. -/
def other2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The region's invariant before position n: before the first point the class's (every scratch buffer at anything);
    afterwards g and the accumulator so far, the rest at anything, the generator register at some state. -/
def PhiS2 (c : Dev nD) : (n : ℕ) → n ≤ cfg2.N → sProp 𝕄
  | 0, _ => Pipeline.ΦA spec2 c
  | n + 1, hn => iprop(owns (c : Thread nD τ) scG2 fullShare (gVal2 V c) ∗ owns (c : Thread nD τ) scAcc2 fullShare (accAt2 V c n hn)
      ∗ other2 c ∗ (∃ r, prngReg c r))

/-! ## The proof data -/

/-- Pipeline 2's proof data on core c: the arrays as the region finds them; after the body at point t each input's
    buffer at its block, the output's at max(acc · d + b, 0) of the accumulator so far (consulted at the last point only:
    elsewhere the window is idle and not written back). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2 V c t := by dsimp only [dat2]

end Cert.KernelIdeal.Hand

end
-- ==== Proof.KernelIdeal.R2Run.lean ====
/-
  Region 2: the kernel body run once per control case.

  The body branches on the grid coordinate only: at the first point it stores g and stores the accumulator, at every
  later point it adds to the accumulator, at the last point it also stores the output. Each case's run names what the
  case leaves in every buffer it touches by the skeleton's payloads of what the buffers held.
-/
import proofs.«137975_g29910152249793_cont_9to1_356_2_alg».proof.Proof.Gen.KernelIdeal.Launch
import proofs.«137975_g29910152249793_cont_9to1_356_2_alg».proof.Proof.Gen.KernelIdeal.Skeleton
import proofs.«137975_g29910152249793_cont_9to1_356_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- "This is the first point": the condition of the body's first two conditionals, from the grid coordinate. -/
abbrev condA2 (i : grid2.Coords) : Prop :=
  (Scalar.cmpi .ne (Scalar.extui (Scalar.cmpi .eq (BitVec.ofNat 32 (i 0).val) 0#32)) 0#32) = 1#1
/-- "This is a later point": the condition of the third. -/
abbrev condC2 (i : grid2.Coords) : Prop :=
  (Scalar.cmpi .ne (Scalar.extui (Scalar.cmpi .sgt (BitVec.ofNat 32 (i 0).val) 0#32)) 0#32) = 1#1
/-- "This is the last point": the condition of the fourth. -/
abbrev condD2 (i : grid2.Coords) : Prop := k2_cond4 i = 1#1

/-- The rows of g a point reads: the rectangle of 512 rows at the point's offset. -/
abbrev gRect2 (i : grid2.Coords) : Rect S4096x128 :=
  Rect.unit (s := S4096x128) (k2_off1 i) S512x128.size (k2_off1_inb i)

/-- The zero offsets of a whole-buffer access, however spelt. -/
theorem r2_zeroOff : (![0, 0] : Fin 2 → Nat) = fun _ => 0 := by
  funext a; fin_cases a <;> rfl

/-! ## Whole-buffer loads and stores read back -/

section Whole

variable {S : Shape} {e : EltTy}

/-- The one piece of a whole-buffer store covers the buffer. -/
theorem r2_cover_whole {off : Fin S.rank → Nat} (h : off = fun _ => 0) (inb : ∀ a, off a + S.size a ≤ S.size a)
    (w : S.Idx → Elt F e) :
    ∀ y : S.Idx, ∃ p ∈ [(⟨Rect.unit off S.size inb, w⟩ : View.Piece (Elt F) S e)], y ∈ p.1.set :=
  fun y => ⟨_, List.mem_singleton_self _, View.mem_set_unit_zero h inb y⟩

/-- A buffer stored whole reads as the payload, whatever it held. -/
theorem r2_read_store_whole {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (r2_cover_whole h inb w), View.canon_unit_zero h]

/-- A whole-buffer load of a whole memref reads its contents. -/
theorem r2_readAt_whole (m : Memref sig .tc .vmem S e) (hm : m.IsWhole) (X : S.Idx → Elt F e) {off : Fin S.rank → Nat}
    (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

end Whole

/-! ## The body run once per control case

Each run is stated over arbitrary whole memrefs: the buffers the case touches at named contents before, and at the
skeleton's payloads of those contents after; a buffer the case does not touch is not mentioned (it stays in the frame). -/

set_option maxHeartbeats 1000000 in
/-- The first point: g = d · (h w) is stored into the first scratch, its rows the point names are read back, and the
    accumulator is stored (not added to). -/
theorem runFirst2 (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : condA2 i) (hC : ¬condC2 i) (hD : ¬condD2 i)
    (x1 : Vec F S4096x128 .f32) (x2 : Vec F S128x128 .f32) (x4 : Vec F S4096x1 .f32) (x5 : Vec F S512x4096 .bf16)
    (E : Set ℕ) (K : PUnit → sProp 𝕄) :
    iprop(owns (c : Thread nD τ) arg1 fullShare x1 ∗ owns (c : Thread nD τ) arg2 fullShare x2 ∗ owns (c : Thread nD τ) arg4 fullShare x4
        ∗ owns (c : Thread nD τ) arg5 fullShare x5 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg4 fullShare x4
            ∗ owns (c : Thread nD τ) arg5 fullShare x5
            ∗ owns (c : Thread nD τ) arg7 fullShare (k2_pay1 x1 x2 x4)
            ∗ owns (c : Thread nD τ) arg8 fullShare (k2_pay3 (View.ld (k2_pay1 x1 x2 x4) (gRect2 i)) x5)) -∗ K ⟨⟩))
      ⊢ wp frame (wpE (defs₀ (F := F)) Variants.none c none) E (cc2__prop_body i arg1 harg1 arg2 harg2 arg3 harg3 arg4 harg4 arg5 harg5 arg6 harg6 arg7 harg7 arg8 harg8) K := by
  simp only [cc2__prop_body_eq_skeleton]; unfold cc2__prop_body_skel
  unfold owns
  iintro ⟨⟨%f1, %hf1, H1⟩, ⟨%f2, %hf2, H2⟩, ⟨%f4, %hf4, H4⟩, ⟨%f5, %hf5, H5⟩, ⟨%d7, %f7, -, H7⟩, ⟨%d8, %f8, -, H8⟩, Hk⟩
  obtain rfl := harg1.eq_unread hf1; obtain rfl := harg2.eq_unread hf2; obtain rfl := harg4.eq_unread hf4; obtain rfl := harg5.eq_unread hf5
  sl_exec (disch := first | exact hA | exact hC | exact hD)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H7]
  · iexists _; isplitr
    swap; · iexact H7
    ipureintro
    sl_unfold_run_names
    rw [r2_read_store_whole _ _ r2_zeroOff, r2_readAt_whole arg1 harg1 x1 r2_zeroOff, r2_readAt_whole arg2 harg2 x2 r2_zeroOff,
      r2_readAt_whole arg4 harg4 x4 r2_zeroOff]
  · iexists _; isplitr
    swap; · iexact H8
    ipureintro
    sl_unfold_run_names
    rw [r2_read_store_whole _ _ r2_zeroOff, View.readAt_eq_ld arg7.view, r2_read_store_whole _ _ r2_zeroOff,
      r2_readAt_whole arg1 harg1 x1 r2_zeroOff, r2_readAt_whole arg2 harg2 x2 r2_zeroOff, r2_readAt_whole arg4 harg4 x4 r2_zeroOff,
      r2_readAt_whole arg5 harg5 x5 r2_zeroOff]

set_option maxHeartbeats 1000000 in
/-- A middle point: the rows of g the point names are read, and their product with the adjacency block is added to the
    accumulator. -/
theorem runMid2 (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : ¬condA2 i) (hC : condC2 i) (hD : ¬condD2 i)
    (x5 : Vec F S512x4096 .bf16) (g : Vec F S4096x128 .bf16) (a : Vec F S4096x128 .f32)
    (E : Set ℕ) (K : PUnit → sProp 𝕄) :
    iprop(owns (c : Thread nD τ) arg5 fullShare x5 ∗ owns (c : Thread nD τ) arg7 fullShare g ∗ owns (c : Thread nD τ) arg8 fullShare a
        ∗ (iprop(owns (c : Thread nD τ) arg5 fullShare x5 ∗ owns (c : Thread nD τ) arg7 fullShare g
            ∗ owns (c : Thread nD τ) arg8 fullShare (k2_pay4 (View.ld g (gRect2 i)) x5 a)) -∗ K ⟨⟩))
      ⊢ wp frame (wpE (defs₀ (F := F)) Variants.none c none) E (cc2__prop_body i arg1 harg1 arg2 harg2 arg3 harg3 arg4 harg4 arg5 harg5 arg6 harg6 arg7 harg7 arg8 harg8) K := by
  simp only [cc2__prop_body_eq_skeleton]; unfold cc2__prop_body_skel
  unfold owns
  iintro ⟨⟨%f5, %hf5, H5⟩, ⟨%f7, %hf7, H7⟩, ⟨%f8, %hf8, H8⟩, Hk⟩
  obtain rfl := harg5.eq_unread hf5; obtain rfl := harg7.eq_unread hf7; obtain rfl := harg8.eq_unread hf8
  sl_exec (disch := first | exact hA | exact hC | exact hD)
  sl_step
  iapply Hk
  isplitl [H5]
  · iexists _; isplitr; · ipureintro; exact harg5.read_unread _
    iexact H5
  isplitl [H7]
  · iexists _; isplitr; · ipureintro; exact harg7.read_unread _
    iexact H7
  · iexists _; isplitr
    swap; · iexact H8
    ipureintro
    sl_unfold_run_names
    rw [r2_read_store_whole _ _ r2_zeroOff, View.readAt_eq_ld arg7.view, harg7.read_unread,
      r2_readAt_whole arg5 harg5 x5 r2_zeroOff, r2_readAt_whole arg8 harg8 a r2_zeroOff]

set_option maxHeartbeats 1000000 in
/-- The last point: as a middle point, and then max(acc · d + b, 0) of the accumulator just updated is stored into the
    output's buffer. -/
theorem runLast2 (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S4096x1 .f32) (harg4 : arg4.IsWhole) (arg5 : Memref sig .tc .vmem S512x4096 .bf16) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .f32) (harg8 : arg8.IsWhole)
    (hA : ¬condA2 i) (hC : condC2 i) (hD : condD2 i)
    (x3 : Vec F S1x128 .f32) (x4 : Vec F S4096x1 .f32) (x5 : Vec F S512x4096 .bf16) (g : Vec F S4096x128 .bf16) (a : Vec F S4096x128 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d)
        ∗ owns (c : Thread nD τ) arg7 fullShare g ∗ owns (c : Thread nD τ) arg8 fullShare a
        ∗ (iprop(owns (c : Thread nD τ) arg3 fullShare x3 ∗ owns (c : Thread nD τ) arg4 fullShare x4 ∗ owns (c : Thread nD τ) arg5 fullShare x5
            ∗ owns (c : Thread nD τ) arg6 fullShare (k2_pay5 (k2_pay4 (View.ld g (gRect2 i)) x5 a) x4 x3)
            ∗ owns (c : Thread nD τ) arg7 fullShare g
            ∗ owns (c : Thread nD τ) arg8 fullShare (k2_pay4 (View.ld g (gRect2 i)) x5 a)) -∗ K ⟨⟩))
      ⊢ wp frame (wpE (defs₀ (F := F)) Variants.none c none) E (cc2__prop_body i arg1 harg1 arg2 harg2 arg3 harg3 arg4 harg4 arg5 harg5 arg6 harg6 arg7 harg7 arg8 harg8) K := by
  simp only [cc2__prop_body_eq_skeleton]; unfold cc2__prop_body_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf3; obtain rfl := harg4.eq_unread hf4; obtain rfl := harg5.eq_unread hf5
  obtain rfl := harg7.eq_unread hf7; obtain rfl := harg8.eq_unread hf8
  sl_exec (disch := first | exact hA | exact hC | exact hD)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [r2_read_store_whole _ _ r2_zeroOff, View.readCov_unit_zero _ r2_zeroOff, View.readAt_eq_ld arg7.view, harg7.read_unread,
      r2_readAt_whole arg5 harg5 x5 r2_zeroOff, r2_readAt_whole arg8 harg8 a r2_zeroOff,
      r2_readAt_whole arg4 harg4 x4 r2_zeroOff, r2_readAt_whole arg3 harg3 x3 r2_zeroOff]
  isplitl [H7]
  · iexists _; isplitr; · ipureintro; exact harg7.read_unread _
    iexact H7
  · iexists _; isplitr
    swap; · iexact H8
    ipureintro
    sl_unfold_run_names
    rw [r2_read_store_whole _ _ r2_zeroOff, View.readAt_eq_ld arg7.view, harg7.read_unread,
      r2_readAt_whole arg5 harg5 x5 r2_zeroOff, r2_readAt_whole arg8 harg8 a r2_zeroOff]

end Cert.KernelIdeal.Hand

end
-- ==== Proof.KernelIdeal.R2Phi.lean ====
/-
  Region 2: the class invariant opened into the region's two scratch buffers, the other scoped buffers and the
  generator register, and closed again. The core's scoped buffers are a printed list; the region's two scratch buffers
  are the last two entries of it, and the rest, in the list's order, is the data's `other2`.
-/
import proofs.«137975_g29910152249793_cont_9to1_356_2_alg».proof.Proof.KernelIdeal.R2Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace R2B

/-! ## The class invariant opened -/

/-- The class's invariant gives the two scratch buffers, each owned whole at some contents, the other scoped buffers,
    and the generator register at some state: the printed list of the core's scoped buffers regrouped; -/
theorem PhiA2_open (c : Dev nD) :
    (Pipeline.ΦA spec2 c : sProp 𝕄) ⊢ iprop((∃ d, owns (c : Thread nD τ) scG2 fullShare d) ∗ (∃ d, owns (c : Thread nD τ) scAcc2 fullShare d)
          ∗ other2 (F := F) c ∗ (∃ r, prngReg c r)) := by
  unfold Pipeline.ΦA other2; rw [scopedRest2_eq]; simp only [owns_whole]
  iintro ⟨⟨O0, O1, O2, O3, O4, O5, O6, O7, O8, O9, O10, O11, O12, O13, O14, HG, HA⟩, Hg⟩
  isplitl [HG]; · iexact HG
  isplitl [HA]; · iexact HA
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  iexact O14

/-- and is given back by them. -/
theorem PhiA2_close (c : Dev nD) :
    iprop((∃ d, owns (c : Thread nD τ) scG2 fullShare d) ∗ (∃ d, owns (c : Thread nD τ) scAcc2 fullShare d)
          ∗ other2 (F := F) c ∗ (∃ r, prngReg c r)) ⊢ (Pipeline.ΦA spec2 c : sProp 𝕄) := by
  unfold Pipeline.ΦA other2; rw [scopedRest2_eq]; simp only [owns_whole]
  iintro ⟨HG, HA, ⟨O0, O1, O2, O3, O4, O5, O6, O7, O8, O9, O10, O11, O12, O13, O14⟩, Hg⟩
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [HG]; · iexact HG
  iexact HA

/-- So the two are one assertion. -/
theorem PhiA2_eq (c : Dev nD) :
    (Pipeline.ΦA spec2 c : sProp 𝕄) = iprop((∃ d, owns (c : Thread nD τ) scG2 fullShare d) ∗ (∃ d, owns (c : Thread nD τ) scAcc2 fullShare d)
          ∗ other2 (F := F) c ∗ (∃ r, prngReg c r)) :=
  Entails.antisymm (PhiA2_open c) (PhiA2_close c)

end R2B

end Cert.KernelIdeal.Hand

end
-- ==== Proof.KernelIdeal.R2Body.lean ====
/-
  Region 2: the body meets the proof data at every grid point, and the invariant's two ends.

  The body's conditions are given closed forms over the grid; every input's buffer holds its block at every point; and
  at each point the run of its control case turns what the invariant (the class's, opened into the two scratch buffers,
  the other scoped buffers and the generator register) and the windows hold before into what the data say they hold
  after.
-/
import proofs.«137975_g29910152249793_cont_9to1_356_2_alg».proof.Proof.KernelIdeal.R2Data
import proofs.«137975_g29910152249793_cont_9to1_356_2_alg».proof.Proof.KernelIdeal.R2Run
import proofs.«137975_g29910152249793_cont_9to1_356_2_alg».proof.Proof.KernelIdeal.R2Phi

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- What the TensorCore's buffers hold when the region is entered: the parameter the region is stated at.
variable (V : (c : Dev nD) → (b : Ref sig .tc) → Buf (Elt F) ((c : Thread nD τ).loc b))

namespace R2B

/-! ## The conditions in closed form, decided over the grid -/

theorem hcondA2 : ∀ t : Fin cfg2.N, condA2 (grid2.coords t) ↔ t.val = 0 :=
  (by decide +kernel : ∀ t : Fin grid2.N, condA2 (grid2.coords t) ↔ t.val = 0)
theorem hcondC2 : ∀ t : Fin cfg2.N, condC2 (grid2.coords t) ↔ 0 < t.val :=
  (by decide +kernel : ∀ t : Fin grid2.N, condC2 (grid2.coords t) ↔ 0 < t.val)
theorem hcondD2 : ∀ t : Fin cfg2.N, condD2 (grid2.coords t) ↔ t.val = 7 :=
  (by decide +kernel : ∀ t : Fin grid2.N, condD2 (grid2.coords t) ↔ t.val = 7)

/-! ## Where the output window is idle -/

/-- Off the last point the output window is idle: the body stores nothing into it, -/
theorem idleAt2_5 : ∀ t : Fin cfg2.N, ¬condD2 (grid2.coords t) → cfg2.idle 5 (grid2.coords t) = true := by decide +kernel
/-- and the pipeline does not write its block back. -/
theorem noFlush2_5 : ∀ t : Fin cfg2.N, ¬condD2 (grid2.coords t) → (cfg2.win 5).flush t = false := by decide +kernel
/-- At the last point it is live. -/
theorem liveAt2_5 : ∀ t : Fin cfg2.N, condD2 (grid2.coords t) → cfg2.idle 5 (grid2.coords t) = false := by decide +kernel

/-! ## The staging memrefs at a point, as the pipeline passes them -/

abbrev ms2_0 (t : Fin cfg2.N) : Memref sig .tc .vmem S4096x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x4096 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x128 .f32 := win2_5.stage (cfg2.slots t 5)
abbrev hs2_5 (t : Fin cfg2.N) : (ms2_5 t).IsWhole := hstage2_5 ((cfg2.slots t 5).cast nbuf2_5)

/-! ## What the body finds and leaves in the inputs' buffers -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem leaves2_0 (c : Dev nD) (t : Fin cfg2.N) :
    (dat2 V c).leavesExact 0 t = owns (c : Thread nD τ) (ms2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (ms2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (ms2_2 t) fullShare (iblk2 V c 2 t) := by
  unfold Dat.leavesExact; rw [show cfg2.idle 2 (cfg2.grid.coords t) = false from rfl, after2_2]
theorem leaves2_3 (c : Dev nD) (t : Fin cfg2.N) :
    (dat2 V c).leavesExact 3 t = owns (c : Thread nD τ) (ms2_3 t) fullShare (iblk2 V c 3 t) := by
  unfold Dat.leavesExact; rw [show cfg2.idle 3 (cfg2.grid.coords t) = false from rfl, after2_3]
theorem leaves2_4 (c : Dev nD) (t : Fin cfg2.N) :
    (dat2 V c).leavesExact 4 t = owns (c : Thread nD τ) (ms2_4 t) fullShare (iblk2 V c 4 t) := by
  unfold Dat.leavesExact; rw [show cfg2.idle 4 (cfg2.grid.coords t) = false from rfl, after2_4]

/-! ## The carried values at a point -/

/-- g in terms of the blocks at the first point, wherever that point is named. -/
theorem gVal2_at (c : Dev nD) (t : Fin cfg2.N) (h0 : t.val = 0) :
    gVal2 V c = k2_pay1 (hBlk2 V c t) (wBlk2 V c t) (dBlk2 V c t) := by
  obtain ⟨n, hn⟩ := t; obtain rfl : n = 0 := h0; rfl

/-- The accumulator after the first point. -/
theorem accAt2_first (c : Dev nD) (t : Fin cfg2.N) (h0 : t.val = 0) :
    accAt2 V c t.val t.isLt = k2_pay3 (View.ld (gVal2 V c) (gRect2 (grid2.coords t))) (aBlk2 V c t) := by
  obtain ⟨n, hn⟩ := t; obtain rfl : n = 0 := h0; rfl

/-- The accumulator after a later point: the block's product added to what the point before left. -/
theorem accAt2_pos (c : Dev nD) (t : Fin cfg2.N) (h0 : t.val ≠ 0) :
    accAt2 V c t.val t.isLt = k2_pay4 (View.ld (gVal2 V c) (gRect2 (grid2.coords t))) (aBlk2 V c t)
      (accAt2 V c (t.val - 1) (Nat.lt_of_le_of_lt (Nat.sub_le _ _) t.isLt)) := by
  obtain ⟨n, hn⟩ := t
  cases n with
  | zero => exact absurd rfl h0
  | succ n => rfl

/-! ## The invariant at a point -/

theorem PhiS2_castSucc (c : Dev nD) (t : Fin cfg2.N) :
    (dat2 V c).Φ t.castSucc = PhiS2 V c t.val (Nat.le_of_lt t.isLt) := by
  dsimp only [dat2]; simp only [Fin.coe_castSucc]

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scG2 fullShare (gVal2 V c) ∗ owns (c : Thread nD τ) scAcc2 fullShare (accAt2 V c n hn)
      ∗ other2 c ∗ (∃ r, prngReg c r)) := rfl

theorem PhiS2_pos (c : Dev nD) (n : ℕ) (h : n ≤ cfg2.N) (hz : n ≠ 0) :
    PhiS2 V c n h = iprop(owns (c : Thread nD τ) scG2 fullShare (gVal2 V c)
      ∗ owns (c : Thread nD τ) scAcc2 fullShare (accAt2 V c (n - 1) (by omega))
      ∗ other2 c ∗ (∃ r, prngReg c r)) := by
  cases n with
  | zero => exact absurd rfl hz
  | succ n => rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' buffers hold their blocks; the closed forms say which control case the point is
    in, and that case's run applies: at the first point the invariant hands the two scratch buffers at anything and
    takes them back at g and the first product; later it hands them at g and the accumulator so far and takes the
    accumulator back with the point's product added; the output's buffer is handed back untouched except at the last
    point, where it is left at max(acc · d + b, 0). The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 8 := lt_of_lt_of_eq t.isLt (show cfg2.N = 8 from N_2)
  by_cases h0 : t.val = 0
  · have hA : condA2 (grid2.coords t) := (hcondA2 t).mpr h0
    have hC : ¬condC2 (grid2.coords t) := fun h => by have := (hcondC2 t).mp h; omega
    have hD : ¬condD2 (grid2.coords t) := fun h => by have := (hcondD2 t).mp h; omega
    rw [Dat.leavesExact_idle (dat2 V c) 5 t (idleAt2_5 t hD) (noFlush2_5 t hD)]
    rw [PhiS2_castSucc, PhiS2_zero V c _ _ h0, PhiA2_eq]
    rw [accAt2_first V c t h0, gVal2_at V c t h0]
    iintro ⟨⟨⟨%dG, HG⟩, ⟨%dA, HA⟩, Hoth, Hg⟩, Ho, ⟨%d0, H0⟩, ⟨%d1, H1⟩, ⟨%d2, H2⟩, ⟨%d3, H3⟩, ⟨%d4, H4⟩, H5⟩
    iapply (runFirst2 c (grid2.coords t) (ms2_0 t) (hs2_0 t) (ms2_1 t) (hs2_1 t) (ms2_2 t) (hs2_2 t) (ms2_3 t) (hs2_3 t) (ms2_4 t) (hs2_4 t) (ms2_5 t) (hs2_5 t) scG2 (Memref.isWhole_whole _) scAcc2 (Memref.isWhole_whole _) hA hC hD (hBlk2 V c t) (wBlk2 V c t) (dBlk2 V c t) (aBlk2 V c t) Set.univ _)
    isplitl [H0]; · iexact H0
    isplitl [H1]; · iexact H1
    isplitl [H3]; · iexact H3
    isplitl [H4]; · iexact H4
    isplitl [HG]; · iexists _; iexact HG
    isplitl [HA]; · iexists _; iexact HA
    iintro ⟨H0, H1, H3, H4, HG, HA⟩
    isplitl [HG HA Hoth Hg]
    · isplitl [HG]; · iexact HG
      isplitl [HA]; · iexact HA
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hA : ¬condA2 (grid2.coords t) := fun h => h0 ((hcondA2 t).mp h)
    have hC : condC2 (grid2.coords t) := (hcondC2 t).mpr (Nat.pos_of_ne_zero h0)
    by_cases h7 : t.val = 7
    · have hD : condD2 (grid2.coords t) := (hcondD2 t).mpr h7
      rw [show (dat2 V c).leavesExact 5 t = owns (c : Thread nD τ) (ms2_5 t) fullShare (outAt2 V c t) from by
        unfold Dat.leavesExact; rw [liveAt2_5 t hD, after2_5]]
      unfold outAt2
      rw [PhiS2_castSucc, PhiS2_pos V c _ _ h0, accAt2_pos V c t h0]
      iintro ⟨⟨HG, HA, Hoth, Hg⟩, Ho, ⟨%d0, H0⟩, ⟨%d1, H1⟩, ⟨%d2, H2⟩, ⟨%d3, H3⟩, ⟨%d4, H4⟩, ⟨%d5, H5⟩⟩
      iapply (runLast2 c (grid2.coords t) (ms2_0 t) (hs2_0 t) (ms2_1 t) (hs2_1 t) (ms2_2 t) (hs2_2 t) (ms2_3 t) (hs2_3 t) (ms2_4 t) (hs2_4 t) (ms2_5 t) (hs2_5 t) scG2 (Memref.isWhole_whole _) scAcc2 (Memref.isWhole_whole _) hA hC hD (bBlk2 V c t) (dBlk2 V c t) (aBlk2 V c t) (gVal2 V c) (accAt2 V c (t.val - 1) (Nat.lt_of_le_of_lt (Nat.sub_le _ _) t.isLt)) Set.univ _)
      isplitl [H2]; · iexact H2
      isplitl [H3]; · iexact H3
      isplitl [H4]; · iexact H4
      isplitl [H5]; · iexists _; iexact H5
      isplitl [HG]; · iexact HG
      isplitl [HA]; · iexact HA
      iintro ⟨H2, H3, H4, H5, HG, HA⟩
      isplitl [HG HA Hoth Hg]
      · isplitl [HG]; · iexact HG
        isplitl [HA]; · iexact HA
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · have hD : ¬condD2 (grid2.coords t) := fun h => h7 ((hcondD2 t).mp h)
      rw [Dat.leavesExact_idle (dat2 V c) 5 t (idleAt2_5 t hD) (noFlush2_5 t hD)]
      rw [PhiS2_castSucc, PhiS2_pos V c _ _ h0, accAt2_pos V c t h0]
      iintro ⟨⟨HG, HA, Hoth, Hg⟩, Ho, ⟨%d0, H0⟩, ⟨%d1, H1⟩, ⟨%d2, H2⟩, ⟨%d3, H3⟩, ⟨%d4, H4⟩, H5⟩
      iapply (runMid2 c (grid2.coords t) (ms2_0 t) (hs2_0 t) (ms2_1 t) (hs2_1 t) (ms2_2 t) (hs2_2 t) (ms2_3 t) (hs2_3 t) (ms2_4 t) (hs2_4 t) (ms2_5 t) (hs2_5 t) scG2 (Memref.isWhole_whole _) scAcc2 (Memref.isWhole_whole _) hA hC hD (aBlk2 V c t) (gVal2 V c) (accAt2 V c (t.val - 1) (Nat.lt_of_le_of_lt (Nat.sub_le _ _) t.isLt)) Set.univ _)
      isplitl [H4]; · iexact H4
      isplitl [HG]; · iexact HG
      isplitl [HA]; · iexact HA
      iintro ⟨H4, HG, HA⟩
      isplitl [HG HA Hoth Hg]
      · isplitl [HG]; · iexact HG
        isplitl [HA]; · iexact HA
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

end R2B

open R2B

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  iintro ⟨HG, HA, Hoth, Hg⟩
  isplitl [HG]; · iexists _; iexact HG
  isplitl [HA]; · iexists _; iexact HA
  isplitl [Hoth]; · iexact Hoth
  iexact Hg

end Cert.KernelIdeal.Hand

end
-- ==== Proof.KernelIdeal.Launch.lean ====
/-
  The whole run: the three regions and the two reshapes between them, from the launch memory to the return.

  Between two items every unscoped buffer of a core holds a named value: the launch memory; then, after a region, its
  arrays at what the pipeline's write-backs leave and every other buffer as before; after a reshape, its result
  written. Each region is entered at the contents the item before it left, and the run ends with every unscoped buffer
  at the last of these valuations — from which both the frame (the arguments are never written) and the result's value
  are read.
-/
import proofs.«137975_g29910152249793_cont_9to1_356_2_alg».proof.Proof.KernelIdeal.R0Body
import proofs.«137975_g29910152249793_cont_9to1_356_2_alg».proof.Proof.KernelIdeal.R1Body
import proofs.«137975_g29910152249793_cont_9to1_356_2_alg».proof.Proof.KernelIdeal.R2Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 : Dev nD → Valuation τ sig (Elt F) := fun c b => m (c, b)
/-- The same read at the TensorCore's references: what region 0 is entered at. -/
abbrev E0 : (c : Dev nD) → (b : Ref sig .tc) → Buf (Elt F) ((c : Thread nD τ).loc b) := fun c b => W0 m c b
/-- After region 0: its arrays at what its write-backs leave, every other buffer as launched. -/
def W1 (c : Dev nD) : Valuation τ sig (Elt F) :=
  Pipeline.withArrays spec0 c (W0 m c) fun w => (dat0 (E0 m) c).arrAt w cfg0.N
/-- After the first bias's reshape. -/
abbrev W2 : Dev nD → Valuation τ sig (Elt F) := fun c => StableHlo.after hostOps1 (W1 m c)
/-- What region 1 is entered at. -/
abbrev E1 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (E1 m) c).arrAt w cfg1.N
/-- After the second bias's reshape. -/
abbrev W4 : Dev nD → Valuation τ sig (Elt F) := fun c => StableHlo.after hostOps2 (W3 m c)
/-- What region 2 is entered at. -/
abbrev E2 : (c : Dev nD) → (b : Ref sig .tc) → Buf (Elt F) ((c : Thread nD τ).loc b) := fun c b => W4 m c b
/-- After region 2: the contents the program returns with. -/
def W5 (c : Dev nD) : Valuation τ sig (Elt F) :=
  Pipeline.withArrays spec2 c (W4 m c) fun w => (dat2 (E2 m) c).arrAt w cfg2.N

/-! ## What each region leaves in the buffers -/

/-- Region 0 leaves each of its arrays at what its write-backs fold to, -/
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
/-- and every buffer that is none of its arrays as it found it. -/
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What region 0 leaves, read at the TensorCore's references. -/
abbrev X0 : (c : Dev nD) → (b : Ref sig .tc) → Buf (Elt F) ((c : Thread nD τ).loc b) := fun c b => W1 m c b
theorem hF0 (c : Dev nD) (w : Fin cfg0.W) : (dat0 (E0 m) c).arrAt w cfg0.N = X0 m c (Pipeline.arrRef spec0 w) :=
  (W1_arr m c w).symm
theorem hrest0 (c : Dev nD) : ∀ b, b ∉ Finset.univ.image (Pipeline.arrRef spec0) → X0 m c b = E0 m c b :=
  fun b hb => W1_of_ne m c b fun w e => hb (Finset.mem_image.mpr ⟨w, Finset.mem_univ _, e⟩)

/-- Region 1 leaves each of its arrays at what its write-backs fold to, -/
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
/-- and every buffer that is none of its arrays as it found it. -/
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- What region 1 leaves, read at the TensorCore's references. -/
abbrev X1 : (c : Dev nD) → (b : Ref sig .tc) → Buf (Elt F) ((c : Thread nD τ).loc b) := fun c b => W3 m c b
theorem hF1 (c : Dev nD) (w : Fin cfg1.W) : (dat1 (E1 m) c).arrAt w cfg1.N = X1 m c (Pipeline.arrRef spec1 w) :=
  (W3_arr m c w).symm
theorem hrest1 (c : Dev nD) : ∀ b, b ∉ Finset.univ.image (Pipeline.arrRef spec1) → X1 m c b = E1 m c b :=
  fun b hb => W3_of_ne m c b fun w e => hb (Finset.mem_image.mpr ⟨w, Finset.mem_univ _, e⟩)

/-- Region 2 leaves each of its arrays at what its write-backs fold to, -/
theorem W5_arr (c : Dev nD) (w : Fin cfg2.W) :
    W5 m c (Proc.devRef .tc (Pipeline.arrRef spec2 w)) = (dat2 (E2 m) c).arrAt w cfg2.N := by
  unfold W5; exact Pipeline.withArrays_arr spec2 launch2.win.arr_inj c _ _ w
/-- and every buffer that is none of its arrays as it found it. -/
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- What region 2 leaves, read at the TensorCore's references. -/
abbrev X2 : (c : Dev nD) → (b : Ref sig .tc) → Buf (Elt F) ((c : Thread nD τ).loc b) := fun c b => W5 m c b
theorem hF2 (c : Dev nD) (w : Fin cfg2.W) : (dat2 (E2 m) c).arrAt w cfg2.N = X2 m c (Pipeline.arrRef spec2 w) :=
  (W5_arr m c w).symm
theorem hrest2 (c : Dev nD) : ∀ b, b ∉ Finset.univ.image (Pipeline.arrRef spec2) → X2 m c b = E2 m c b :=
  fun b hb => W5_of_ne m c b fun w e => hb (Finset.mem_image.mpr ⟨w, Finset.mem_univ _, e⟩)

/-! ## The proof data family and the thread state -/

/-- The prefetched tables' admissible contents: no pipeline has a table. -/
abbrev tabs : (p : Fin 3) → (pcfgs (F := F) p).Adm := fun p => (cfgs p).toPCfg_adm
/-- Every pipeline's proof data, each at the contents its region is entered at. -/
def pdats : (p : Fin 3) → (c : Dev nD) → Dat τ (Elt F) Unit ℕ (UR sig nD τ) ℕ (Pipeline.pin (pcfgs (F := F)) tabs p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment: the unscoped buffers from the contents W to those after the operations,
    R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem reshape1_fresh : (hostOps1 : List (HloOp τ sig (Elt F))).Forall fun op => op.fresh = ∅ := by
  simp only [List.Forall]; repeat' constructor
theorem reshape2_fresh : (hostOps2 : List (HloOp τ sig (Elt F))).Forall fun op => op.fresh = ∅ := by
  simp only [List.Forall]; repeat' constructor
/-- The last thread state without the dues: every unscoped buffer at the last valuation, the generator register at some
    state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at W0, left with them at W1. Its arrays
    are split out of the unscoped buffers on entry and put back at their final contents on exit; the generator register
    goes into the invariant with the scoped buffers no window stages, through the class's invariant at the first point,
    and comes back out of the class's invariant after the last; nothing is owed; the kernel has no semaphore of its own. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    refine BIBase.Entails.trans (hout0 (E0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W2, left with them at W3. Its arrays
    are split out of the unscoped buffers on entry and put back at their final contents on exit; the generator register
    goes into the invariant with the scoped buffers no window stages, through the class's invariant at the first point,
    and comes back out of the class's invariant after the last; nothing is owed; the kernel has no semaphore of its own. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine BIBase.Entails.trans (hout1 (E1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W4, left with them at W5. Its arrays
    are split out of the unscoped buffers on entry and put back at their final contents on exit; the generator register
    goes into the invariant with the scoped buffers no window stages, through the class's invariant at the first point,
    and comes back out of the class's invariant after the last; nothing is owed; the kernel has no semaphore of its own. -/
def reg2 : Pipeline.RegionSeg (pcfgs (F := F)) tabs (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) tabs (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E2 m) c)
    unfold Pipeline.ΦA
    iintro ⟨Hp, -, Hr⟩
    isplitl [Hr]; · iexact Hr
    iexact Hp
  hout c := by
    refine BIBase.Entails.trans (hout2 (E2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tabs (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments -/

/-- The five items in order: region 0, the first reshape from what region 0 left, region 1, the second reshape from what
    region 1 left, region 2. -/
abbrev segs : List (Pipeline.Seg (pcfgs (F := F)) tabs (pdats m) () defs₀ 𝒱₀ L lv) :=
  [ .region (reg0 m),
    .host (hseg hostOps1 hostOps1_sub reshape1_fresh (W1 m)),
    .region (reg1 m),
    .host (hseg hostOps2 hostOps2_sub reshape2_fresh (W3 m)),
    .region (reg2 m) ]
/-- The program is the run of these segments. -/
theorem main_run (c : Dev nD) : main (F := F) c = Pipeline.Seg.run (segs m) := (main_chain c).trans (by chain_rfl)

/-! ## The run -/

set_option backward.isDefEq.respectTransparency.types false in
/-- From any memory with zero counters every weakly fair execution of the program terminates, faulting nowhere, and
    every final memory holds each unscoped buffer at the last valuation. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W5 m c b) :=
  Pipeline.θ_run_regions_kit (pcfgs (F := F)) tabs (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.KernelIdeal.Hand

end
-- ==== Proof.KernelIdeal.Frame.lean ====
/-
  The frame, read off the run: no item writes an argument.

  The run ends with every unscoped buffer at the last valuation. An argument is either an input window's array of some
  region — which the region leaves as it found it — or no window's array at all, and no reshape writes one; so reading
  each argument's buffer back through the items reaches the launch memory.
-/
import proofs.«137975_g29910152249793_cont_9to1_356_2_alg».proof.Proof.KernelIdeal.Launch
import proofs.«137975_g29910152249793_cont_9to1_356_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading a buffer back through one item -/

/-- The first reshape writes its own result only. -/
theorem W2_of (c : Dev nD) (r : Ref sig .tc) (h : r ∉ hostOps1_W) : W2 m c (Proc.devRef .tc r) = W1 m c (Proc.devRef .tc r) :=
  StableHlo.after_of_writes_sub hostOps1 _ hostOps1_writes h
/-- The second reshape writes its own result only. -/
theorem W4_of (c : Dev nD) (r : Ref sig .tc) (h : r ∉ hostOps2_W) : W4 m c (Proc.devRef .tc r) = W3 m c (Proc.devRef .tc r) :=
  StableHlo.after_of_writes_sub hostOps2 _ hostOps2_writes h

/-- An input window's array is unchanged by its region. -/
theorem in0 (c : Dev nD) (w : Fin cfg0.W) (hin : (cfg0.win w).isOut = false) :
    (dat0 (E0 m) c).arrAt w cfg0.N = E0 m c (Pipeline.arrRef spec0 w) :=
  ((dat0 (E0 m) c).arrAt_in w hin _).trans (A_eq0 (E0 m) c w)
theorem in1 (c : Dev nD) (w : Fin cfg1.W) (hin : (cfg1.win w).isOut = false) :
    (dat1 (E1 m) c).arrAt w cfg1.N = E1 m c (Pipeline.arrRef spec1 w) :=
  ((dat1 (E1 m) c).arrAt_in w hin _).trans (A_eq1 (E1 m) c w)
theorem in2 (c : Dev nD) (w : Fin cfg2.W) (hin : (cfg2.win w).isOut = false) :
    (dat2 (E2 m) c).arrAt w cfg2.N = E2 m c (Pipeline.arrRef spec2 w) :=
  ((dat2 (E2 m) c).arrAt_in w hin _).trans (A_eq2 (E2 m) c w)

/-- A buffer that region 0 does not stage and the first reshape does not write reaches region 1 as launched. -/
theorem arg_E1 (c : Dev nD) (r : Ref sig .tc) (h1 : r ∉ hostOps1_W) (h0 : ∀ w, Pipeline.arrRef spec0 w ≠ r) :
    E1 m c r = m ((c : Thread nD τ).loc r) :=
  (W2_of m c r h1).trans (W1_of_ne m c r h0)
/-- And one that region 1 does not stage and the second reshape does not write either reaches region 2 as launched. -/
theorem arg_E2 (c : Dev nD) (r : Ref sig .tc) (h2 : r ∉ hostOps2_W) (h1' : ∀ w, Pipeline.arrRef spec1 w ≠ r) (h1 : r ∉ hostOps1_W)
    (h0 : ∀ w, Pipeline.arrRef spec0 w ≠ r) : E2 m c r = m ((c : Thread nD τ).loc r) :=
  (W4_of m c r h2).trans ((W3_of_ne m c r h1').trans (arg_E1 m c r h1 h0))

/-! ## Each argument at the end -/

/-- The features: region 1's input window 0. -/
theorem W5_main_arg0 (c : Dev nD) : W5 m c (Proc.devRef .tc main_arg0) = m ((c : Thread nD τ).loc main_arg0) :=
  (W5_of_ne m c main_arg0 (by decide)).trans <| (W4_of m c main_arg0 (by decide)).trans <|
    (W3_arr m c 0).trans <| (in1 m c 0 rfl).trans (arg_E1 m c main_arg0 (by decide) (by decide))
/-- The adjacency: region 0's input window 0. -/
theorem W5_main_arg1 (c : Dev nD) : W5 m c (Proc.devRef .tc main_arg1) = m ((c : Thread nD τ).loc main_arg1) :=
  (W5_of_ne m c main_arg1 (by decide)).trans <| (W4_of m c main_arg1 (by decide)).trans <|
    (W3_of_ne m c main_arg1 (by decide)).trans <| (W2_of m c main_arg1 (by decide)).trans <|
    (W1_arr m c 0).trans (in0 m c 0 rfl)
/-- The first weights: region 1's input window 1. -/
theorem W5_main_arg2 (c : Dev nD) : W5 m c (Proc.devRef .tc main_arg2) = m ((c : Thread nD τ).loc main_arg2) :=
  (W5_of_ne m c main_arg2 (by decide)).trans <| (W4_of m c main_arg2 (by decide)).trans <|
    (W3_arr m c 1).trans <| (in1 m c 1 rfl).trans (arg_E1 m c main_arg2 (by decide) (by decide))
/-- The first bias: no window's array. -/
theorem W5_main_arg3 (c : Dev nD) : W5 m c (Proc.devRef .tc main_arg3) = m ((c : Thread nD τ).loc main_arg3) :=
  (W5_of_ne m c main_arg3 (by decide)).trans (arg_E2 m c main_arg3 (by decide) (by decide) (by decide) (by decide))
/-- The second weights: region 2's input window 1. -/
theorem W5_main_arg4 (c : Dev nD) : W5 m c (Proc.devRef .tc main_arg4) = m ((c : Thread nD τ).loc main_arg4) :=
  (W5_arr m c 1).trans <| (in2 m c 1 rfl).trans (arg_E2 m c main_arg4 (by decide) (by decide) (by decide) (by decide))
/-- The second bias: no window's array. -/
theorem W5_main_arg5 (c : Dev nD) : W5 m c (Proc.devRef .tc main_arg5) = m ((c : Thread nD τ).loc main_arg5) :=
  (W5_of_ne m c main_arg5 (by decide)).trans (arg_E2 m c main_arg5 (by decide) (by decide) (by decide) (by decide))

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The frame -/

/-- From any memory with zero counters every weakly fair execution terminates, faulting nowhere, with every argument
    array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_main m ρ)

end Cert.KernelIdeal.Hand

end
-- ==== Proof.Spec.lean ====
/-
  The two-layer graph convolution over the reals: what both programs compute at the exact instance.

  For an integer adjacency matrix a, the normalised adjacency has its diagonal forced to one; a vertex's degree is
  its column sum, its scale the inverse square root of a positive degree and zero otherwise; one layer sends features
  h to max(d_j · Σ_i â_ij · d_i · (h w)_ik + b_k, 0), and the block is two layers.
-/
import Idealize.ShloMosaic.PureOps.Ideal

noncomputable section

namespace Cert.Spec

open Idealize.ShloMosaic

/-- The adjacency with its diagonal forced to one, as reals. -/
def ahat (a : Fin 4096 → Fin 4096 → ℤ) (i j : Fin 4096) : ℝ := if i = j then 1 else (a i j : ℝ)

/-- Vertex j's degree: the sum of column j. -/
def deg (a : Fin 4096 → Fin 4096 → ℤ) (j : Fin 4096) : ℝ := ∑ i, ahat a i j

/-- Vertex j's scale: the inverse square root of a positive degree, zero otherwise. -/
def dinv (a : Fin 4096 → Fin 4096 → ℤ) (j : Fin 4096) : ℝ := if 0 < deg a j then (Real.sqrt (deg a j))⁻¹ else 0

/-- One layer: the bias added to the normalised propagation of h w, clamped below at zero. -/
def layer (a : Fin 4096 → Fin 4096 → ℤ) (h : Fin 4096 → Fin 128 → ℝ) (w : Fin 128 → Fin 128 → ℝ) (b : Fin 128 → ℝ)
    (j : Fin 4096) (k : Fin 128) : ℝ :=
  max (dinv a j * (∑ i, ahat a i j * (dinv a i * ∑ l, h i l * w l k)) + b k) 0

/-- The block: two layers. -/
def gcn (a : Fin 4096 → Fin 4096 → ℤ) (x : Fin 4096 → Fin 128 → ℝ) (w1 : Fin 128 → Fin 128 → ℝ) (b1 : Fin 128 → ℝ)
    (w2 : Fin 128 → Fin 128 → ℝ) (b2 : Fin 128 → ℝ) : Fin 4096 → Fin 128 → ℝ :=
  layer a (layer a x w1 b1) w2 b2

end Cert.Spec

end
-- ==== Proof.Algebra.lean ====
/-
  The extended-real forms the two programs compute, each equal to the real specification's coercion.

  Every quantity here is a finite real (integers, and floats the precondition makes finite), so sums and products of
  coercions are coercions, and the one law that joins the programs — a factor d_j pulled out of the sum over i, with
  the remaining factors regrouped — is the distributive law of the reals.
-/
import proofs.«137975_g29910152249793_cont_9to1_356_2_alg».proof.Proof.Spec
import Idealize.ShloMosaic.PureOps.Ideal.Laws

noncomputable section

namespace Cert.Spec

open Idealize.ShloMosaic

variable (a : Fin 4096 → Fin 4096 → ℤ)

/-- A finite sum of coercions is the coercion of the sum. -/
theorem coe_sum {ι : Type} (s : Finset ι) (f : ι → ℝ) : ((∑ i ∈ s, f i : ℝ) : EReal) = ∑ i ∈ s, ((f i : ℝ) : EReal) := by
  classical
  induction s using Finset.induction_on with
  | empty => rw [Finset.sum_empty, Finset.sum_empty, EReal.coe_zero]
  | insert x s hx ih => rw [Finset.sum_insert hx, Finset.sum_insert hx, EReal.coe_add, ih]

/-- The coercion is monotone, so it carries the larger of two reals to the larger of their images. -/
theorem coe_max (x y : ℝ) : ((max x y : ℝ) : EReal) = max (x : EReal) (y : EReal) :=
  EReal.coe_strictMono.monotone.map_max

/-- Row index 512 t + r, for a block t of eight and a place r of 512, runs once over the 4096 rows:
    the inverse takes quotient and remainder by 512. -/
def blockEquiv : Fin 8 × Fin 512 ≃ Fin 4096 where
  toFun p := ⟨512 * p.1.val + p.2.val, by omega⟩
  invFun i := (⟨i.val / 512, by omega⟩, ⟨i.val % 512, by omega⟩)
  left_inv p := by
    rcases p with ⟨t, r⟩
    apply Prod.ext <;> apply Fin.ext <;> simp only <;> omega
  right_inv i := by
    apply Fin.ext
    simp only
    omega

/-- A sum over 4096 rows taken as eight blocks of 512. -/
theorem sum_blocks (f : Fin 4096 → EReal) :
    ∑ t : Fin 8, ∑ r : Fin 512, f ⟨512 * t.val + r.val, by omega⟩ = ∑ i, f i := by
  rw [← Fintype.sum_prod_type' (f := fun (t : Fin 8) (r : Fin 512) => f ⟨512 * t.val + r.val, by omega⟩)]
  exact Fintype.sum_equiv blockEquiv _ _ (fun _ => rfl)

/-- The degree, summed in the extended reals. -/
theorem deg_coe (j : Fin 4096) : (∑ i, ((ahat a i j : ℝ) : EReal)) = ((deg a j : ℝ) : EReal) := by
  rw [deg, coe_sum]

/-- The scale as the kernel computes it: the inverse square root selected where the degree is positive. -/
theorem dinv_rsqrt_form (j : Fin 4096) :
    (if (0 : EReal) < ((deg a j : ℝ) : EReal) then Ideal.rsqrt ((deg a j : ℝ) : EReal) else 0) = ((dinv a j : ℝ) : EReal) := by
  unfold dinv
  by_cases hd : 0 < deg a j
  · -- a positive degree is neither negative nor zero, so the inverse square root is the real one
    rw [if_pos (EReal.coe_pos.mpr hd), if_pos hd, Ideal.rsqrt_coe, if_neg (not_lt.mpr hd.le), if_neg hd.ne']
  · rw [if_neg (fun h => hd (EReal.coe_pos.mp h)), if_neg hd, EReal.coe_zero]

/-- The scale as the reference computes it: one over the square root selected where the degree is positive. -/
theorem dinv_div_sqrt_form (j : Fin 4096) :
    (if (0 : EReal) < ((deg a j : ℝ) : EReal) then Ideal.div 1 (Ideal.sqrt ((deg a j : ℝ) : EReal)) else 0)
      = ((dinv a j : ℝ) : EReal) := by
  unfold dinv
  by_cases hd : 0 < deg a j
  · -- the square root of a positive degree is a nonzero real, so dividing by it is multiplying by its inverse
    have hs : Real.sqrt (deg a j) ≠ 0 := (Real.sqrt_pos.mpr hd).ne'
    rw [if_pos (EReal.coe_pos.mpr hd), if_pos hd, Ideal.sqrt_coe, if_neg (not_lt.mpr hd.le), Ideal.div_coe hs, one_mul,
      one_div]
  · rw [if_neg (fun h => hd (EReal.coe_pos.mp h)), if_neg hd, EReal.coe_zero]

/-- One entry of the product h w: the extended-real sum of products is the coercion of the real one. -/
theorem coe_dot (h : Fin 4096 → Fin 128 → ℝ) (w : Fin 128 → Fin 128 → ℝ) (i : Fin 4096) (k : Fin 128) :
    (∑ l, ((h i l : ℝ) : EReal) * ((w l k : ℝ) : EReal)) = ((∑ l, h i l * w l k : ℝ) : EReal) := by
  rw [coe_sum]
  exact Finset.sum_congr rfl (fun l _ => (EReal.coe_mul _ _).symm)

/-- The layer as the kernel computes it: rows scaled before the sum over i, the column scale applied after it. -/
theorem layer_kernel_form (h : Fin 4096 → Fin 128 → ℝ) (w : Fin 128 → Fin 128 → ℝ) (b : Fin 128 → ℝ) (j : Fin 4096) (k : Fin 128) :
    max ((∑ i, ((ahat a i j : ℝ) : EReal) * (((dinv a i : ℝ) : EReal) * ∑ l, ((h i l : ℝ) : EReal) * ((w l k : ℝ) : EReal)))
        * ((dinv a j : ℝ) : EReal) + ((b k : ℝ) : EReal)) 0
      = ((layer a h w b j k : ℝ) : EReal) := by
  -- the sum over i is a sum of real products
  have hsum : (∑ i, ((ahat a i j : ℝ) : EReal) * (((dinv a i : ℝ) : EReal) * ∑ l, ((h i l : ℝ) : EReal) * ((w l k : ℝ) : EReal)))
      = ((∑ i, ahat a i j * (dinv a i * ∑ l, h i l * w l k) : ℝ) : EReal) := by
    rw [coe_sum]
    refine Finset.sum_congr rfl (fun i _ => ?_)
    rw [coe_dot, ← EReal.coe_mul, ← EReal.coe_mul]
  -- what is left differs from the specification only in the side on which d_j multiplies
  rw [hsum, ← EReal.coe_mul, ← EReal.coe_add, ← EReal.coe_zero, ← coe_max, layer, mul_comm (dinv a j)]

/-- The layer as the reference computes it: the matrix normalised entry by entry, then the product. -/
theorem layer_reference_form (h : Fin 4096 → Fin 128 → ℝ) (w : Fin 128 → Fin 128 → ℝ) (b : Fin 128 → ℝ) (j : Fin 4096) (k : Fin 128) :
    max ((∑ i, ((((dinv a i : ℝ) : EReal) * ((ahat a i j : ℝ) : EReal)) * ((dinv a j : ℝ) : EReal))
        * ∑ l, ((h i l : ℝ) : EReal) * ((w l k : ℝ) : EReal)) + ((b k : ℝ) : EReal)) 0
      = ((layer a h w b j k : ℝ) : EReal) := by
  -- the sum over i is a sum of real products
  have hsum : (∑ i, ((((dinv a i : ℝ) : EReal) * ((ahat a i j : ℝ) : EReal)) * ((dinv a j : ℝ) : EReal))
        * ∑ l, ((h i l : ℝ) : EReal) * ((w l k : ℝ) : EReal))
      = ((∑ i, ((dinv a i * ahat a i j) * dinv a j) * ∑ l, h i l * w l k : ℝ) : EReal) := by
    rw [coe_sum]
    refine Finset.sum_congr rfl (fun i _ => ?_)
    rw [coe_dot, ← EReal.coe_mul, ← EReal.coe_mul, ← EReal.coe_mul]
  -- over the reals the factor d_j comes out of the sum and the rest regroups
  have hreal : (∑ i, ((dinv a i * ahat a i j) * dinv a j) * ∑ l, h i l * w l k)
      = dinv a j * ∑ i, ahat a i j * (dinv a i * ∑ l, h i l * w l k) := by
    rw [Finset.mul_sum]
    exact Finset.sum_congr rfl (fun i _ => by ring)
  rw [hsum, hreal, ← EReal.coe_add, ← EReal.coe_zero, ← coe_max, layer]

end Cert.Spec

end
-- ==== Proof.KernelIdeal.R0Value.lean ====
/-
  Region 0's results at the exact instance, entry by entry: the float copy of the adjacency with its diagonal forced
  to one, and the column of inverse square-root degrees, as the real specification's values.
-/
import proofs.«137975_g29910152249793_cont_9to1_356_2_alg».proof.Proof.KernelIdeal.R0Data
import proofs.«137975_g29910152249793_cont_9to1_356_2_alg».proof.Proof.Spec
import proofs.«137975_g29910152249793_cont_9to1_356_2_alg».proof.Proof.Algebra
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

-- What the TensorCore's buffers hold when the region is entered, at the exact instance.
variable (V : (c : Dev nD) → (b : Ref sig .tc) → Buf (Elt Ideal) ((c : Thread nD τ).loc b))

/-- The adjacency's entries as integers. -/
def adjZ0 (c : Dev nD) (i j : Fin 4096) : ℤ := ((V c (Pipeline.arrRef spec0 0) : Vec Ideal S4096x4096 .i32) (ix2 i j)).toInt

/-! ## The payloads at an entry, over the extended reals -/

/-- The sixteen-bit word of one. -/
theorem ofBits_one_bf16 : Ideal.ofBits .bf16 0x3F80#16 = 1 := by
  simp [Ideal.ofBits, Ideal.ieee, -EReal.coe_mul]; norm_num

/-- Row p of block t is on the diagonal at column q exactly when 512 t + p = q: all three numbers are below 4096, so
    the 32-bit sum and product do not wrap. -/
theorem diag_word (t p q : ℕ) (ht : t < 8) (hp : p < 512) (hq : q < 4096) :
    IntOp.cmpi .eq (IntOp.addi (BitVec.ofNat 32 p) (Scalar.muli (BitVec.ofNat 32 t) 512#32)) (BitVec.ofNat 32 q)
      = if 512 * t + p = q then 1#1 else 0#1 := by
  have key : (BitVec.ofNat 32 p + BitVec.ofNat 32 t * 512#32 = BitVec.ofNat 32 q) ↔ 512 * t + p = q := by
    rw [← BitVec.toNat_inj]
    simp only [BitVec.toNat_add, BitVec.toNat_mul, BitVec.toNat_ofNat]
    omega
  show BitVec.ofBool (BitVec.ofNat 32 p + BitVec.ofNat 32 t * 512#32 == BitVec.ofNat 32 q) = _
  by_cases h : 512 * t + p = q
  · rw [if_pos h, beq_iff_eq.mpr (key.mpr h)]; rfl
  · rw [if_neg h, beq_eq_false_iff_ne.mpr (fun e => h (key.mp e))]; rfl

/-- The float copy of a block with its diagonal forced: one on the diagonal, the integer entry elsewhere. -/
theorem pay1_apply (t : grid0.Coords) (x : Vec Ideal S512x4096 .i32) (p : Fin 512) (q : Fin 4096) :
    k0_pay1 (F := Ideal) t x (ix2 p q)
      = if 512 * (t 0).val + p.val = q.val then (1 : EReal) else (((x (ix2 p q)).toInt : ℝ) : EReal) := by
  have ht : (t 0).val < 8 := (t 0).isLt
  unfold k0_pay1
  show FloatOps.sitofp (F := Ideal) .bf16 (Scalar.select (IntOp.cmpi .eq (IntOp.addi (iota .tc S512x4096 32 [0] iota_S512x4096_d0_w32 (ix2 p q)) (Scalar.muli (BitVec.ofNat 32 (t 0).val) 512#32)) (iota .tc S512x4096 32 [1] iota_S512x4096_d1_w32 (ix2 p q))) 1#32 (x (ix2 p q))) = _
  rw [iota_single_apply, iota_single_apply]
  show FloatOps.sitofp (F := Ideal) .bf16 (Scalar.select (IntOp.cmpi .eq (IntOp.addi (BitVec.ofNat 32 p.val) (Scalar.muli (BitVec.ofNat 32 (t 0).val) 512#32)) (BitVec.ofNat 32 q.val)) 1#32 (x (ix2 p q))) = _
  rw [diag_word _ _ _ ht p.isLt q.isLt]
  by_cases h : 512 * (t 0).val + p.val = q.val
  · rw [if_pos h, if_pos h, select_one]
    show (((1#32 : BitVec 32).toInt : ℝ) : EReal) = 1
    rw [show (1#32 : BitVec 32).toInt = 1 from by decide, Int.cast_one, EReal.coe_one]
  · rw [if_neg h, if_neg h, select_zero]
    rfl

/-! ## The block's column sums -/

/-- The product contracts the rows of both operands: its left operand is read at the contracted row on axis 0, -/
theorem lhs_colsum_0 (i : S4096x1.Idx) (q : dot_S512x4096_S512x1_S4096x1_0_0_1_1_n_n.contr.Idx) :
    (dot_S512x4096_S512x1_S4096x1_0_0_1_1_n_n.lhsIdx i q 0).val = (q ⟨0, by decide⟩).val :=
  dot_S512x4096_S512x1_S4096x1_0_0_1_1_n_n.lhsIdx_val_of_single rfl i q
/-- and at the result's row coordinate, the block's column, on axis 1. -/
theorem lhs_colsum_1 (i : S4096x1.Idx) (q : dot_S512x4096_S512x1_S4096x1_0_0_1_1_n_n.contr.Idx) :
    (dot_S512x4096_S512x1_S4096x1_0_0_1_1_n_n.lhsIdx i q 1).val = (i 0).val := by
  unfold DotDims.lhsIdx
  rw [dif_neg (show ¬(1 : Fin S512x4096.rank) ∈ dot_S512x4096_S512x1_S4096x1_0_0_1_1_n_n.lhsBatch by decide), dif_pos (show (1 : Fin S512x4096.rank) ∈ dot_S512x4096_S512x1_S4096x1_0_0_1_1_n_n.lhsNonContracting by decide)]
  rfl

/-- The product of a block, rows contracted, with a column of ones, into a zero accumulator: the block's column sums. -/
theorem colsum_apply (y : FVec Ideal S512x4096 .bf16) (j : Fin 4096) :
    matmul dot_S512x4096_S512x1_S4096x1_0_0_1_1_n_n none y (broadcast S512x1 (Scalar.ofBits (F := Ideal) .bf16 0x3F80#16))
        (constant (F := Ideal) S4096x1 .f32 0x00000000#32) (ix2 j 0)
      = ∑ r : Fin 512, y (ix2 r j) := by
  show FloatOps.matmul dot_S512x4096_S512x1_S4096x1_0_0_1_1_n_n none y (broadcast S512x1 (Scalar.ofBits (F := Ideal) .bf16 0x3F80#16))
        (constant (F := Ideal) S4096x1 .f32 0x00000000#32) (ix2 j 0) = _
  rw [Ideal.matmul_constant_zero_apply, ← Equiv.sum_comp (contrEquiv1 dot_S512x4096_S512x1_S4096x1_0_0_1_1_n_n 512 rfl rfl).symm]
  refine Finset.sum_congr rfl fun r _ => ?_
  have hk := contrEquiv1_symm_val dot_S512x4096_S512x1_S4096x1_0_0_1_1_n_n 512 rfl rfl r
  have el : dot_S512x4096_S512x1_S4096x1_0_0_1_1_n_n.lhsIdx (ix2 j 0) ((contrEquiv1 dot_S512x4096_S512x1_S4096x1_0_0_1_1_n_n 512 rfl rfl).symm r) = ix2 r j := funext fun a => Fin.ext (by
    match a with
    | ⟨0, _⟩ => exact (lhs_colsum_0 _ _).trans hk
    | ⟨1, _⟩ => exact lhs_colsum_1 _ _)
  rw [el]
  show y (ix2 r j) * Ideal.ofBits .bf16 0x3F80#16 = _
  rw [ofBits_one_bf16, mul_one]

theorem pay2_apply (t : grid0.Coords) (x : Vec Ideal S512x4096 .i32) (j : Fin 4096) :
    k0_pay2 (F := Ideal) t x (ix2 j 0) = ∑ r : Fin 512, k0_pay1 (F := Ideal) t x (ix2 r j) := by
  unfold k0_pay2
  exact colsum_apply (k0_pay1 (F := Ideal) t x) j

theorem pay3_apply (t : grid0.Coords) (x : Vec Ideal S512x4096 .i32) (j : Fin 4096) :
    k0_pay3 (F := Ideal) t x (ix2 j 0) = ∑ r : Fin 512, k0_pay1 (F := Ideal) t x (ix2 r j) := by
  unfold k0_pay3
  rw [shapeCast_self]
  exact pay2_apply t x j

theorem pay4_apply (t : grid0.Coords) (x : Vec Ideal S512x4096 .i32) (s : Vec Ideal S4096x1 .f32) (j : Fin 4096) :
    k0_pay4 (F := Ideal) t x s (ix2 j 0) = s (ix2 j 0) + ∑ r : Fin 512, k0_pay1 (F := Ideal) t x (ix2 r j) := by
  unfold k0_pay4
  rw [shapeCast_self, addf_apply, pay2_apply]

/-- The scale: the inverse square root where the sum is positive, zero elsewhere. -/
theorem pay5_apply (s : Vec Ideal S4096x1 .f32) (j : Fin 4096) :
    k0_pay5 (F := Ideal) s (ix2 j 0) = if (0 : EReal) < s (ix2 j 0) then Ideal.rsqrt (s (ix2 j 0)) else 0 := by
  unfold k0_pay5
  show Scalar.select (Ideal.cmp .ogt (s (ix2 j 0)) (Ideal.ofBits .f32 0x00000000#32)) (Ideal.rsqrt (s (ix2 j 0))) (Ideal.ofBits .f32 0x00000000#32) = _
  rw [Ideal.ofBits_zero_f32]
  by_cases h : (0 : EReal) < s (ix2 j 0)
  · rw [if_pos h]
    show (if BitVec.ofBool (decide ((0 : EReal) < s (ix2 j 0))) = 1 then _ else _) = _
    rw [decide_eq_true h]; rfl
  · rw [if_neg h]
    show (if BitVec.ofBool (decide ((0 : EReal) < s (ix2 j 0))) = 1 then _ else _) = _
    rw [decide_eq_false h]; rfl

/-! ## The blocks as rows of the arrays -/

/-- The printed index maps, decided over the grid: windows 0 and 1 sit at row block t and column block 0, window 2 at
    block (0, 0), and the grid's one coordinate is the point's number. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ ((grid0.coords t) 0).val = t.val :=
  (by decide +kernel : ∀ t : Fin grid0.N, _)

theorem lt8 (t : Fin cfg0.N) : t.val < 8 := by
  have h : cfg0.N = 8 := N_0
  have := t.isLt
  omega

/-- Row r of the adjacency's block t is row 512 t + r of the matrix. -/
theorem adjBlk_apply (c : Dev nD) (t : Fin cfg0.N) (r : Fin 512) (q : Fin 4096) (i : Fin 4096) (hi : i.val = 512 * t.val + r.val) :
    (adjBlk0 V c t : Vec Ideal S512x4096 .i32) (ix2 r q) = (V c (Pipeline.arrRef spec0 0) : Vec Ideal S4096x4096 .i32) (ix2 i q) := by
  obtain ⟨e0, e1, -⟩ := idx_facts0 t
  show (iblk0 V c 0 t : Vec Ideal S512x4096 .i32) (ix2 r q) = _
  unfold iblk0
  rw [View.read_apply]
  show (V c (Pipeline.arrRef spec0 0) : Vec Ideal S4096x4096 .i32) (((cfg0.win 0).blk t).view.emb (ix2 r q)) = _
  congr 1
  funext a
  apply Fin.ext
  match a with
  | ⟨0, _⟩ => show win0_0.index t (0 : Fin 2) * 512 + 1 * r.val = i.val; omega
  | ⟨1, _⟩ => show win0_0.index t (1 : Fin 2) * 4096 + 1 * q.val = q.val; omega

/-- The float copy of block t with its diagonal forced is rows 512 t .. 512 t + 511 of the specification's matrix. -/
theorem pay1_blk (c : Dev nD) (t : Fin cfg0.N) (r : Fin 512) (q : Fin 4096) (i : Fin 4096) (hi : i.val = 512 * t.val + r.val) :
    k0_pay1 (F := Ideal) (grid0.coords t) (adjBlk0 V c t) (ix2 r q) = ((Cert.Spec.ahat (adjZ0 V c) i q : ℝ) : EReal) := by
  refine (pay1_apply (grid0.coords t) (adjBlk0 V c t) r q).trans ?_
  obtain ⟨-, -, -, -, -, -, ec⟩ := idx_facts0 t
  rw [adjBlk_apply V c t r q i hi]
  unfold Cert.Spec.ahat adjZ0
  by_cases h : i = q
  · have hd : 512 * ((grid0.coords t) 0).val + r.val = q.val := by rw [ec, ← hi, h]
    rw [if_pos hd, if_pos h, EReal.coe_one]
  · have hd : ¬ 512 * ((grid0.coords t) 0).val + r.val = q.val := fun e => h (Fin.ext (by omega))
    rw [if_neg hd, if_neg h]

/-! ## The carried column sums, in closed form -/

/-- Block s's share of column j's degree: the sum of the specification's entries over the block's 512 rows (zero past
    the eighth block, which no point reaches). -/
def blkSum (c : Dev nD) (j : Fin 4096) (s : ℕ) : EReal :=
  if hs : s < 8 then ∑ r : Fin 512, ((Cert.Spec.ahat (adjZ0 V c) ⟨512 * s + r.val, by omega⟩ j : ℝ) : EReal) else 0

/-- The column sums of block t's float copy are its share. -/
theorem colsum_blk (c : Dev nD) (t : Fin cfg0.N) (j : Fin 4096) :
    ∑ r : Fin 512, k0_pay1 (F := Ideal) (grid0.coords t) (adjBlk0 V c t) (ix2 r j) = blkSum V c j t.val := by
  have ht := lt8 t
  unfold blkSum
  rw [dif_pos ht]
  exact Finset.sum_congr rfl fun r _ => pay1_blk V c t r j _ rfl

/-- After point n the scratch column holds the shares of blocks 0 .. n, added up. -/
theorem degAcc_apply (c : Dev nD) (j : Fin 4096) : ∀ (n : ℕ) (hn : n < cfg0.N),
    degAcc0 V c n hn (ix2 j 0) = ∑ s ∈ Finset.range (n + 1), blkSum V c j s
  | 0, hn => by
    rw [degAccZero0]
    refine (pay3_apply _ _ j).trans ?_
    rw [Finset.sum_range_one]
    exact colsum_blk V c ⟨0, hn⟩ j
  | n + 1, hn => by
    rw [degAccSucc0]
    refine (pay4_apply _ _ _ j).trans ?_
    rw [degAcc_apply c j n (Nat.lt_of_succ_lt hn), Finset.sum_range_succ _ (n + 1)]
    exact congrArg _ (colsum_blk V c ⟨n + 1, hn⟩ j)

/-- After the last point it holds the degree. -/
theorem degAcc_last (c : Dev nD) (j : Fin 4096) (n : ℕ) (hn : n < cfg0.N) (h7 : n = 7) :
    degAcc0 V c n hn (ix2 j 0) = ((Cert.Spec.deg (adjZ0 V c) j : ℝ) : EReal) := by
  subst h7
  rw [degAcc_apply V c j 7 hn, Finset.sum_range, ← Cert.Spec.deg_coe, ← Cert.Spec.sum_blocks]
  refine Finset.sum_congr rfl fun s _ => ?_
  unfold blkSum
  rw [dif_pos s.isLt]

/-! ## Result 0: every point writes its block back, and the blocks tile the array -/

/-- The array result 0 ends holding: the specification's matrix. -/
def G1 (c : Dev nD) : Vec Ideal S4096x4096 .bf16 :=
  fun i => ((Cert.Spec.ahat (adjZ0 V c) ⟨(i 0).val, idx2_lt0 i⟩ ⟨(i 1).val, idx2_lt1 i⟩ : ℝ) : EReal)

/-- What point t writes back is block t of it. -/
theorem flushed1_eq (c : Dev nD) (t : Fin cfg0.N) :
    (dat0 V c).flushed 1 t = ((cfg0.win 1).blk t).view.read (Elt Ideal) (G1 V c) := by
  show (cfg0.win 1).cut (grid0.coords t) ((dat0 V c).after 1 t) = _
  rw [after0_1]
  obtain ⟨-, -, e0, e1, -⟩ := idx_facts0 t
  have ht := lt8 t
  funext y
  obtain ⟨p, q, rfl⟩ : ∃ (p : Fin 512) (q : Fin 4096), y = ix2 p q := ⟨y 0, y 1, eq_ix2 y⟩
  rw [View.read_apply]
  show k0_pay1 (F := Ideal) (grid0.coords t) (adjBlk0 V c t) (ix2 p q) = G1 V c (((cfg0.win 1).blk t).view.emb (ix2 p q))
  refine (pay1_blk V c t p q ⟨512 * t.val + p.val, by omega⟩ rfl).trans ?_
  unfold G1
  have h0 : ((((cfg0.win 1).blk t).view.emb (ix2 p q)) 0).val = 512 * t.val + p.val := by
    show win0_1.index t (0 : Fin 2) * 512 + 1 * p.val = _; omega
  have h1 : ((((cfg0.win 1).blk t).view.emb (ix2 p q)) 1).val = q.val := by
    show win0_1.index t (1 : Fin 2) * 4096 + 1 * q.val = _; omega
  show _ = ((Cert.Spec.ahat (adjZ0 V c) ⟨((((cfg0.win 1).blk t).view.emb (ix2 p q)) 0).val, _⟩ ⟨((((cfg0.win 1).blk t).view.emb (ix2 p q)) 1).val, _⟩ : ℝ) : EReal)
  congr 2 <;> exact Fin.ext (by first | exact h0.symm | exact h1.symm)

/-- An index of the array is in point t's block iff each coordinate is in the block's range on its axis. -/
theorem mem_blk1 (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_call0_v0_0).slice (win0_1.rect t)).set ↔ _
  rw [View.set_slice_whole, Rect.mem_set_unit]
  exact Iff.rfl

/-- Row i lies in block i / 512. -/
theorem cover1 (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 8 := N_0
  obtain ⟨t, ht⟩ : ∃ t : Fin cfg0.N, t.val = (i 0).val / 512 := ⟨⟨(i 0).val / 512, by omega⟩, rfl⟩
  obtain ⟨-, -, e0, e1, -⟩ := idx_facts0 t
  refine ⟨t, flush0_1 t, ?_⟩
  rw [mem_blk1]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- So result 0 ends holding the specification's matrix. -/
theorem final1 (c : Dev nD) : ((dat0 V c).arrAt 1 cfg0.N : Vec Ideal S4096x4096 .bf16) = G1 V c :=
  (dat0 V c).arrAt_eq_of_cover 1 (G1 V c) (fun t _ => flushed1_eq V c t) cover1

/-! ## Result 1: the last point alone writes back, the whole column -/

/-- The array result 1 ends holding: the specification's scales. -/
def G2 (c : Dev nD) : Vec Ideal S4096x1 .f32 :=
  fun i => ((Cert.Spec.dinv (adjZ0 V c) ⟨(i 0).val, idx2_lt0 i⟩ : ℝ) : EReal)

/-- What the last point writes back is the whole of it. -/
theorem flushed2_eq (c : Dev nD) (t : Fin cfg0.N) (hf : (cfg0.win 2).flush t = true) :
    (dat0 V c).flushed 2 t = ((cfg0.win 2).blk t).view.read (Elt Ideal) (G2 V c) := by
  have ht := lt8 t
  have h7 : t.val = 7 := by have := (flush0_2 t).mp hf; omega
  show (cfg0.win 2).cut (grid0.coords t) ((dat0 V c).after 2 t) = _
  rw [after0_2]
  obtain ⟨-, -, -, -, e0, e1, -⟩ := idx_facts0 t
  funext y
  obtain ⟨j, k, rfl⟩ : ∃ (j : Fin 4096) (k : Fin 1), y = ix2 j k := ⟨y 0, y 1, eq_ix2 y⟩
  obtain rfl : k = 0 := Subsingleton.elim _ _
  rw [View.read_apply]
  show k0_pay5 (F := Ideal) (degAcc0 V c t.val t.isLt) (ix2 j 0) = G2 V c (((cfg0.win 2).blk t).view.emb (ix2 j 0))
  refine (pay5_apply _ j).trans ?_
  rw [degAcc_last V c j t.val t.isLt h7, Cert.Spec.dinv_rsqrt_form]
  unfold G2
  have h0 : ((((cfg0.win 2).blk t).view.emb (ix2 j (0 : Fin 1))) 0).val = j.val := by
    show win0_2.index t (0 : Fin 2) * 4096 + 1 * j.val = _; omega
  show _ = ((Cert.Spec.dinv (adjZ0 V c) ⟨((((cfg0.win 2).blk t).view.emb (ix2 j (0 : Fin 1))) 0).val, _⟩ : ℝ) : EReal)
  congr 2
  exact Fin.ext h0.symm

theorem mem_blk2 (t : Fin cfg0.N) (i : S4096x1.Idx) :
    i ∈ ((cfg0.win 2).blk t).view.set ↔ ∀ a : Fin 2, win0_2.index t a * S4096x1.size a ≤ (i a).val ∧ (i a).val < win0_2.index t a * S4096x1.size a + S4096x1.size a := by
  show i ∈ ((View.whole main_call0_v0_1).slice (win0_2.rect t)).set ↔ _
  rw [View.set_slice_whole, Rect.mem_set_unit]
  exact Iff.rfl

/-- The last point's block is the whole column. -/
theorem cover2 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 8 := N_0
  obtain ⟨t, ht⟩ : ∃ t : Fin cfg0.N, t.val = 7 := ⟨⟨7, by omega⟩, rfl⟩
  obtain ⟨-, -, -, -, e0, e1, -⟩ := idx_facts0 t
  refine ⟨t, (flush0_2 t).mpr (by omega), ?_⟩
  rw [mem_blk2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1 ≤ (i 1).val ∧ (i 1).val < win0_2.index t (1 : Fin 2) * 1 + 1; omega

/-- So result 1 ends holding the specification's scales. -/
theorem final2 (c : Dev nD) : ((dat0 V c).arrAt 2 cfg0.N : Vec Ideal S4096x1 .f32) = G2 V c :=
  (dat0 V c).arrAt_eq_of_cover 2 (G2 V c) (flushed2_eq V c) cover2

/-- After the region, result 0 holds the adjacency with its diagonal forced to one. -/
theorem ahat_final0 (c : Dev nD) (i j : Fin 4096) :
    ((dat0 V c).arrAt 1 cfg0.N : Vec Ideal S4096x4096 .bf16) (ix2 i j) = ((Cert.Spec.ahat (adjZ0 V c) i j : ℝ) : EReal) :=
  congrFun (final1 V c) (ix2 i j)

/-- After the region, result 1 holds each vertex's scale. -/
theorem dinv_final0 (c : Dev nD) (j : Fin 4096) :
    ((dat0 V c).arrAt 2 cfg0.N : Vec Ideal S4096x1 .f32) (ix2 j 0) = ((Cert.Spec.dinv (adjZ0 V c) j : ℝ) : EReal) :=
  congrFun (final2 V c) (ix2 j 0)

end Cert.KernelIdeal.Hand

end
-- ==== Proof.KernelIdeal.R1V_Entry.lean ====
/-
  Two matrix products and a column broadcast read at an entry, over the extended reals, for matrices of any size.

  A product contracting the rows of both operands: (Lᵀ X)(m, n) = Σ_r L(r, m) · X(r, n). A plain product:
  (L X)(r, c) = Σ_k L(r, k) · X(k, c). Each is taken into a zero accumulator. A column of height a repeated along b
  columns reads, at (p, c), the column's entry p.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Hand.EntryForms

open Idealize.ShloMosaic Idealize.ShloMosaic.ValueIdx

/-- A column [a, 1] broadcast to [a, b] reads, at (p, c), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product contracting the rows of both operands (contracting axes 0 and 0, free axes 1 and 1, no batch axis), into a
    zero accumulator: entry (m, n) is the sum over the rows r of L(r, m) · X(r, n). -/
theorem matmul_rows_apply {R M N : ℕ} {φ₁ φ₂ : FTy}
    (D : DotDims ⟨2, ![R, M]⟩ ⟨2, ![R, N]⟩ ⟨2, ![M, N]⟩)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (L : FVec Ideal ⟨2, ![R, M]⟩ φ₁) (X : FVec Ideal ⟨2, ![R, N]⟩ φ₂)
    (m : Fin M) (n : Fin N) :
    matmul D prec L X (constant (F := Ideal) ⟨2, ![M, N]⟩ .f32 0x00000000#32) (ix2 m n)
      = ∑ r : Fin R, L (ix2 r m) * X (ix2 r n) := by
  obtain ⟨lc, rc, ln, rn, lb, rb, wf⟩ := D
  dsimp only at hlc hrc hln hrn hlb hrb
  subst hlc hrc hln hrn hlb hrb
  show FloatOps.matmul (DotDims.mk [0] [0] [1] [1] [] [] wf) prec L X (constant (F := Ideal) ⟨2, ![M, N]⟩ .f32 0x00000000#32) (ix2 m n) = _
  rw [Ideal.matmul_constant_zero_apply, ← Equiv.sum_comp (contrEquiv1 (DotDims.mk [0] [0] [1] [1] [] [] wf) R rfl rfl).symm]
  refine Finset.sum_congr rfl fun r _ => ?_
  have hk := contrEquiv1_symm_val (DotDims.mk [0] [0] [1] [1] [] [] wf) R rfl rfl r
  have lfree : ∀ q, ((DotDims.mk [0] [0] [1] [1] [] [] wf).lhsIdx (ix2 m n) q 1).val = m.val := fun q => by
    unfold DotDims.lhsIdx
    rw [dif_neg (show ¬(1 : Fin 2) ∈ ([] : List (Fin 2)) by decide), dif_pos (show (1 : Fin 2) ∈ ([1] : List (Fin 2)) by decide)]
    rfl
  have rfree : ∀ q, ((DotDims.mk [0] [0] [1] [1] [] [] wf).rhsIdx (ix2 m n) q 1).val = n.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [0] [0] [1] [1] [] [] wf).lhsIdx (ix2 m n) ((contrEquiv1 (DotDims.mk [0] [0] [1] [1] [] [] wf) R rfl rfl).symm r)
      = ix2 r m := funext fun a => Fin.ext (by
    match a with
    | ⟨0, _⟩ => exact ((DotDims.mk [0] [0] [1] [1] [] [] wf).lhsIdx_val_of_single rfl _ _).trans hk
    | ⟨1, _⟩ => exact lfree _)
  have er : (DotDims.mk [0] [0] [1] [1] [] [] wf).rhsIdx (ix2 m n) ((contrEquiv1 (DotDims.mk [0] [0] [1] [1] [] [] wf) R rfl rfl).symm r)
      = ix2 r n := funext fun a => Fin.ext (by
    match a with
    | ⟨0, _⟩ => exact ((DotDims.mk [0] [0] [1] [1] [] [] wf).rhsIdx_val_of_single rfl _ _).trans hk
    | ⟨1, _⟩ => exact rfree _)
  rw [el, er]

/-- The plain product [M, K] × [K, N] (the left operand contracted on its columns, the right on its rows, no batch axis), into
    a zero accumulator: entry (r, c) is the sum over k of L(r, k) · X(k, c). -/
theorem matmul_plain_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (L : FVec Ideal ⟨2, ![M, K]⟩ φ₁) (X : FVec Ideal ⟨2, ![K, N]⟩ φ₂)
    (r : Fin M) (c : Fin N) :
    matmul D prec L X (constant (F := Ideal) ⟨2, ![M, N]⟩ .f32 0x00000000#32) (ix2 r c)
      = ∑ k : Fin K, L (ix2 r k) * X (ix2 k c) := by
  obtain ⟨lc, rc, ln, rn, lb, rb, wf⟩ := D
  dsimp only at hlc hrc hln hrn hlb hrb
  subst hlc hrc hln hrn hlb hrb
  show FloatOps.matmul (DotDims.mk [1] [0] [0] [1] [] [] wf) prec L X (constant (F := Ideal) ⟨2, ![M, N]⟩ .f32 0x00000000#32) (ix2 r c) = _
  rw [Ideal.matmul_constant_zero_apply, ← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have lfree : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have rfree : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact lfree _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact rfree _)
  rw [el, er]

end Cert.Hand.EntryForms

end
-- ==== Proof.KernelIdeal.R1Value.lean ====
/-
  Region 1's result at the exact instance, entry by entry: one layer of the real specification, when the region's
  input arrays hold real numbers.
-/
import proofs.«137975_g29910152249793_cont_9to1_356_2_alg».proof.Proof.KernelIdeal.R1Data
import proofs.«137975_g29910152249793_cont_9to1_356_2_alg».proof.Proof.Spec
import proofs.«137975_g29910152249793_cont_9to1_356_2_alg».proof.Proof.Algebra
import proofs.«137975_g29910152249793_cont_9to1_356_2_alg».proof.Proof.KernelIdeal.R1V_Entry
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

-- What the TensorCore's buffers hold when the region is entered, at the exact instance.
variable (V : (c : Dev nD) → (b : Ref sig .tc) → Buf (Elt Ideal) ((c : Thread nD τ).loc b))

/-- The windows' block indices over the grid: windows 0 to 3 and 5 sit at block (0, 0) at every point, window 4 at block
    (t, 0); the grid's one coordinate at point t is t; the result is written back at the last point only. -/
theorem idxFacts1 : ∀ t : Fin cfg1.N,
    (cfg1.win 0).index t (0 : Fin 2) = 0 ∧ (cfg1.win 0).index t (1 : Fin 2) = 0
    ∧ (cfg1.win 1).index t (0 : Fin 2) = 0 ∧ (cfg1.win 1).index t (1 : Fin 2) = 0
    ∧ (cfg1.win 2).index t (0 : Fin 2) = 0 ∧ (cfg1.win 2).index t (1 : Fin 2) = 0
    ∧ (cfg1.win 3).index t (0 : Fin 2) = 0 ∧ (cfg1.win 3).index t (1 : Fin 2) = 0
    ∧ (cfg1.win 4).index t (0 : Fin 2) = t.val ∧ (cfg1.win 4).index t (1 : Fin 2) = 0
    ∧ (cfg1.win 5).index t (0 : Fin 2) = 0 ∧ (cfg1.win 5).index t (1 : Fin 2) = 0
    ∧ ((grid1.coords t) 0).val = t.val
    ∧ ((cfg1.win 5).flush t = true ↔ t.val = 7) :=
  (by decide +kernel : ∀ t : Fin grid1.N, _)

/-! ## The input blocks, entry by entry -/

/-- The feature block is the whole feature array. -/
theorem hRead1 (c : Dev nD) (t : Fin cfg1.N) (i : Fin 4096) (l : Fin 128) :
    hBlk1 V c t (ix2 i l) = (V c (Pipeline.arrRef spec1 0) : Vec Ideal S4096x128 .f32) (ix2 i l) := by
  obtain ⟨ea, eb, -⟩ := idxFacts1 t
  show V c (Pipeline.arrRef spec1 0) (((cfg1.win 0).blk t).view.emb (ix2 i l)) = _
  refine congrArg _ (funext fun a => Fin.ext ?_)
  match a with
  | ⟨0, _⟩ => show (cfg1.win 0).index t (0 : Fin 2) * 4096 + 1 * i.val = i.val; omega
  | ⟨1, _⟩ => show (cfg1.win 0).index t (1 : Fin 2) * 128 + 1 * l.val = l.val; omega

/-- The weight block is the whole weight array. -/
theorem wRead1 (c : Dev nD) (t : Fin cfg1.N) (l : Fin 128) (k : Fin 128) :
    wBlk1 V c t (ix2 l k) = (V c (Pipeline.arrRef spec1 1) : Vec Ideal S128x128 .f32) (ix2 l k) := by
  obtain ⟨-, -, ea, eb, -⟩ := idxFacts1 t
  show V c (Pipeline.arrRef spec1 1) (((cfg1.win 1).blk t).view.emb (ix2 l k)) = _
  refine congrArg _ (funext fun a => Fin.ext ?_)
  match a with
  | ⟨0, _⟩ => show (cfg1.win 1).index t (0 : Fin 2) * 128 + 1 * l.val = l.val; omega
  | ⟨1, _⟩ => show (cfg1.win 1).index t (1 : Fin 2) * 128 + 1 * k.val = k.val; omega

/-- The bias block is the whole bias row. -/
theorem bRead1 (c : Dev nD) (t : Fin cfg1.N) (k : Fin 128) :
    bBlk1 V c t (ix2 (0 : Fin 1) k) = (V c (Pipeline.arrRef spec1 2) : Vec Ideal S1x128 .f32) (ix2 (0 : Fin 1) k) := by
  obtain ⟨-, -, -, -, ea, eb, -⟩ := idxFacts1 t
  show V c (Pipeline.arrRef spec1 2) (((cfg1.win 2).blk t).view.emb (ix2 (0 : Fin 1) k)) = _
  refine congrArg _ (funext fun a => Fin.ext ?_)
  match a with
  | ⟨0, _⟩ => show (cfg1.win 2).index t (0 : Fin 2) * 1 + 1 * 0 = 0; omega
  | ⟨1, _⟩ => show (cfg1.win 2).index t (1 : Fin 2) * 128 + 1 * k.val = k.val; omega

/-- The scale block is the whole scale column. -/
theorem dRead1 (c : Dev nD) (t : Fin cfg1.N) (i : Fin 4096) :
    dBlk1 V c t (ix2 i (0 : Fin 1)) = (V c (Pipeline.arrRef spec1 3) : Vec Ideal S4096x1 .f32) (ix2 i (0 : Fin 1)) := by
  obtain ⟨-, -, -, -, -, -, ea, eb, -⟩ := idxFacts1 t
  show V c (Pipeline.arrRef spec1 3) (((cfg1.win 3).blk t).view.emb (ix2 i (0 : Fin 1))) = _
  refine congrArg _ (funext fun a => Fin.ext ?_)
  match a with
  | ⟨0, _⟩ => show (cfg1.win 3).index t (0 : Fin 2) * 4096 + 1 * i.val = i.val; omega
  | ⟨1, _⟩ => show (cfg1.win 3).index t (1 : Fin 2) * 1 + 1 * 0 = 0; omega

/-- The adjacency's float copy as the region finds it. -/
def aArr1 (c : Dev nD) : Vec Ideal S4096x4096 .bf16 := V c (Pipeline.arrRef spec1 4)

/-- The adjacency block at point t is rows 512 t to 512 t + 511 of the adjacency array. -/
theorem aRead1 (c : Dev nD) (t : Fin cfg1.N) (r : Fin 512) (j : Fin 4096) (i : Fin 4096) (hi : i.val = 512 * t.val + r.val) :
    aBlk1 V c t (ix2 r j) = aArr1 V c (ix2 i j) := by
  obtain ⟨-, -, -, -, -, -, -, -, ea, eb, -⟩ := idxFacts1 t
  show V c (Pipeline.arrRef spec1 4) (((cfg1.win 4).blk t).view.emb (ix2 r j)) = _
  refine congrArg _ (funext fun a => Fin.ext ?_)
  match a with
  | ⟨0, _⟩ => show (cfg1.win 4).index t (0 : Fin 2) * 512 + 1 * r.val = i.val; omega
  | ⟨1, _⟩ => show (cfg1.win 4).index t (1 : Fin 2) * 4096 + 1 * j.val = j.val; omega

/-- The rows of g the point t reads are rows 512 t to 512 t + 511. -/
theorem gRowsRead1 (t : Fin cfg1.N) (g : Vec Ideal S4096x128 .bf16) (r : Fin 512) (k : Fin 128) (i : Fin 4096)
    (hi : i.val = 512 * t.val + r.val) : gRows1 (grid1.coords t) g (ix2 r k) = g (ix2 i k) := by
  obtain ⟨-, -, -, -, -, -, -, -, -, -, -, -, e0, -⟩ := idxFacts1 t
  show g ((Rect.unit (s := S4096x128) (k1_off1 (grid1.coords t)) S512x128.size (k1_off1_inb (grid1.coords t))).emb (ix2 r k)) = _
  refine congrArg _ (funext fun a => Fin.ext ?_)
  rw [Rect.emb_apply]
  have eo := k1_off1_eq (grid1.coords t)
  match a with
  | ⟨0, _⟩ => show k1_off1 (grid1.coords t) (0 : Fin 2) + 1 * r.val = i.val; rw [eo]; show 512 * ((grid1.coords t) 0).val + 1 * r.val = i.val; omega
  | ⟨1, _⟩ => show k1_off1 (grid1.coords t) (1 : Fin 2) + 1 * k.val = k.val; rw [eo]; show 0 + 1 * k.val = k.val; omega

/-! ## What the body computes and stores, entry by entry -/

/-- g = d · (h w), row-scaled. -/
theorem payG1 (h : Vec Ideal S4096x128 .f32) (w : Vec Ideal S128x128 .f32) (d : Vec Ideal S4096x1 .f32) (i : Fin 4096) (k : Fin 128) :
    k1_pay1 h w d (ix2 i k) = d (ix2 i (0 : Fin 1)) * ∑ l : Fin 128, h (ix2 i l) * w (ix2 l k) := by
  simp only [k1_pay1, shapeCast_self]
  show broadcastTo S4096x128 d broadcasts_S4096x1_S4096x128 (ix2 i k)
      * matmul dot_S4096x128_S128x128_S4096x128_1_0_0_1_n_n none h w (constant (F := Ideal) S4096x128 .f32 0x00000000#32) (ix2 i k) = _
  rw [Cert.Hand.EntryForms.broadcastTo_col_apply, Cert.Hand.EntryForms.matmul_plain_apply _ rfl rfl rfl rfl rfl rfl]

/-- One block's contribution: (block)ᵀ · (rows of g). -/
theorem payDot1 (g : Vec Ideal S512x128 .bf16) (a : Vec Ideal S512x4096 .bf16) (j : Fin 4096) (k : Fin 128) :
    k1_pay2 g a (ix2 j k) = ∑ r : Fin 512, a (ix2 r j) * g (ix2 r k) := by
  simp only [k1_pay2, shapeCast_self]
  exact Cert.Hand.EntryForms.matmul_rows_apply _ rfl rfl rfl rfl rfl rfl none a g j k

/-- The first point stores the contribution alone. -/
theorem payFirst1 (g : Vec Ideal S512x128 .bf16) (a : Vec Ideal S512x4096 .bf16) (j : Fin 4096) (k : Fin 128) :
    k1_pay3 g a (ix2 j k) = ∑ r : Fin 512, a (ix2 r j) * g (ix2 r k) := by
  simp only [k1_pay3, shapeCast_self]
  exact payDot1 g a j k

/-- A later point adds its contribution to what it finds. -/
theorem payNext1 (g : Vec Ideal S512x128 .bf16) (a : Vec Ideal S512x4096 .bf16) (acc : Vec Ideal S4096x128 .f32) (j : Fin 4096) (k : Fin 128) :
    k1_pay4 g a acc (ix2 j k) = acc (ix2 j k) + ∑ r : Fin 512, a (ix2 r j) * g (ix2 r k) := by
  simp only [k1_pay4, shapeCast_self]
  show acc (ix2 j k) + k1_pay2 g a (ix2 j k) = _
  rw [payDot1]

/-- The last point stores max(acc · d + b, 0). -/
theorem payOut1 (acc : Vec Ideal S4096x128 .f32) (d : Vec Ideal S4096x1 .f32) (b : Vec Ideal S1x128 .f32) (j : Fin 4096) (k : Fin 128) :
    k1_pay5 acc d b (ix2 j k) = max (acc (ix2 j k) * d (ix2 j (0 : Fin 1)) + b (ix2 (0 : Fin 1) k)) 0 := by
  simp only [k1_pay5, shapeCast_self]
  show max (acc (ix2 j k) * broadcastTo S4096x128 d broadcasts_S4096x1_S4096x128 (ix2 j k)
        + broadcastTo S4096x128 b broadcasts_S1x128_S4096x128 (ix2 j k)) (Ideal.ofBits .f32 0x00000000#32) = _
  rw [Cert.Hand.EntryForms.broadcastTo_col_apply, broadcastTo_1b_ab_apply, Ideal.ofBits_zero_f32]

/-! ## The accumulator -/

/-- The product of the adjacency's entry (n, j) and g's entry (n, k) for a row n below 4096, zero past the rows. -/
def rowTerm1 (c : Dev nD) (j : Fin 4096) (k : Fin 128) (n : ℕ) : EReal :=
  if hn : n < 4096 then aArr1 V c (ix2 ⟨n, hn⟩ j) * gVal1 V c (ix2 ⟨n, hn⟩ k) else 0

/-- The accumulator after point n holds, at (j, k), the sum over the blocks 0 to n of the sums over each block's 512 rows. -/
theorem accEntry1 (c : Dev nD) (j : Fin 4096) (k : Fin 128) : ∀ (n : ℕ) (hn : n < cfg1.N),
    accAt1 V c n hn (ix2 j k) = ∑ s ∈ Finset.range (n + 1), ∑ r : Fin 512, rowTerm1 V c j k (512 * s + r.val)
  | 0, hn => by
    rw [accAtZero1, payFirst1, Finset.sum_range_one]
    refine Finset.sum_congr rfl fun r _ => ?_
    have hlt : 512 * 0 + r.val < 4096 := by have := r.isLt; omega
    rw [rowTerm1, dif_pos hlt, aRead1 V c ⟨0, hn⟩ r j ⟨512 * 0 + r.val, hlt⟩ rfl,
      gRowsRead1 ⟨0, hn⟩ (gVal1 V c) r k ⟨512 * 0 + r.val, hlt⟩ rfl]
  | n + 1, hn => by
    rw [accAtSucc1, payNext1, accEntry1 c j k n (Nat.lt_of_succ_lt hn), Finset.sum_range_succ _ (n + 1)]
    congr 1
    refine Finset.sum_congr rfl fun r _ => ?_
    have hN : cfg1.N = 8 := N_1
    have hlt : 512 * (n + 1) + r.val < 4096 := by have := r.isLt; omega
    rw [rowTerm1, dif_pos hlt, aRead1 V c ⟨n + 1, hn⟩ r j ⟨512 * (n + 1) + r.val, hlt⟩ rfl,
      gRowsRead1 ⟨n + 1, hn⟩ (gVal1 V c) r k ⟨512 * (n + 1) + r.val, hlt⟩ rfl]

/-- The last point of the grid. -/
abbrev last1 : Fin cfg1.N := ⟨7, by rw [show cfg1.N = 8 from N_1]; decide⟩

/-- After the last point the accumulator holds, at (j, k), the sum over all 4096 rows. -/
theorem accLast1 (c : Dev nD) (j : Fin 4096) (k : Fin 128) :
    accAt1 V c last1.val last1.isLt (ix2 j k)
      = ∑ i : Fin 4096, aArr1 V c (ix2 i j) * gVal1 V c (ix2 i k) := by
  rw [accEntry1]
  show ∑ s ∈ Finset.range 8, ∑ r : Fin 512, rowTerm1 V c j k (512 * s + r.val) = _
  rw [Finset.sum_range, ← Cert.Spec.sum_blocks (fun i => aArr1 V c (ix2 i j) * gVal1 V c (ix2 i k))]
  refine Finset.sum_congr rfl fun s _ => Finset.sum_congr rfl fun r _ => ?_
  have hlt : 512 * s.val + r.val < 4096 := by have := s.isLt; have := r.isLt; omega
  rw [rowTerm1, dif_pos hlt]

/-! ## From the last point's block to the array -/

/-- The result array after the region is what the last point stored. -/
theorem finalArr1 (c : Dev nD) : (dat1 V c).arrAt 5 cfg1.N = outAt1 V c last1 := by
  refine (dat1 V c).arrAt_eq_of_cover 5 (outAt1 V c last1) (fun t ht => ?_) (fun i => ?_)
  · obtain ⟨-, -, -, -, -, -, -, -, -, -, ea, eb, -, ef⟩ := idxFacts1 t
    have hl : t = last1 := Fin.ext (ef.mp ht)
    subst hl
    show (cfg1.win 5).cut (grid1.coords last1) ((dat1 V c).after 5 last1) = _
    rw [after1_5]
    funext y
    show outAt1 V c last1 ((cfg1.win 5).xinj (grid1.coords last1) y) = outAt1 V c last1 (((cfg1.win 5).blk last1).view.emb y)
    refine congrArg _ (funext fun a => Fin.ext ?_)
    match a with
    | ⟨0, _⟩ => show (y 0).val = (cfg1.win 5).index last1 (0 : Fin 2) * 4096 + 1 * (y 0).val; omega
    | ⟨1, _⟩ => show (y 1).val = (cfg1.win 5).index last1 (1 : Fin 2) * 128 + 1 * (y 1).val; omega
  · obtain ⟨-, -, -, -, -, -, -, -, -, -, ea, eb, -, ef⟩ := idxFacts1 last1
    refine ⟨last1, ef.mpr rfl, ?_⟩
    have e : ((cfg1.win 5).blk last1).view.emb (i : S4096x128.Idx) = i := funext fun a => Fin.ext (by
      match a with
      | ⟨0, _⟩ => show (cfg1.win 5).index last1 (0 : Fin 2) * 4096 + 1 * (i 0).val = (i 0).val; omega
      | ⟨1, _⟩ => show (cfg1.win 5).index last1 (1 : Fin 2) * 128 + 1 * (i 1).val = (i 1).val; omega)
    exact e ▸ View.emb_mem_set _ (i : S4096x128.Idx)

/-! ## The layer -/

/-- g's entry (i, k) in the specification's terms: the scale of row i times the product (h w)(i, k). -/
theorem gEntry1 (c : Dev nD) (a : Fin 4096 → Fin 4096 → ℤ) (h : Fin 4096 → Fin 128 → ℝ) (w : Fin 128 → Fin 128 → ℝ)
    (hH : ∀ i l, (V c (Pipeline.arrRef spec1 0) : Vec Ideal S4096x128 .f32) (ix2 i l) = ((h i l : ℝ) : EReal))
    (hW : ∀ l k, (V c (Pipeline.arrRef spec1 1) : Vec Ideal S128x128 .f32) (ix2 l k) = ((w l k : ℝ) : EReal))
    (hD : ∀ j, (V c (Pipeline.arrRef spec1 3) : Vec Ideal S4096x1 .f32) (ix2 j 0) = ((Cert.Spec.dinv a j : ℝ) : EReal))
    (i : Fin 4096) (k : Fin 128) :
    gVal1 V c (ix2 i k) = ((Cert.Spec.dinv a i : ℝ) : EReal) * ∑ l, ((h i l : ℝ) : EReal) * ((w l k : ℝ) : EReal) := by
  rw [gVal1, payG1, dRead1, hD]
  congr 1
  refine Finset.sum_congr rfl fun l _ => ?_
  rw [hRead1, wRead1, hH, hW]

/-- After the region, the result holds one layer of the specification of what the input windows' arrays hold. -/
theorem layer_final1 (c : Dev nD) (a : Fin 4096 → Fin 4096 → ℤ) (h : Fin 4096 → Fin 128 → ℝ) (w : Fin 128 → Fin 128 → ℝ) (b : Fin 128 → ℝ)
    (hH : ∀ i l, (V c (Pipeline.arrRef spec1 0) : Vec Ideal S4096x128 .f32) (ix2 i l) = ((h i l : ℝ) : EReal))
    (hW : ∀ l k, (V c (Pipeline.arrRef spec1 1) : Vec Ideal S128x128 .f32) (ix2 l k) = ((w l k : ℝ) : EReal))
    (hB : ∀ k, (V c (Pipeline.arrRef spec1 2) : Vec Ideal S1x128 .f32) (ix2 0 k) = ((b k : ℝ) : EReal))
    (hD : ∀ j, (V c (Pipeline.arrRef spec1 3) : Vec Ideal S4096x1 .f32) (ix2 j 0) = ((Cert.Spec.dinv a j : ℝ) : EReal))
    (hA : ∀ i j, (V c (Pipeline.arrRef spec1 4) : Vec Ideal S4096x4096 .bf16) (ix2 i j) = ((Cert.Spec.ahat a i j : ℝ) : EReal))
    (j : Fin 4096) (k : Fin 128) :
    ((dat1 V c).arrAt 5 cfg1.N : Vec Ideal S4096x128 .f32) (ix2 j k) = ((Cert.Spec.layer a h w b j k : ℝ) : EReal) := by
  have hA' : ∀ i j, aArr1 V c (ix2 i j) = ((Cert.Spec.ahat a i j : ℝ) : EReal) := hA
  have hsum : (∑ i : Fin 4096, aArr1 V c (ix2 i j) * gVal1 V c (ix2 i k))
      = ∑ i, ((Cert.Spec.ahat a i j : ℝ) : EReal)
          * (((Cert.Spec.dinv a i : ℝ) : EReal) * ∑ l, ((h i l : ℝ) : EReal) * ((w l k : ℝ) : EReal)) :=
    Finset.sum_congr rfl fun i _ => by rw [hA', gEntry1 V c a h w hH hW hD]
  rw [finalArr1]
  show outAt1 V c last1 (ix2 j k) = _
  rw [outAt1, payOut1, accLast1, dRead1, bRead1, hD, hB, hsum]
  exact Cert.Spec.layer_kernel_form a h w b j k

end Cert.KernelIdeal.Hand

end
-- ==== Proof.KernelIdeal.R2Value.lean ====
/-
  Region 1's result at the exact instance, entry by entry: one layer of the real specification, when the region's
  input arrays hold real numbers.
-/
import proofs.«137975_g29910152249793_cont_9to1_356_2_alg».proof.Proof.KernelIdeal.R2Data
import proofs.«137975_g29910152249793_cont_9to1_356_2_alg».proof.Proof.Spec
import proofs.«137975_g29910152249793_cont_9to1_356_2_alg».proof.Proof.Algebra
import proofs.«137975_g29910152249793_cont_9to1_356_2_alg».proof.Proof.KernelIdeal.R1V_Entry
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

-- What the TensorCore's buffers hold when the region is entered, at the exact instance.
variable (V : (c : Dev nD) → (b : Ref sig .tc) → Buf (Elt Ideal) ((c : Thread nD τ).loc b))

/-- The windows' block indices over the grid: windows 0 to 3 and 5 sit at block (0, 0) at every point, window 4 at block
    (t, 0); the grid's one coordinate at point t is t; the result is written back at the last point only. -/
theorem idxFacts2 : ∀ t : Fin cfg2.N,
    (cfg2.win 0).index t (0 : Fin 2) = 0 ∧ (cfg2.win 0).index t (1 : Fin 2) = 0
    ∧ (cfg2.win 1).index t (0 : Fin 2) = 0 ∧ (cfg2.win 1).index t (1 : Fin 2) = 0
    ∧ (cfg2.win 2).index t (0 : Fin 2) = 0 ∧ (cfg2.win 2).index t (1 : Fin 2) = 0
    ∧ (cfg2.win 3).index t (0 : Fin 2) = 0 ∧ (cfg2.win 3).index t (1 : Fin 2) = 0
    ∧ (cfg2.win 4).index t (0 : Fin 2) = t.val ∧ (cfg2.win 4).index t (1 : Fin 2) = 0
    ∧ (cfg2.win 5).index t (0 : Fin 2) = 0 ∧ (cfg2.win 5).index t (1 : Fin 2) = 0
    ∧ ((grid2.coords t) 0).val = t.val
    ∧ ((cfg2.win 5).flush t = true ↔ t.val = 7) :=
  (by decide +kernel : ∀ t : Fin grid2.N, _)

/-! ## The input blocks, entry by entry -/

/-- The feature block is the whole feature array. -/
theorem hRead2 (c : Dev nD) (t : Fin cfg2.N) (i : Fin 4096) (l : Fin 128) :
    hBlk2 V c t (ix2 i l) = (V c (Pipeline.arrRef spec2 0) : Vec Ideal S4096x128 .f32) (ix2 i l) := by
  obtain ⟨ea, eb, -⟩ := idxFacts2 t
  show V c (Pipeline.arrRef spec2 0) (((cfg2.win 0).blk t).view.emb (ix2 i l)) = _
  refine congrArg _ (funext fun a => Fin.ext ?_)
  match a with
  | ⟨0, _⟩ => show (cfg2.win 0).index t (0 : Fin 2) * 4096 + 1 * i.val = i.val; omega
  | ⟨1, _⟩ => show (cfg2.win 0).index t (1 : Fin 2) * 128 + 1 * l.val = l.val; omega

/-- The weight block is the whole weight array. -/
theorem wRead2 (c : Dev nD) (t : Fin cfg2.N) (l : Fin 128) (k : Fin 128) :
    wBlk2 V c t (ix2 l k) = (V c (Pipeline.arrRef spec2 1) : Vec Ideal S128x128 .f32) (ix2 l k) := by
  obtain ⟨-, -, ea, eb, -⟩ := idxFacts2 t
  show V c (Pipeline.arrRef spec2 1) (((cfg2.win 1).blk t).view.emb (ix2 l k)) = _
  refine congrArg _ (funext fun a => Fin.ext ?_)
  match a with
  | ⟨0, _⟩ => show (cfg2.win 1).index t (0 : Fin 2) * 128 + 1 * l.val = l.val; omega
  | ⟨1, _⟩ => show (cfg2.win 1).index t (1 : Fin 2) * 128 + 1 * k.val = k.val; omega

/-- The bias block is the whole bias row. -/
theorem bRead2 (c : Dev nD) (t : Fin cfg2.N) (k : Fin 128) :
    bBlk2 V c t (ix2 (0 : Fin 1) k) = (V c (Pipeline.arrRef spec2 2) : Vec Ideal S1x128 .f32) (ix2 (0 : Fin 1) k) := by
  obtain ⟨-, -, -, -, ea, eb, -⟩ := idxFacts2 t
  show V c (Pipeline.arrRef spec2 2) (((cfg2.win 2).blk t).view.emb (ix2 (0 : Fin 1) k)) = _
  refine congrArg _ (funext fun a => Fin.ext ?_)
  match a with
  | ⟨0, _⟩ => show (cfg2.win 2).index t (0 : Fin 2) * 1 + 1 * 0 = 0; omega
  | ⟨1, _⟩ => show (cfg2.win 2).index t (1 : Fin 2) * 128 + 1 * k.val = k.val; omega

/-- The scale block is the whole scale column. -/
theorem dRead2 (c : Dev nD) (t : Fin cfg2.N) (i : Fin 4096) :
    dBlk2 V c t (ix2 i (0 : Fin 1)) = (V c (Pipeline.arrRef spec2 3) : Vec Ideal S4096x1 .f32) (ix2 i (0 : Fin 1)) := by
  obtain ⟨-, -, -, -, -, -, ea, eb, -⟩ := idxFacts2 t
  show V c (Pipeline.arrRef spec2 3) (((cfg2.win 3).blk t).view.emb (ix2 i (0 : Fin 1))) = _
  refine congrArg _ (funext fun a => Fin.ext ?_)
  match a with
  | ⟨0, _⟩ => show (cfg2.win 3).index t (0 : Fin 2) * 4096 + 1 * i.val = i.val; omega
  | ⟨1, _⟩ => show (cfg2.win 3).index t (1 : Fin 2) * 1 + 1 * 0 = 0; omega

/-- The adjacency's float copy as the region finds it. -/
def aArr2 (c : Dev nD) : Vec Ideal S4096x4096 .bf16 := V c (Pipeline.arrRef spec2 4)

/-- The adjacency block at point t is rows 512 t to 512 t + 511 of the adjacency array. -/
theorem aRead2 (c : Dev nD) (t : Fin cfg2.N) (r : Fin 512) (j : Fin 4096) (i : Fin 4096) (hi : i.val = 512 * t.val + r.val) :
    aBlk2 V c t (ix2 r j) = aArr2 V c (ix2 i j) := by
  obtain ⟨-, -, -, -, -, -, -, -, ea, eb, -⟩ := idxFacts2 t
  show V c (Pipeline.arrRef spec2 4) (((cfg2.win 4).blk t).view.emb (ix2 r j)) = _
  refine congrArg _ (funext fun a => Fin.ext ?_)
  match a with
  | ⟨0, _⟩ => show (cfg2.win 4).index t (0 : Fin 2) * 512 + 1 * r.val = i.val; omega
  | ⟨1, _⟩ => show (cfg2.win 4).index t (1 : Fin 2) * 4096 + 1 * j.val = j.val; omega

/-- The rows of g the point t reads are rows 512 t to 512 t + 511. -/
theorem gRowsRead2 (t : Fin cfg2.N) (g : Vec Ideal S4096x128 .bf16) (r : Fin 512) (k : Fin 128) (i : Fin 4096)
    (hi : i.val = 512 * t.val + r.val) : gRows2 (grid2.coords t) g (ix2 r k) = g (ix2 i k) := by
  obtain ⟨-, -, -, -, -, -, -, -, -, -, -, -, e0, -⟩ := idxFacts2 t
  show g ((Rect.unit (s := S4096x128) (k2_off1 (grid2.coords t)) S512x128.size (k2_off1_inb (grid2.coords t))).emb (ix2 r k)) = _
  refine congrArg _ (funext fun a => Fin.ext ?_)
  rw [Rect.emb_apply]
  have eo := k2_off1_eq (grid2.coords t)
  match a with
  | ⟨0, _⟩ => show k2_off1 (grid2.coords t) (0 : Fin 2) + 1 * r.val = i.val; rw [eo]; show 512 * ((grid2.coords t) 0).val + 1 * r.val = i.val; omega
  | ⟨1, _⟩ => show k2_off1 (grid2.coords t) (1 : Fin 2) + 1 * k.val = k.val; rw [eo]; show 0 + 1 * k.val = k.val; omega

/-! ## What the body computes and stores, entry by entry -/

/-- g = d · (h w), row-scaled. -/
theorem payG2 (h : Vec Ideal S4096x128 .f32) (w : Vec Ideal S128x128 .f32) (d : Vec Ideal S4096x1 .f32) (i : Fin 4096) (k : Fin 128) :
    k2_pay1 h w d (ix2 i k) = d (ix2 i (0 : Fin 1)) * ∑ l : Fin 128, h (ix2 i l) * w (ix2 l k) := by
  simp only [k2_pay1, shapeCast_self]
  show broadcastTo S4096x128 d broadcasts_S4096x1_S4096x128 (ix2 i k)
      * matmul dot_S4096x128_S128x128_S4096x128_1_0_0_1_n_n none h w (constant (F := Ideal) S4096x128 .f32 0x00000000#32) (ix2 i k) = _
  rw [Cert.Hand.EntryForms.broadcastTo_col_apply, Cert.Hand.EntryForms.matmul_plain_apply _ rfl rfl rfl rfl rfl rfl]

/-- One block's contribution: (block)ᵀ · (rows of g). -/
theorem payDot2 (g : Vec Ideal S512x128 .bf16) (a : Vec Ideal S512x4096 .bf16) (j : Fin 4096) (k : Fin 128) :
    k2_pay2 g a (ix2 j k) = ∑ r : Fin 512, a (ix2 r j) * g (ix2 r k) := by
  simp only [k2_pay2, shapeCast_self]
  exact Cert.Hand.EntryForms.matmul_rows_apply _ rfl rfl rfl rfl rfl rfl none a g j k

/-- The first point stores the contribution alone. -/
theorem payFirst2 (g : Vec Ideal S512x128 .bf16) (a : Vec Ideal S512x4096 .bf16) (j : Fin 4096) (k : Fin 128) :
    k2_pay3 g a (ix2 j k) = ∑ r : Fin 512, a (ix2 r j) * g (ix2 r k) := by
  simp only [k2_pay3, shapeCast_self]
  exact payDot2 g a j k

/-- A later point adds its contribution to what it finds. -/
theorem payNext2 (g : Vec Ideal S512x128 .bf16) (a : Vec Ideal S512x4096 .bf16) (acc : Vec Ideal S4096x128 .f32) (j : Fin 4096) (k : Fin 128) :
    k2_pay4 g a acc (ix2 j k) = acc (ix2 j k) + ∑ r : Fin 512, a (ix2 r j) * g (ix2 r k) := by
  simp only [k2_pay4, shapeCast_self]
  show acc (ix2 j k) + k2_pay2 g a (ix2 j k) = _
  rw [payDot2]

/-- The last point stores max(acc · d + b, 0). -/
theorem payOut2 (acc : Vec Ideal S4096x128 .f32) (d : Vec Ideal S4096x1 .f32) (b : Vec Ideal S1x128 .f32) (j : Fin 4096) (k : Fin 128) :
    k2_pay5 acc d b (ix2 j k) = max (acc (ix2 j k) * d (ix2 j (0 : Fin 1)) + b (ix2 (0 : Fin 1) k)) 0 := by
  simp only [k2_pay5, shapeCast_self]
  show max (acc (ix2 j k) * broadcastTo S4096x128 d broadcasts_S4096x1_S4096x128 (ix2 j k)
        + broadcastTo S4096x128 b broadcasts_S1x128_S4096x128 (ix2 j k)) (Ideal.ofBits .f32 0x00000000#32) = _
  rw [Cert.Hand.EntryForms.broadcastTo_col_apply, broadcastTo_1b_ab_apply, Ideal.ofBits_zero_f32]

/-! ## The accumulator -/

/-- The product of the adjacency's entry (n, j) and g's entry (n, k) for a row n below 4096, zero past the rows. -/
def rowTerm2 (c : Dev nD) (j : Fin 4096) (k : Fin 128) (n : ℕ) : EReal :=
  if hn : n < 4096 then aArr2 V c (ix2 ⟨n, hn⟩ j) * gVal2 V c (ix2 ⟨n, hn⟩ k) else 0

/-- The accumulator after point n holds, at (j, k), the sum over the blocks 0 to n of the sums over each block's 512 rows. -/
theorem accEntry2 (c : Dev nD) (j : Fin 4096) (k : Fin 128) : ∀ (n : ℕ) (hn : n < cfg2.N),
    accAt2 V c n hn (ix2 j k) = ∑ s ∈ Finset.range (n + 1), ∑ r : Fin 512, rowTerm2 V c j k (512 * s + r.val)
  | 0, hn => by
    rw [accAtZero2, payFirst2, Finset.sum_range_one]
    refine Finset.sum_congr rfl fun r _ => ?_
    have hlt : 512 * 0 + r.val < 4096 := by have := r.isLt; omega
    rw [rowTerm2, dif_pos hlt, aRead2 V c ⟨0, hn⟩ r j ⟨512 * 0 + r.val, hlt⟩ rfl,
      gRowsRead2 ⟨0, hn⟩ (gVal2 V c) r k ⟨512 * 0 + r.val, hlt⟩ rfl]
  | n + 1, hn => by
    rw [accAtSucc2, payNext2, accEntry2 c j k n (Nat.lt_of_succ_lt hn), Finset.sum_range_succ _ (n + 1)]
    congr 1
    refine Finset.sum_congr rfl fun r _ => ?_
    have hN : cfg2.N = 8 := N_2
    have hlt : 512 * (n + 1) + r.val < 4096 := by have := r.isLt; omega
    rw [rowTerm2, dif_pos hlt, aRead2 V c ⟨n + 1, hn⟩ r j ⟨512 * (n + 1) + r.val, hlt⟩ rfl,
      gRowsRead2 ⟨n + 1, hn⟩ (gVal2 V c) r k ⟨512 * (n + 1) + r.val, hlt⟩ rfl]

/-- The last point of the grid. -/
abbrev last2 : Fin cfg2.N := ⟨7, by rw [show cfg2.N = 8 from N_2]; decide⟩

/-- After the last point the accumulator holds, at (j, k), the sum over all 4096 rows. -/
theorem accLast2 (c : Dev nD) (j : Fin 4096) (k : Fin 128) :
    accAt2 V c last2.val last2.isLt (ix2 j k)
      = ∑ i : Fin 4096, aArr2 V c (ix2 i j) * gVal2 V c (ix2 i k) := by
  rw [accEntry2]
  show ∑ s ∈ Finset.range 8, ∑ r : Fin 512, rowTerm2 V c j k (512 * s + r.val) = _
  rw [Finset.sum_range, ← Cert.Spec.sum_blocks (fun i => aArr2 V c (ix2 i j) * gVal2 V c (ix2 i k))]
  refine Finset.sum_congr rfl fun s _ => Finset.sum_congr rfl fun r _ => ?_
  have hlt : 512 * s.val + r.val < 4096 := by have := s.isLt; have := r.isLt; omega
  rw [rowTerm2, dif_pos hlt]

/-! ## From the last point's block to the array -/

/-- The result array after the region is what the last point stored. -/
theorem finalArr2 (c : Dev nD) : (dat2 V c).arrAt 5 cfg2.N = outAt2 V c last2 := by
  refine (dat2 V c).arrAt_eq_of_cover 5 (outAt2 V c last2) (fun t ht => ?_) (fun i => ?_)
  · obtain ⟨-, -, -, -, -, -, -, -, -, -, ea, eb, -, ef⟩ := idxFacts2 t
    have hl : t = last2 := Fin.ext (ef.mp ht)
    subst hl
    show (cfg2.win 5).cut (grid2.coords last2) ((dat2 V c).after 5 last2) = _
    rw [after2_5]
    funext y
    show outAt2 V c last2 ((cfg2.win 5).xinj (grid2.coords last2) y) = outAt2 V c last2 (((cfg2.win 5).blk last2).view.emb y)
    refine congrArg _ (funext fun a => Fin.ext ?_)
    match a with
    | ⟨0, _⟩ => show (y 0).val = (cfg2.win 5).index last2 (0 : Fin 2) * 4096 + 1 * (y 0).val; omega
    | ⟨1, _⟩ => show (y 1).val = (cfg2.win 5).index last2 (1 : Fin 2) * 128 + 1 * (y 1).val; omega
  · obtain ⟨-, -, -, -, -, -, -, -, -, -, ea, eb, -, ef⟩ := idxFacts2 last2
    refine ⟨last2, ef.mpr rfl, ?_⟩
    have e : ((cfg2.win 5).blk last2).view.emb (i : S4096x128.Idx) = i := funext fun a => Fin.ext (by
      match a with
      | ⟨0, _⟩ => show (cfg2.win 5).index last2 (0 : Fin 2) * 4096 + 1 * (i 0).val = (i 0).val; omega
      | ⟨1, _⟩ => show (cfg2.win 5).index last2 (1 : Fin 2) * 128 + 1 * (i 1).val = (i 1).val; omega)
    exact e ▸ View.emb_mem_set _ (i : S4096x128.Idx)

/-! ## The layer -/

/-- g's entry (i, k) in the specification's terms: the scale of row i times the product (h w)(i, k). -/
theorem gEntry2 (c : Dev nD) (a : Fin 4096 → Fin 4096 → ℤ) (h : Fin 4096 → Fin 128 → ℝ) (w : Fin 128 → Fin 128 → ℝ)
    (hH : ∀ i l, (V c (Pipeline.arrRef spec2 0) : Vec Ideal S4096x128 .f32) (ix2 i l) = ((h i l : ℝ) : EReal))
    (hW : ∀ l k, (V c (Pipeline.arrRef spec2 1) : Vec Ideal S128x128 .f32) (ix2 l k) = ((w l k : ℝ) : EReal))
    (hD : ∀ j, (V c (Pipeline.arrRef spec2 3) : Vec Ideal S4096x1 .f32) (ix2 j 0) = ((Cert.Spec.dinv a j : ℝ) : EReal))
    (i : Fin 4096) (k : Fin 128) :
    gVal2 V c (ix2 i k) = ((Cert.Spec.dinv a i : ℝ) : EReal) * ∑ l, ((h i l : ℝ) : EReal) * ((w l k : ℝ) : EReal) := by
  rw [gVal2, payG2, dRead2, hD]
  congr 1
  refine Finset.sum_congr rfl fun l _ => ?_
  rw [hRead2, wRead2, hH, hW]

/-- After the region, the result holds one layer of the specification of what the input windows' arrays hold. -/
theorem layer_final2 (c : Dev nD) (a : Fin 4096 → Fin 4096 → ℤ) (h : Fin 4096 → Fin 128 → ℝ) (w : Fin 128 → Fin 128 → ℝ) (b : Fin 128 → ℝ)
    (hH : ∀ i l, (V c (Pipeline.arrRef spec2 0) : Vec Ideal S4096x128 .f32) (ix2 i l) = ((h i l : ℝ) : EReal))
    (hW : ∀ l k, (V c (Pipeline.arrRef spec2 1) : Vec Ideal S128x128 .f32) (ix2 l k) = ((w l k : ℝ) : EReal))
    (hB : ∀ k, (V c (Pipeline.arrRef spec2 2) : Vec Ideal S1x128 .f32) (ix2 0 k) = ((b k : ℝ) : EReal))
    (hD : ∀ j, (V c (Pipeline.arrRef spec2 3) : Vec Ideal S4096x1 .f32) (ix2 j 0) = ((Cert.Spec.dinv a j : ℝ) : EReal))
    (hA : ∀ i j, (V c (Pipeline.arrRef spec2 4) : Vec Ideal S4096x4096 .bf16) (ix2 i j) = ((Cert.Spec.ahat a i j : ℝ) : EReal))
    (j : Fin 4096) (k : Fin 128) :
    ((dat2 V c).arrAt 5 cfg2.N : Vec Ideal S4096x128 .f32) (ix2 j k) = ((Cert.Spec.layer a h w b j k : ℝ) : EReal) := by
  have hA' : ∀ i j, aArr2 V c (ix2 i j) = ((Cert.Spec.ahat a i j : ℝ) : EReal) := hA
  have hsum : (∑ i : Fin 4096, aArr2 V c (ix2 i j) * gVal2 V c (ix2 i k))
      = ∑ i, ((Cert.Spec.ahat a i j : ℝ) : EReal)
          * (((Cert.Spec.dinv a i : ℝ) : EReal) * ∑ l, ((h i l : ℝ) : EReal) * ((w l k : ℝ) : EReal)) :=
    Finset.sum_congr rfl fun i _ => by rw [hA', gEntry2 V c a h w hH hW hD]
  rw [finalArr2]
  show outAt2 V c last2 (ix2 j k) = _
  rw [outAt2, payOut2, accLast2, dRead2, bRead2, hD, hB, hsum]
  exact Cert.Spec.layer_kernel_form a h w b j k

end Cert.KernelIdeal.Hand

end
-- ==== Proof.KernelIdeal.Value.lean ====
/-
  The kernel's result at the exact instance, entry by entry, as the real specification's value.

  The result buffer after the run is what region 2 writes back; region 2 reads the first layer's output (what region 1
  wrote back), the second weights and bias row, and the scaled adjacency and the scales (what region 0 wrote back,
  which no later item writes). Reading each buffer back through the items to the launch memory, the result is the
  specification's two layers of the arguments.
-/
import proofs.«137975_g29910152249793_cont_9to1_356_2_alg».proof.Proof.KernelIdeal.Frame
import proofs.«137975_g29910152249793_cont_9to1_356_2_alg».proof.Proof.KernelIdeal.R0Value
import proofs.«137975_g29910152249793_cont_9to1_356_2_alg».proof.Proof.KernelIdeal.R1Value
import proofs.«137975_g29910152249793_cont_9to1_356_2_alg».proof.Proof.KernelIdeal.R2Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

namespace KV

variable (m : (ℓ : Loc nD τ sig) → Buf (Elt Ideal) ℓ)

/-! ## The arguments and region 0's results, as each later region finds them -/

/-- The adjacency's entries as integers, read off the launch memory. -/
abbrev adjM (c : Dev nD) : Fin 4096 → Fin 4096 → ℤ := adjZ0 (E0 m) c

/-- Region 1 finds the scaled adjacency region 0 wrote. -/
theorem ahat_E1 (c : Dev nD) (i j : Fin 4096) :
    (E1 m c (Pipeline.arrRef spec1 4) : Vec Ideal S4096x4096 .bf16) (ix2 i j) = ((Cert.Spec.ahat (adjM m c) i j : ℝ) : EReal) := by
  have e : E1 m c (Pipeline.arrRef spec1 4) = (dat0 (E0 m) c).arrAt 1 cfg0.N :=
    (W2_of m c main_call0_v0_0 (by decide)).trans (W1_arr m c 1)
  exact (congrFun e (ix2 i j)).trans (ahat_final0 (E0 m) c i j)

/-- Region 1 finds the scales region 0 wrote. -/
theorem dinv_E1 (c : Dev nD) (j : Fin 4096) :
    (E1 m c (Pipeline.arrRef spec1 3) : Vec Ideal S4096x1 .f32) (ix2 j 0) = ((Cert.Spec.dinv (adjM m c) j : ℝ) : EReal) := by
  have e : E1 m c (Pipeline.arrRef spec1 3) = (dat0 (E0 m) c).arrAt 2 cfg0.N :=
    (W2_of m c main_call0_v0_1 (by decide)).trans (W1_arr m c 2)
  exact (congrFun e (ix2 j 0)).trans (dinv_final0 (E0 m) c j)

/-- Region 2 finds them too: region 1 only reads them. -/
theorem ahat_E2 (c : Dev nD) (i j : Fin 4096) :
    (E2 m c (Pipeline.arrRef spec2 4) : Vec Ideal S4096x4096 .bf16) (ix2 i j) = ((Cert.Spec.ahat (adjM m c) i j : ℝ) : EReal) := by
  have e : E2 m c (Pipeline.arrRef spec2 4) = E1 m c (Pipeline.arrRef spec1 4) :=
    (W4_of m c main_call0_v0_0 (by decide)).trans ((W3_arr m c 4).trans (in1 m c 4 rfl))
  exact (congrFun e (ix2 i j)).trans (ahat_E1 m c i j)
theorem dinv_E2 (c : Dev nD) (j : Fin 4096) :
    (E2 m c (Pipeline.arrRef spec2 3) : Vec Ideal S4096x1 .f32) (ix2 j 0) = ((Cert.Spec.dinv (adjM m c) j : ℝ) : EReal) := by
  have e : E2 m c (Pipeline.arrRef spec2 3) = E1 m c (Pipeline.arrRef spec1 3) :=
    (W4_of m c main_call0_v0_1 (by decide)).trans ((W3_arr m c 3).trans (in1 m c 3 rfl))
  exact (congrFun e (ix2 j 0)).trans (dinv_E1 m c j)

/-! ## The bias rows: each bias vector reshaped to one row -/

theorem bias_E1 (c : Dev nD) (k : Fin 128) :
    (E1 m c (Pipeline.arrRef spec1 2) : Vec Ideal S1x128 .f32) (ix2 0 k)
      = (m ((c : Thread nD τ).loc main_arg3) : Vec Ideal S128 .f32) (ix1 k) := by
  show (StableHlo.after hostOps1 (W1 m c) (Proc.devRef .tc main_call0_v1) : Vec Ideal S1x128 .f32) (ix2 0 k) = _
  after_results
  show shapeCast S1x128 (W1 m c (Proc.devRef .tc main_arg3) : Vec Ideal S128 .f32) shapeCasts_S128_S1x128 (ix2 0 k) = _
  refine (shapeCast_addUnit_apply ![128] _ _ (ix2 0 k)).trans ?_
  refine (congrFun (W1_of_ne m c main_arg3 (by decide)) _).trans ?_
  exact congrArg _ (funext fun a => match a with | ⟨0, _⟩ => rfl)

theorem bias_E2 (c : Dev nD) (k : Fin 128) :
    (E2 m c (Pipeline.arrRef spec2 2) : Vec Ideal S1x128 .f32) (ix2 0 k)
      = (m ((c : Thread nD τ).loc main_arg5) : Vec Ideal S128 .f32) (ix1 k) := by
  show (StableHlo.after hostOps2 (W3 m c) (Proc.devRef .tc main_call0_v3) : Vec Ideal S1x128 .f32) (ix2 0 k) = _
  after_results
  show shapeCast S1x128 (W3 m c (Proc.devRef .tc main_arg5) : Vec Ideal S128 .f32) shapeCasts_S128_S1x128 (ix2 0 k) = _
  refine (shapeCast_addUnit_apply ![128] _ _ (ix2 0 k)).trans ?_
  refine (congrFun ((W3_of_ne m c main_arg5 (by decide)).trans (arg_E1 m c main_arg5 (by decide) (by decide))) _).trans ?_
  exact congrArg _ (funext fun a => match a with | ⟨0, _⟩ => rfl)

/-! ## The two layers -/

/-- After region 1 its result holds the first layer of the arguments. -/
theorem layer_one (c : Dev nD) (x : Fin 4096 → Fin 128 → ℝ) (w1 : Fin 128 → Fin 128 → ℝ) (b1 : Fin 128 → ℝ)
    (hx : ∀ i l, (m ((c : Thread nD τ).loc main_arg0) : Vec Ideal S4096x128 .f32) (ix2 i l) = ((x i l : ℝ) : EReal))
    (hw1 : ∀ l k, (m ((c : Thread nD τ).loc main_arg2) : Vec Ideal S128x128 .f32) (ix2 l k) = ((w1 l k : ℝ) : EReal))
    (hb1 : ∀ k, (m ((c : Thread nD τ).loc main_arg3) : Vec Ideal S128 .f32) (ix1 k) = ((b1 k : ℝ) : EReal))
    (j : Fin 4096) (k : Fin 128) :
    ((dat1 (E1 m) c).arrAt 5 cfg1.N : Vec Ideal S4096x128 .f32) (ix2 j k)
      = ((Cert.Spec.layer (adjM m c) x w1 b1 j k : ℝ) : EReal) :=
  layer_final1 (E1 m) c (adjM m c) x w1 b1
    (fun i l => (congrFun (arg_E1 m c main_arg0 (by decide) (by decide)) _).trans (hx i l))
    (fun l k => (congrFun (arg_E1 m c main_arg2 (by decide) (by decide)) _).trans (hw1 l k))
    (fun k => (bias_E1 m c k).trans (hb1 k))
    (dinv_E1 m c) (ahat_E1 m c) j k

/-- After the run the result buffer holds the specification's two layers of the arguments. -/
theorem kernel_final (c : Dev nD) (x : Fin 4096 → Fin 128 → ℝ) (w1 : Fin 128 → Fin 128 → ℝ) (b1 : Fin 128 → ℝ)
    (w2 : Fin 128 → Fin 128 → ℝ) (b2 : Fin 128 → ℝ)
    (hx : ∀ i l, (m ((c : Thread nD τ).loc main_arg0) : Vec Ideal S4096x128 .f32) (ix2 i l) = ((x i l : ℝ) : EReal))
    (hw1 : ∀ l k, (m ((c : Thread nD τ).loc main_arg2) : Vec Ideal S128x128 .f32) (ix2 l k) = ((w1 l k : ℝ) : EReal))
    (hb1 : ∀ k, (m ((c : Thread nD τ).loc main_arg3) : Vec Ideal S128 .f32) (ix1 k) = ((b1 k : ℝ) : EReal))
    (hw2 : ∀ l k, (m ((c : Thread nD τ).loc main_arg4) : Vec Ideal S128x128 .f32) (ix2 l k) = ((w2 l k : ℝ) : EReal))
    (hb2 : ∀ k, (m ((c : Thread nD τ).loc main_arg5) : Vec Ideal S128 .f32) (ix1 k) = ((b2 k : ℝ) : EReal))
    (j : Fin 4096) (k : Fin 128) :
    (W5 m c (Proc.devRef .tc main_v0) : Vec Ideal S4096x128 .f32) (ix2 j k)
      = ((Cert.Spec.gcn (adjM m c) x w1 b1 w2 b2 j k : ℝ) : EReal) := by
  have e5 : W5 m c (Proc.devRef .tc main_v0) = (dat2 (E2 m) c).arrAt 5 cfg2.N := W5_arr m c 5
  have eh : E2 m c (Pipeline.arrRef spec2 0) = (dat1 (E1 m) c).arrAt 5 cfg1.N :=
    (W4_of m c main_call0_v2 (by decide)).trans (W3_arr m c 5)
  refine (congrFun e5 (ix2 j k)).trans ?_
  exact layer_final2 (E2 m) c (adjM m c) (Cert.Spec.layer (adjM m c) x w1 b1) w2 b2
    (fun i l => (congrFun eh _).trans (layer_one m c x w1 b1 hx hw1 hb1 i l))
    (fun l k => (congrFun (arg_E2 m c main_arg4 (by decide) (by decide) (by decide) (by decide)) _).trans (hw2 l k))
    (fun k => (bias_E2 m c k).trans (hb2 k))
    (dinv_E2 m c) (ahat_E2 m c) j k

end KV

end Cert.KernelIdeal.Hand

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.RefValue.lean ====
/-
  The reference's result at the exact instance, entry by entry, as the real specification's value.

  The reference converts the adjacency to floats, forces its diagonal to one through an identity mask, sums its
  columns, takes one over the square root of each positive degree, scales the matrix entry by entry on both sides,
  and applies twice: the product of the transposed scaled matrix with h w, plus the bias, clamped below at zero.
-/
import proofs.«137975_g29910152249793_cont_9to1_356_2_alg».proof.Proof.RefRun
import proofs.«137975_g29910152249793_cont_9to1_356_2_alg».proof.Proof.RefRead
import proofs.«137975_g29910152249793_cont_9to1_356_2_alg».proof.Proof.Spec
import proofs.«137975_g29910152249793_cont_9to1_356_2_alg».proof.Proof.Algebra
import proofs.«137975_g29910152249793_cont_9to1_356_2_alg».proof.Proof.LibRowBlock
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Gen Cert.ReferenceIdeal.Read

/-- The adjacency's entries as integers. -/
def adjZ (x1 : (⟨S4096x4096, .i32⟩ : BufTy).Contents (Elt Ideal)) (i j : Fin 4096) : ℤ := (x1 (ix2 i j)).toInt

/-! ## Words, bits and selections -/

/-- Two row numbers below 4096 are equal exactly when their 32-bit words are: neither word wraps. -/
theorem word_eq_iff (i j : Fin 4096) : BitVec.ofNat 32 i.val + 0#32 = BitVec.ofNat 32 j.val ↔ i = j := by
  rw [BitVec.add_zero]
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

/-- A bit read back as a natural number is above zero exactly when it is set. -/
theorem bit_pos (c : Bool) : (0 : EReal) < (((BitVec.ofBool c).toNat : ℝ) : EReal) ↔ c = true := by
  cases c
  · simp
  · simp

/-- The ordered "greater than" of two extended reals is the bit of the strict order. -/
theorem cmp_ogt (x y : EReal) : Ideal.cmp .ogt x y = BitVec.ofBool (decide (y < x)) := rfl

/-- The equality comparison of two words is the bit of their equality. -/
theorem cmpi_eq {w : Nat} (x y : BitVec w) : IntOp.cmpi .eq x y = BitVec.ofBool (x == y) := rfl

/-- A selection on a decided proposition's bit is the conditional on the proposition. -/
theorem select_ofBool {α : Type} (p : Prop) [Decidable p] (a b : α) :
    Scalar.select (BitVec.ofBool (decide p)) a b = if p then a else b := by
  by_cases h : p <;> simp [Scalar.select, h]

/-! ## The normalised adjacency -/

/-- The identity mask: the comparison of the two coordinates, read back as a float above zero, holds on the diagonal only. -/
theorem mask_stage (i j : Fin 4096) : val_main_v8 (F := Ideal) (ix2 i j) = BitVec.ofBool (decide (i = j)) := by
  rw [val_main_v8_apply, val_main_v6_apply, val_main_v5_apply, val_main_v4_apply, val_main_v1_apply, val_main_v2_apply,
    val_main_v3_apply, val_main_c_apply, val_main_v7_apply, val_main_cst_apply, Ideal.cmpf_def, Ideal.ofBits_def,
    Ideal.ofBits_zero_f32, cmp_ogt, cmpi_eq]
  refine congrArg BitVec.ofBool (decide_eq_decide.mpr ?_)
  show (0 : EReal) < (((BitVec.ofBool (BitVec.ofNat 32 i.val + 0#32 == BitVec.ofNat 32 j.val)).toNat : ℝ) : EReal) ↔ i = j
  exact (bit_pos _).trans (beq_iff_eq.trans (word_eq_iff i j))

/-- The adjacency as floats with its diagonal forced to one. -/
theorem ahat_stage (x1 : (⟨S4096x4096, .i32⟩ : BufTy).Contents (Elt Ideal)) (i j : Fin 4096) :
    val_main_v9 (F := Ideal) x1 (ix2 i j) = ((Cert.Spec.ahat (adjZ x1) i j : ℝ) : EReal) := by
  rw [val_main_v9_apply, mask_stage, select_ofBool, val_main_call0_v1_apply, val_main_call0_v0_apply, val_main_cst_0_apply,
    val_main_v0_apply, Ideal.ofBits_def, Cert.RowBlock.IsRows.ofBits_one_f32]
  unfold Cert.Spec.ahat adjZ
  by_cases h : i = j
  · rw [if_pos h, if_pos h, EReal.coe_one]
  · rw [if_neg h, if_neg h]; rfl

/-- The column sums are the degrees. -/
theorem deg_stage (x1 : (⟨S4096x4096, .i32⟩ : BufTy).Contents (Elt Ideal)) (j : Fin 4096) :
    val_main_v10 (F := Ideal) x1 (ix1 j) = ((Cert.Spec.deg (adjZ x1) j : ℝ) : EReal) := by
  rw [val_main_v10_apply, val_main_cst_1_apply, Ideal.ofBits_def, Ideal.ofBits_zero_f32, zero_add, ← Cert.Spec.deg_coe]
  refine Finset.sum_congr rfl fun i _ => ?_
  have e : idx_main_v10 (ix1 j) i = ix2 i j :=
    funext fun a => Fin.ext (by match a with | ⟨0, _⟩ => rfl | ⟨1, _⟩ => rfl)
  exact (congrArg (val_main_v9 (F := Ideal) x1) e).trans (ahat_stage x1 i j)

/-- One over the square root of a positive degree, zero otherwise, is the scale. -/
theorem dinv_stage (x1 : (⟨S4096x4096, .i32⟩ : BufTy).Contents (Elt Ideal)) (j : Fin 4096) :
    val_main_v16 (F := Ideal) x1 (ix1 j) = ((Cert.Spec.dinv (adjZ x1) j : ℝ) : EReal) := by
  rw [val_main_v16_apply, val_main_v12_apply, val_main_v15_apply, val_main_v13_apply, val_main_v14_apply, val_main_cst_3_apply,
    val_main_v11_apply, val_main_cst_2_apply, val_main_call1_v1_apply, val_main_call1_v0_apply, val_main_cst_4_apply,
    deg_stage, Ideal.ofBits_def, Ideal.ofBits_def, Cert.RowBlock.IsRows.ofBits_one_f32, Ideal.ofBits_zero_f32, Ideal.cmpf_def,
    Ideal.hostDivf_def, Ideal.hostUnary_sqrt_def, cmp_ogt, select_ofBool]
  exact Cert.Spec.dinv_div_sqrt_form (adjZ x1) j

/-- The matrix scaled on both sides, entry by entry. -/
theorem norm_stage (x1 : (⟨S4096x4096, .i32⟩ : BufTy).Contents (Elt Ideal)) (i j : Fin 4096) :
    val_main_v22 (F := Ideal) x1 (ix2 i j)
      = (((Cert.Spec.dinv (adjZ x1) i : ℝ) : EReal) * ((Cert.Spec.ahat (adjZ x1) i j : ℝ) : EReal))
          * ((Cert.Spec.dinv (adjZ x1) j : ℝ) : EReal) := by
  have e1 : idx_main_v17 (idx_main_v18 (ix2 i j)) = ix1 i := funext fun a => Fin.ext (by match a with | ⟨0, _⟩ => rfl)
  have e2 : idx_main_v20 (idx_main_v21 (ix2 i j)) = ix1 j := funext fun a => Fin.ext (by match a with | ⟨0, _⟩ => rfl)
  rw [val_main_v22_apply, val_main_v19_apply, val_main_v18_apply, val_main_v17_apply, val_main_v21_apply, val_main_v20_apply,
    e1, e2, dinv_stage, dinv_stage, ahat_stage]
  rfl

/-! ## One layer -/

/-- The layer's value from the scaled matrix, features h, weights w and bias b holding real numbers. -/
theorem layer_value (x1 : (⟨S4096x4096, .i32⟩ : BufTy).Contents (Elt Ideal))
    (H : (⟨S4096x128, .f32⟩ : BufTy).Contents (Elt Ideal)) (W : (⟨S128x128, .f32⟩ : BufTy).Contents (Elt Ideal))
    (B : (⟨S128, .f32⟩ : BufTy).Contents (Elt Ideal))
    (h : Fin 4096 → Fin 128 → ℝ) (w : Fin 128 → Fin 128 → ℝ) (b : Fin 128 → ℝ)
    (hH : ∀ i l, H (ix2 i l) = ((h i l : ℝ) : EReal)) (hW : ∀ l k, W (ix2 l k) = ((w l k : ℝ) : EReal))
    (hB : ∀ k, B (ix1 k) = ((b k : ℝ) : EReal)) (j : Fin 4096) (k : Fin 128) :
    max ((∑ i : Fin 4096, val_main_v22 (F := Ideal) x1 (ix2 i j) * ∑ l : Fin 128, H (ix2 i l) * W (ix2 l k)) + B (ix1 k)) 0
      = ((Cert.Spec.layer (adjZ x1) h w b j k : ℝ) : EReal) := by
  rw [← Cert.Spec.layer_reference_form, hB]
  refine congrArg (fun s => max (s + ((b k : ℝ) : EReal)) 0) (Finset.sum_congr rfl fun i _ => ?_)
  rw [norm_stage]
  refine congrArg (_ * ·) (Finset.sum_congr rfl fun l _ => ?_)
  rw [hH, hW]

/-- The first layer. -/
theorem layer1_stage (x0 : (⟨S4096x128, .f32⟩ : BufTy).Contents (Elt Ideal)) (x1 : (⟨S4096x4096, .i32⟩ : BufTy).Contents (Elt Ideal))
    (x2 : (⟨S128x128, .f32⟩ : BufTy).Contents (Elt Ideal)) (x3 : (⟨S128, .f32⟩ : BufTy).Contents (Elt Ideal))
    (x : Fin 4096 → Fin 128 → ℝ) (w1 : Fin 128 → Fin 128 → ℝ) (b1 : Fin 128 → ℝ)
    (hx : ∀ i l, x0 (ix2 i l) = ((x i l : ℝ) : EReal)) (hw1 : ∀ l k, x2 (ix2 l k) = ((w1 l k : ℝ) : EReal))
    (hb1 : ∀ k, x3 (ix1 k) = ((b1 k : ℝ) : EReal)) (j : Fin 4096) (k : Fin 128) :
    val_main_v29 (F := Ideal) x0 x1 x2 x3 (ix2 j k) = ((Cert.Spec.layer (adjZ x1) x w1 b1 j k : ℝ) : EReal) := by
  have eB : idx_main_v26 (idx_main_v27 (ix2 j k)) = ix1 k := funext fun a => Fin.ext (by match a with | ⟨0, _⟩ => rfl)
  have eL : ∀ i : Fin 4096, idx_main_v24 (lidx_main_v25 (ix2 j k) i) = ix2 i j := fun i =>
    funext fun a => Fin.ext (by match a with | ⟨0, _⟩ => rfl | ⟨1, _⟩ => rfl)
  have eR : ∀ i : Fin 4096, ridx_main_v25 (ix2 j k) i = ix2 i k := fun i =>
    funext fun a => Fin.ext (by match a with | ⟨0, _⟩ => rfl | ⟨1, _⟩ => rfl)
  have eX : ∀ (i : Fin 4096) (l : Fin 128), lidx_main_v23 (ix2 i k) l = ix2 i l := fun i l =>
    funext fun a => Fin.ext (by match a with | ⟨0, _⟩ => rfl | ⟨1, _⟩ => rfl)
  have eW : ∀ (i : Fin 4096) (l : Fin 128), ridx_main_v23 (ix2 i k) l = ix2 l k := fun i l =>
    funext fun a => Fin.ext (by match a with | ⟨0, _⟩ => rfl | ⟨1, _⟩ => rfl)
  rw [val_main_v29_apply, val_main_v28_apply, val_main_v25_apply, val_main_v27_apply, val_main_v26_apply,
    val_main_call2_v0_apply, val_main_call2_cst_apply, eB, Ideal.ofBits_def, Ideal.ofBits_zero_f32, Ideal.maximumf_def,
    Ideal.addf_def, ← layer_value x1 x0 x2 x3 x w1 b1 hx hw1 hb1 j k]
  refine congrArg (fun s => max (s + x3 (ix1 k)) 0) (Finset.sum_congr rfl fun i _ => ?_)
  rw [val_main_v24_apply, eL, eR, val_main_v23_apply]
  refine congrArg (_ * ·) (Finset.sum_congr rfl fun l _ => ?_)
  rw [eX, eW]

/-- The second layer, on the first layer's result. -/
theorem layer2_stage (x0 : (⟨S4096x128, .f32⟩ : BufTy).Contents (Elt Ideal)) (x1 : (⟨S4096x4096, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (h : Fin 4096 → Fin 128 → ℝ) (w2 : Fin 128 → Fin 128 → ℝ) (b2 : Fin 128 → ℝ)
    (hh : ∀ i l, val_main_v29 (F := Ideal) x0 x1 x2 x3 (ix2 i l) = ((h i l : ℝ) : EReal))
    (hw2 : ∀ l k, x4 (ix2 l k) = ((w2 l k : ℝ) : EReal)) (hb2 : ∀ k, x5 (ix1 k) = ((b2 k : ℝ) : EReal))
    (j : Fin 4096) (k : Fin 128) :
    val_main_v36 (F := Ideal) x0 x1 x2 x3 x4 x5 (ix2 j k) = ((Cert.Spec.layer (adjZ x1) h w2 b2 j k : ℝ) : EReal) := by
  have eB : idx_main_v33 (idx_main_v34 (ix2 j k)) = ix1 k := funext fun a => Fin.ext (by match a with | ⟨0, _⟩ => rfl)
  have eL : ∀ i : Fin 4096, idx_main_v31 (lidx_main_v32 (ix2 j k) i) = ix2 i j := fun i =>
    funext fun a => Fin.ext (by match a with | ⟨0, _⟩ => rfl | ⟨1, _⟩ => rfl)
  have eR : ∀ i : Fin 4096, ridx_main_v32 (ix2 j k) i = ix2 i k := fun i =>
    funext fun a => Fin.ext (by match a with | ⟨0, _⟩ => rfl | ⟨1, _⟩ => rfl)
  have eX : ∀ (i : Fin 4096) (l : Fin 128), lidx_main_v30 (ix2 i k) l = ix2 i l := fun i l =>
    funext fun a => Fin.ext (by match a with | ⟨0, _⟩ => rfl | ⟨1, _⟩ => rfl)
  have eW : ∀ (i : Fin 4096) (l : Fin 128), ridx_main_v30 (ix2 i k) l = ix2 l k := fun i l =>
    funext fun a => Fin.ext (by match a with | ⟨0, _⟩ => rfl | ⟨1, _⟩ => rfl)
  rw [val_main_v36_apply, val_main_v35_apply, val_main_v32_apply, val_main_v34_apply, val_main_v33_apply,
    val_main_call3_v0_apply, val_main_call3_cst_apply, eB, Ideal.ofBits_def, Ideal.ofBits_zero_f32, Ideal.maximumf_def,
    Ideal.addf_def, ← layer_value x1 (val_main_v29 (F := Ideal) x0 x1 x2 x3) x4 x5 h w2 b2 hh hw2 hb2 j k]
  refine congrArg (fun s => max (s + x5 (ix1 k)) 0) (Finset.sum_congr rfl fun i _ => ?_)
  rw [val_main_v31_apply, eL, eR, val_main_v30_apply]
  refine congrArg (_ * ·) (Finset.sum_congr rfl fun l _ => ?_)
  rw [eX, eW]

/-! ## The block -/

/-- When the float arguments hold real numbers, the reference's result holds the specification's two layers. -/
theorem ref_final (x0 : (⟨S4096x128, .f32⟩ : BufTy).Contents (Elt Ideal)) (x1 : (⟨S4096x4096, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x : Fin 4096 → Fin 128 → ℝ) (w1 : Fin 128 → Fin 128 → ℝ) (b1 : Fin 128 → ℝ) (w2 : Fin 128 → Fin 128 → ℝ) (b2 : Fin 128 → ℝ)
    (hx : ∀ i l, x0 (ix2 i l) = ((x i l : ℝ) : EReal)) (hw1 : ∀ l k, x2 (ix2 l k) = ((w1 l k : ℝ) : EReal))
    (hb1 : ∀ k, x3 (ix1 k) = ((b1 k : ℝ) : EReal)) (hw2 : ∀ l k, x4 (ix2 l k) = ((w2 l k : ℝ) : EReal))
    (hb2 : ∀ k, x5 (ix1 k) = ((b2 k : ℝ) : EReal)) (j : Fin 4096) (k : Fin 128) :
    val_main_v36 (F := Ideal) x0 x1 x2 x3 x4 x5 (ix2 j k)
      = ((Cert.Spec.gcn (adjZ x1) x w1 b1 w2 b2 j k : ℝ) : EReal) :=
  layer2_stage x0 x1 x2 x3 x4 x5 (Cert.Spec.layer (adjZ x1) x w1 b1) w2 b2
    (fun i l => layer1_stage x0 x1 x2 x3 x w1 b1 hx hw1 hb1 i l) hw2 hb2 j k

end Cert.ReferenceIdeal.RefValue

end
-- ==== Proof.Finite.lean ====
/-
  The precondition read back: when the printed finiteness predicate holds of the argument arrays, every entry of each
  float argument is a real number.
-/
import proofs.«137975_g29910152249793_cont_9to1_356_2_alg».proof.Pre_finite_inputs
import proofs.«137975_g29910152249793_cont_9to1_356_2_alg».proof.Proof.Gen.Pre_finite_inputs
import Idealize.ShloMosaic.PureOps.Ideal
import Idealize.ShloMosaic.Lib.ValueIdx
import Idealize.ShloMosaic.Lib.ReduceAll

noncomputable section

namespace Cert.Hand

open Idealize.ShloMosaic Idealize.ShloMosaic.ValueIdx Cert.Pre_finite_inputs

/-- The scalar shape has one index. -/
private instance subsingleton_scalar_idx : Subsingleton S_.Idx := ⟨fun a b => funext fun d => d.elim0⟩

/-- The word 0x7F800000 denotes +∞. -/
private theorem ofBits_inf : Ideal.ofBits .f32 0x7F800000#32 = (⊤ : EReal) := by simp [Ideal.ofBits, Ideal.ieee]

/-- An extended real whose absolute value max v (−v) lies strictly below +∞ is a real number: at ⊥ and at ⊤ the
    absolute value is ⊤, which is not below ⊤. -/
private theorem real_of_abs_lt_inf (v : EReal)
    (h : Ideal.cmp .olt (max v (-v)) (Ideal.ofBits .f32 0x7F800000#32) = 1#1) : ∃ r : ℝ, v = ((r : ℝ) : EReal) := by
  rw [ofBits_inf] at h
  induction v using EReal.rec with
  | bot => simp [Ideal.cmp] at h
  | coe r => exact ⟨r, rfl⟩
  | top => simp [Ideal.cmp] at h

/-- One argument: if the conjunction over all entries of |v| < +∞ is 1, every entry of v is a real number. -/
private theorem reals_of_all {s : Shape} {axes : List (Fin s.rank)} (v : FVec Ideal s .f32)
    (hb : S_.BroadcastsInDim s (![] : Fin 0 → Fin s.rank)) (hr : s.ReducesTo axes S_) (hu : 0 < S_.numel)
    (h : Host.reduce IntOp.andi (cmpf .olt (Host.absf v) (broadcastInDim s ![] hb (constant S_ .f32 0x7F800000#32)))
          (constantI S_ 1 1#1) hr hu ix0 = 1#1) :
    ∀ i, ∃ r : ℝ, v i = ((r : ℝ) : EReal) := by
  intro i
  have hi := Host.reduce_andi_all _ _ hr hu ix0 h i
  exact real_of_abs_lt_inf (v i) hi

/-- A conjunction of two scalar bits that is 1 has both bits 1. -/
private theorem andi_ix0 (p q : IVec S_ 1) (h : andi p q ix0 = 1#1) : p ix0 = 1#1 ∧ q ix0 = 1#1 := IntOp.andi_eq_one.1 h

/-- If the finiteness predicate of the six arguments is all ones, each float argument's entries are reals. -/
theorem reals_of_finite (x : FVec Ideal S4096x128 .f32) (a : IVec S4096x4096 32) (w1 : FVec Ideal S128x128 .f32) (b1 : FVec Ideal S128 .f32)
    (w2 : FVec Ideal S128x128 .f32) (b2 : FVec Ideal S128 .f32)
    (h : Cert.Pre_finite_inputs.fn (F := Ideal) x a w1 b1 w2 b2 = (fun _ => 1#1)) :
    (∀ i, ∃ r : ℝ, x i = ((r : ℝ) : EReal)) ∧ (∀ i, ∃ r : ℝ, w1 i = ((r : ℝ) : EReal)) ∧ (∀ i, ∃ r : ℝ, b1 i = ((r : ℝ) : EReal))
      ∧ (∀ i, ∃ r : ℝ, w2 i = ((r : ℝ) : EReal)) ∧ (∀ i, ∃ r : ℝ, b2 i = ((r : ℝ) : EReal)) := by
  have h0 := congrFun h ix0
  dsimp only [Cert.Pre_finite_inputs.fn, Cert.Pre_finite_inputs.fn_part1] at h0
  obtain ⟨h1234, h5⟩ := andi_ix0 _ _ h0
  obtain ⟨h123, h4⟩ := andi_ix0 _ _ h1234
  obtain ⟨h12, h3⟩ := andi_ix0 _ _ h123
  obtain ⟨h1, h2⟩ := andi_ix0 _ _ h12
  exact ⟨reals_of_all x _ _ _ h1, reals_of_all w1 _ _ _ h2, reals_of_all b1 _ _ _ h3, reals_of_all w2 _ _ _ h4,
    reals_of_all b2 _ _ _ h5⟩

end Cert.Hand

end
-- ==== Proof.lean ====
/-
  Two-layer graph convolution over a dense adjacency: the kernel against its reference.

  Both programs compute, per layer, max(d_j · Σ_i â_ij · d_i · (h w)_ik + b_k, 0), where â is the integer adjacency with
  its diagonal forced to one, and d the inverse square roots of its positive column sums. The kernel prepares â and d
  in one pass over the adjacency (column sums accumulated block by block) and runs each layer as a second kind of
  pass that scales the rows of h w by d, accumulates the product with â's row blocks, and applies the column scale
  last; the reference scales the matrix entry by entry on both sides and multiplies once. Every quantity is a finite
  real — integers, and floats the precondition makes finite — so the two groupings agree by the distributive law, and
  an inverse square root is one over a square root on positive reals. The frames: each region of the kernel's
  program is run through the pipeline library's launch, the reference by its straight-line run.
-/
import proofs.«137975_g29910152249793_cont_9to1_356_2_alg».proof.Defs
import proofs.«137975_g29910152249793_cont_9to1_356_2_alg».proof.Proof.Gen.Kernel
import proofs.«137975_g29910152249793_cont_9to1_356_2_alg».proof.Proof.Gen.KernelIdeal
import proofs.«137975_g29910152249793_cont_9to1_356_2_alg».proof.Proof.Gen.ReferenceIdeal
import proofs.«137975_g29910152249793_cont_9to1_356_2_alg».proof.Proof.Gen.Pre_finite_inputs
import proofs.«137975_g29910152249793_cont_9to1_356_2_alg».proof.Proof.Kernel.Frame
import proofs.«137975_g29910152249793_cont_9to1_356_2_alg».proof.Proof.KernelIdeal.Frame
import proofs.«137975_g29910152249793_cont_9to1_356_2_alg».proof.Proof.KernelIdeal.Value
import proofs.«137975_g29910152249793_cont_9to1_356_2_alg».proof.Proof.RefRun
import proofs.«137975_g29910152249793_cont_9to1_356_2_alg».proof.Proof.RefRead
import proofs.«137975_g29910152249793_cont_9to1_356_2_alg».proof.Proof.RefValue
import proofs.«137975_g29910152249793_cont_9to1_356_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The frames -/

theorem frame_kernel : Cert.frame_Kernel := fun m ρ _ => Cert.Kernel.Hand.frame (F := Bits) m ρ
theorem frame_kernelIdeal : Cert.frame_KernelIdeal := fun m ρ _ => Cert.KernelIdeal.Hand.frame (F := Ideal) m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The value claim -/

section Value

open Cert.KernelIdeal Cert.KernelIdeal.Hand

variable (m : (ℓ : Loc Cert.KernelIdeal.nD Cert.KernelIdeal.τ Cert.KernelIdeal.sig) → Buf (Elt Ideal) ℓ)

/-- The float arguments as real arrays (their entries' real parts). -/
def xR (c : Dev Cert.KernelIdeal.nD) (i : Fin 4096) (l : Fin 128) : ℝ :=
  ((m ((c : Thread nD τ).loc main_arg0) : Vec Ideal S4096x128 .f32) (ix2 i l)).toReal
def w1R (c : Dev Cert.KernelIdeal.nD) (l k : Fin 128) : ℝ :=
  ((m ((c : Thread nD τ).loc main_arg2) : Vec Ideal S128x128 .f32) (ix2 l k)).toReal
def b1R (c : Dev Cert.KernelIdeal.nD) (k : Fin 128) : ℝ :=
  ((m ((c : Thread nD τ).loc main_arg3) : Vec Ideal S128 .f32) (ix1 k)).toReal
def w2R (c : Dev Cert.KernelIdeal.nD) (l k : Fin 128) : ℝ :=
  ((m ((c : Thread nD τ).loc main_arg4) : Vec Ideal S128x128 .f32) (ix2 l k)).toReal
def b2R (c : Dev Cert.KernelIdeal.nD) (k : Fin 128) : ℝ :=
  ((m ((c : Thread nD τ).loc main_arg5) : Vec Ideal S128 .f32) (ix1 k)).toReal

/-- The common result: the specification's two layers of the arguments, as an array. -/
def G (c : Dev Cert.KernelIdeal.nD) : Vec Ideal S4096x128 .f32 := fun idx =>
  ((Cert.Spec.gcn (KV.adjM m c) (xR m c) (w1R m c) (b1R m c) (w2R m c) (b2R m c) (idx 0) (idx 1) : ℝ) : EReal)

theorem G_apply (c : Dev Cert.KernelIdeal.nD) (j : Fin 4096) (k : Fin 128) :
    G m c (ix2 j k) = ((Cert.Spec.gcn (KV.adjM m c) (xR m c) (w1R m c) (b1R m c) (w2R m c) (b2R m c) j k : ℝ) : EReal) := rfl

end Value

/-- An entry that is a real is its real part's coercion. -/
theorem coe_toReal_of_real {z : EReal} (h : ∃ r : ℝ, z = ((r : ℝ) : EReal)) : z = ((z.toReal : ℝ) : EReal) := by
  obtain ⟨r, rfl⟩ := h; rw [EReal.toReal_coe]

open Cert.KernelIdeal Cert.KernelIdeal.Hand in
/-- At the exact instance the two programs, run from memories agreeing on the arguments, end with the same result:
    each ends at the specification's two layers of the arguments. -/
theorem algebraic : Cert.algebraic_KernelIdeal_ReferenceIdeal := by
  intro m ρ m' ρ' hpre hagree
  have hfin := fun c => Cert.Hand.reals_of_finite _ _ _ _ _ _ (hpre c)
  have hx : ∀ c i l, (m ((c : Thread nD τ).loc main_arg0) : Vec Ideal S4096x128 .f32) (ix2 i l) = ((xR m c i l : ℝ) : EReal) :=
    fun c i l => coe_toReal_of_real ((hfin c).1 _)
  have hw1 : ∀ c l k, (m ((c : Thread nD τ).loc main_arg2) : Vec Ideal S128x128 .f32) (ix2 l k) = ((w1R m c l k : ℝ) : EReal) :=
    fun c l k => coe_toReal_of_real ((hfin c).2.1 _)
  have hb1 : ∀ c k, (m ((c : Thread nD τ).loc main_arg3) : Vec Ideal S128 .f32) (ix1 k) = ((b1R m c k : ℝ) : EReal) :=
    fun c k => coe_toReal_of_real ((hfin c).2.2.1 _)
  have hw2 : ∀ c l k, (m ((c : Thread nD τ).loc main_arg4) : Vec Ideal S128x128 .f32) (ix2 l k) = ((w2R m c l k : ℝ) : EReal) :=
    fun c l k => coe_toReal_of_real ((hfin c).2.2.2.1 _)
  have hb2 : ∀ c k, (m ((c : Thread nD τ).loc main_arg5) : Vec Ideal S128 .f32) (ix1 k) = ((b2R m c k : ℝ) : EReal) :=
    fun c k => coe_toReal_of_real ((hfin c).2.2.2.2 _)
  refine ⟨fun c => G m c, ?_, ?_⟩
  · -- the kernel: the run's last valuation at the result buffer, entry by entry
    refine (θ_run Cert.KernelIdeal.defs _ _).mono (fun r h c => ?_) (Cert.KernelIdeal.Hand.run_main (F := Ideal) m ρ)
    refine ⟨?_, (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c)⟩
    refine (h c _ (mem_uc main_v0 (by decide))).trans ?_
    funext idx
    obtain ⟨j, k, rfl⟩ : ∃ (j : Fin 4096) (k : Fin 128), idx = ix2 j k := ⟨idx 0, idx 1, eq_ix2 idx⟩
    exact KV.kernel_final m c (xR m c) (w1R m c) (b1R m c) (w2R m c) (b2R m c) (hx c) (hw1 c) (hb1 c) (hw2 c) (hb2 c) j k
  · -- the reference: its run's composed term, entry by entry
    refine (θ_run Cert.ReferenceIdeal.defs _ _).mono (fun r h c => ⟨?_, (h c).2⟩) (Cert.ReferenceIdeal.Value.run (F := Ideal) m' ρ')
    rw [(h c).1, Cert.ReferenceIdeal.Read.val_main_v36_eq, (hagree c).1, (hagree c).2.1, (hagree c).2.2.1, (hagree c).2.2.2.1,
      (hagree c).2.2.2.2.1, (hagree c).2.2.2.2.2]
    funext idx
    obtain ⟨j, k, rfl⟩ : ∃ (j : Fin 4096) (k : Fin 128), idx = ix2 j k := ⟨idx 0, idx 1, eq_ix2 idx⟩
    exact Cert.ReferenceIdeal.RefValue.ref_final _ _ _ _ _ _ (xR m c) (w1R m c) (b1R m c) (w2R m c) (b2R m c)
      (hx c) (hw1 c) (hb1 c) (hw2 c) (hb2 c) j k

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
